-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S50 : Shape := ⟨1, ![50]⟩
abbrev S50x50 : Shape := ⟨2, ![50, 50]⟩
abbrev S100x100 : Shape := ⟨2, ![100, 100]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel
  bcast_S_S50 : S_.BroadcastsInDim S50 (![] : Fin 0 → Fin S50.rank)
  reducesTo_S50_S_d0 : S50.ReducesTo [0] S_
  bcast_S_S50x50 : S_.BroadcastsInDim S50x50 (![] : Fin 0 → Fin S50x50.rank)
  reducesTo_S50x50_S_d0_1 : S50x50.ReducesTo [0, 1] S_
  bcast_S_S100x100 : S_.BroadcastsInDim S100x100 (![] : Fin 0 → Fin S100x100.rank)
  reducesTo_S100x100_S_d0_1 : S100x100.ReducesTo [0, 1] S_

variable [Facts]

def fn_part2 {F : FTy → Type} [FloatOps F] (main_v30 : IVec S_ 1) (main_v32 : IVec S8192 1) : IVec S_ 1 :=
  let main_c_13 : IVec S_ 1 := constantI S_ 1 1#1
  let main_v33 : IVec S_ 1 := (fun x v => Host.reduce IntOp.andi x v reducesTo_S8192_S_d0 h_S_) main_v32 main_c_13
  let main_v34 : IVec S_ 1 := andi main_v30 main_v33
  main_v34

def fn_part1 {F : FTy → Type} [FloatOps F] (main_arg1 : IVec S8192 32) (main_arg2 : IVec S8192 32) (main_v13 : IVec S_ 1) (main_v16 : IVec S100x100 1) : IVec S_ 1 :=
  let main_c_5 : IVec S_ 1 := constantI S_ 1 1#1
  let main_v17 : IVec S_ 1 := (fun x v => Host.reduce IntOp.andi x v reducesTo_S100x100_S_d0_1 h_S_) main_v16 main_c_5
  let main_v18 : IVec S_ 1 := andi main_v13 main_v17
  let main_c_6 : IVec S_ 32 := constantI S_ 32 0#32
  let main_v19 : IVec S8192 32 := broadcastInDim S8192 ![] bcast_S_S8192 main_c_6
  let main_v20 : IVec S8192 1 := cmpi .sge main_arg1 main_v19
  let main_c_7 : IVec S_ 1 := constantI S_ 1 1#1
  let main_v21 : IVec S_ 1 := (fun x v => Host.reduce IntOp.andi x v reducesTo_S8192_S_d0 h_S_) main_v20 main_c_7
  let main_v22 : IVec S_ 1 := andi main_v18 main_v21
  let main_c_8 : IVec S_ 32 := constantI S_ 32 50#32
  let main_v23 : IVec S8192 32 := broadcastInDim S8192 ![] bcast_S_S8192 main_c_8
  let main_v24 : IVec S8192 1 := cmpi .slt main_arg1 main_v23
  let main_c_9 : IVec S_ 1 := constantI S_ 1 1#1
  let main_v25 : IVec S_ 1 := (fun x v => Host.reduce IntOp.andi x v reducesTo_S8192_S_d0 h_S_) main_v24 main_c_9
  let main_v26 : IVec S_ 1 := andi main_v22 main_v25
  let main_c_10 : IVec S_ 32 := constantI S_ 32 0#32
  let main_v27 : IVec S8192 32 := broadcastInDim S8192 ![] bcast_S_S8192 main_c_10
  let main_v28 : IVec S8192 1 := cmpi .sge main_arg2 main_v27
  let main_c_11 : IVec S_ 1 := constantI S_ 1 1#1
  let main_v29 : IVec S_ 1 := (fun x v => Host.reduce IntOp.andi x v reducesTo_S8192_S_d0 h_S_) main_v28 main_c_11
  let main_v30 : IVec S_ 1 := andi main_v26 main_v29
  let main_c_12 : IVec S_ 32 := constantI S_ 32 100#32
  let main_v31 : IVec S8192 32 := broadcastInDim S8192 ![] bcast_S_S8192 main_c_12
  let main_v32 : IVec S8192 1 := cmpi .slt main_arg2 main_v31
  fn_part2 (F := F) main_v30 main_v32

def fn {F : FTy → Type} [FloatOps F] (main_arg0 : FVec F S8192 .f32) (main_arg1 : IVec S8192 32) (main_arg2 : IVec S8192 32) (main_arg3 : FVec F S50 .f32) (main_arg4 : FVec F S50x50 .f32) (main_arg5 : FVec F S100x100 .f32) : IVec S_ 1 :=
  let main_v0 : FVec F S8192 .f32 := Host.absf main_arg0
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  let main_v4 : FVec F S50 .f32 := Host.absf main_arg3
  let main_cst_0 : FVec F S_ .f32 := constant S_ .f32 0x7F800000#32
  let main_v5 : FVec F S50 .f32 := broadcastInDim S50 ![] bcast_S_S50 main_cst_0
  let main_v6 : IVec S50 1 := cmpf .olt main_v4 main_v5
  let main_c_1 : IVec S_ 1 := constantI S_ 1 1#1
  let main_v7 : IVec S_ 1 := (fun x v => Host.reduce IntOp.andi x v reducesTo_S50_S_d0 h_S_) main_v6 main_c_1
  let main_v8 : IVec S_ 1 := andi main_v3 main_v7
  let main_v9 : FVec F S50x50 .f32 := Host.absf main_arg4
  let main_cst_2 : FVec F S_ .f32 := constant S_ .f32 0x7F800000#32
  let main_v10 : FVec F S50x50 .f32 := broadcastInDim S50x50 ![] bcast_S_S50x50 main_cst_2
  let main_v11 : IVec S50x50 1 := cmpf .olt main_v9 main_v10
  let main_c_3 : IVec S_ 1 := constantI S_ 1 1#1
  let main_v12 : IVec S_ 1 := (fun x v => Host.reduce IntOp.andi x v reducesTo_S50x50_S_d0_1 h_S_) main_v11 main_c_3
  let main_v13 : IVec S_ 1 := andi main_v8 main_v12
  let main_v14 : FVec F S100x100 .f32 := Host.absf main_arg5
  let main_cst_4 : FVec F S_ .f32 := constant S_ .f32 0x7F800000#32
  let main_v15 : FVec F S100x100 .f32 := broadcastInDim S100x100 ![] bcast_S_S100x100 main_cst_4
  let main_v16 : IVec S100x100 1 := cmpf .olt main_v14 main_v15
  fn_part1 (F := F) main_arg1 main_arg2 main_v13 main_v16
-- ==== Kernel.lean ====
abbrev S8192 : Shape := ⟨1, ![8192]⟩
abbrev S50 : Shape := ⟨1, ![50]⟩
abbrev S50x50 : Shape := ⟨2, ![50, 50]⟩
abbrev S100x100 : Shape := ⟨2, ![100, 100]⟩
abbrev S_ : Shape := ⟨0, ![]⟩
abbrev S8192x1 : Shape := ⟨2, ![8192, 1]⟩
abbrev S8192x50 : Shape := ⟨2, ![8192, 50]⟩
abbrev S8192x100 : Shape := ⟨2, ![8192, 100]⟩
abbrev S1024 : Shape := ⟨1, ![1024]⟩
abbrev S1024x50 : Shape := ⟨2, ![1024, 50]⟩
abbrev S1024x100 : Shape := ⟨2, ![1024, 100]⟩
abbrev S1024x1024 : Shape := ⟨2, ![1024, 1024]⟩
abbrev S1024x1 : Shape := ⟨2, ![1024, 1]⟩
abbrev S1x1024 : Shape := ⟨2, ![1, 1024]⟩
abbrev S50x1024 : Shape := ⟨2, ![50, 1024]⟩
abbrev S100x1024 : Shape := ⟨2, ![100, 1024]⟩
abbrev S1 : Shape := ⟨1, ![1]⟩
abbrev S100 : Shape := ⟨1, ![100]⟩

abbrev nBuf : Space → Nat
  | .hbm => 130
  | .vmem => 15
  | .smem => 0
  | _ => 0

abbrev hbmTy0_0 (i : Nat) : BufTy := match i % 128 with
  | 0 => ⟨S8192, .f32⟩
  | 1 => ⟨S8192, .i32⟩
  | 2 => ⟨S8192, .i32⟩
  | 3 => ⟨S50, .f32⟩
  | 4 => ⟨S50x50, .f32⟩
  | 5 => ⟨S100x100, .f32⟩
  | 6 => ⟨S_, .f32⟩
  | 7 => ⟨S50, .f32⟩
  | 8 => ⟨S50, .f32⟩
  | 9 => ⟨S50, .f32⟩
  | 10 => ⟨S50, .f32⟩
  | 11 => ⟨S50, .i1⟩
  | 12 => ⟨S50, .f32⟩
  | 13 => ⟨S50, .f32⟩
  | 14 => ⟨S50, .f32⟩
  | 15 => ⟨S50, .f32⟩
  | 16 => ⟨S50, .f32⟩
  | 17 => ⟨S50, .f32⟩
  | 18 => ⟨S50, .f32⟩
  | 19 => ⟨S50, .f32⟩
  | 20 => ⟨S_, .f32⟩
  | 21 => ⟨S50x50, .f32⟩
  | 22 => ⟨S50x50, .f32⟩
  | 23 => ⟨S50x50, .f32⟩
  | 24 => ⟨S50x50, .f32⟩
  | 25 => ⟨S50x50, .i1⟩
  | 26 => ⟨S50x50, .f32⟩
  | 27 => ⟨S50x50, .f32⟩
  | 28 => ⟨S50x50, .f32⟩
  | 29 => ⟨S50x50, .f32⟩
  | 30 => ⟨S50x50, .f32⟩
  | 31 => ⟨S50x50, .f32⟩
  | 32 => ⟨S50x50, .f32⟩
  | 33 => ⟨S50x50, .f32⟩
  | 34 => ⟨S_, .f32⟩
  | 35 => ⟨S100x100, .f32⟩
  | 36 => ⟨S100x100, .f32⟩
  | 37 => ⟨S100x100, .f32⟩
  | 38 => ⟨S100x100, .f32⟩
  | 39 => ⟨S100x100, .i1⟩
  | 40 => ⟨S100x100, .f32⟩
  | 41 => ⟨S100x100, .f32⟩
  | 42 => ⟨S100x100, .f32⟩
  | 43 => ⟨S100x100, .f32⟩
  | 44 => ⟨S100x100, .f32⟩
  | 45 => ⟨S100x100, .f32⟩
  | 46 => ⟨S100x100, .f32⟩
  | 47 => ⟨S100x100, .f32⟩
  | 48 => ⟨S50x50, .f32⟩
  | 49 => ⟨S_, .i32⟩
  | 50 => ⟨S8192, .i32⟩
  | 51 => ⟨S8192, .i1⟩
  | 52 => ⟨S_, .i32⟩
  | 53 => ⟨S8192, .i32⟩
  | 54 => ⟨S8192, .i32⟩
  | 55 => ⟨S8192, .i32⟩
  | 56 => ⟨S8192x1, .i32⟩
  | 57 => ⟨S8192x50, .f32⟩
  | 58 => ⟨S_, .i32⟩
  | 59 => ⟨S8192, .i32⟩
  | 60 => ⟨S8192, .i1⟩
  | 61 => ⟨S_, .i32⟩
  | 62 => ⟨S8192, .i32⟩
  | 63 => ⟨S8192, .i32⟩
  | 64 => ⟨S8192, .i32⟩
  | 65 => ⟨S8192x1, .i32⟩
  | 66 => ⟨S8192x100, .f32⟩
  | 67 => ⟨S8192, .f32⟩
  | 68 => ⟨S_, .i32⟩
  | 69 => ⟨S8192, .i32⟩
  | 70 => ⟨S8192, .i1⟩
  | 71 => ⟨S_, .i32⟩
  | 72 => ⟨S8192, .i32⟩
  | 73 => ⟨S8192, .i32⟩
  | 74 => ⟨S8192, .i32⟩
  | 75 => ⟨S8192x1, .i32⟩
  | 76 => ⟨S8192, .f32⟩
  | 77 => ⟨S8192, .f32⟩
  | 78 => ⟨S_, .f32⟩
  | 79 => ⟨S8192, .f32⟩
  | 80 => ⟨S8192, .f32⟩
  | 81 => ⟨S8192, .f32⟩
  | 82 => ⟨S_, .f32⟩
  | 83 => ⟨S_, .f32⟩
  | 84 => ⟨S1, .f32⟩
  | 85 => ⟨S_, .f32⟩
  | 86 => ⟨S_, .f32⟩
  | 87 => ⟨S_, .f32⟩
  | 88 => ⟨S_, .f32⟩
  | 89 => ⟨S8192, .f32⟩
  | 90 => ⟨S8192, .f32⟩
  | 91 => ⟨S_, .f32⟩
  | 92 => ⟨S8192, .f32⟩
  | 93 => ⟨S8192, .f32⟩
  | 94 => ⟨S8192, .f32⟩
  | 95 => ⟨S_, .f32⟩
  | 96 => ⟨S8192, .f32⟩
  | 97 => ⟨S8192, .f32⟩
  | 98 => ⟨S_, .f32⟩
  | 99 => ⟨S8192, .f32⟩
  | 100 => ⟨S8192, .f32⟩
  | 101 => ⟨S_, .f32⟩
  | 102 => ⟨S50, .f32⟩
  | 103 => ⟨S_, .i32⟩
  | 104 => ⟨S8192, .i32⟩
  | 105 => ⟨S8192, .i1⟩
  | 106 => ⟨S_, .i32⟩
  | 107 => ⟨S8192, .i32⟩
  | 108 => ⟨S8192, .i32⟩
  | 109 => ⟨S8192, .i32⟩
  | 110 => ⟨S8192x1, .i32⟩
  | 111 => ⟨S8192, .f32⟩
  | 112 => ⟨S_, .f32⟩
  | 113 => ⟨S100, .f32⟩
  | 114 => ⟨S_, .i32⟩
  | 115 => ⟨S8192, .i32⟩
  | 116 => ⟨S8192, .i1⟩
  | 117 => ⟨S_, .i32⟩
  | 118 => ⟨S8192, .i32⟩
  | 119 => ⟨S8192, .i32⟩
  | 120 => ⟨S8192, .i32⟩
  | 121 => ⟨S8192x1, .i32⟩
  | 122 => ⟨S8192, .f32⟩
  | 123 => ⟨S8192, .f32⟩
  | 124 => ⟨S8192, .f32⟩
  | 125 => ⟨S_, .f32⟩
  | 126 => ⟨S_, .f32⟩
  | 127 => ⟨S_, .f32⟩
  | _ => ⟨S8192, .f32⟩

abbrev hbmTy0_1 (i : Nat) : BufTy := match i % 128 with
  | 0 => ⟨S_, .f32⟩
  | 1 => ⟨S_, .f32⟩
  | _ => ⟨S8192, .f32⟩

abbrev hbmTy (i : Nat) : BufTy := match i / 128 with
  | 0 => hbmTy0_0 i
  | 1 => hbmTy0_1 i
  | _ => ⟨S8192, .f32⟩

abbrev bufTy : (tb : Table) → Fin (tcTables nBuf tb) → BufTy
  | .hbm, ⟨i, _⟩ => hbmTy i
  | .local _ .vmem, ⟨0, _⟩ => ⟨S1024, .f32⟩
  | .local _ .vmem, ⟨1, _⟩ => ⟨S1024, .f32⟩
  | .local _ .vmem, ⟨2, _⟩ => ⟨S1024, .f32⟩
  | .local _ .vmem, ⟨3, _⟩ => ⟨S1024, .f32⟩
  | .local _ .vmem, ⟨4, _⟩ => ⟨S1024x50, .f32⟩
  | .local _ .vmem, ⟨5, _⟩ => ⟨S1024x50, .f32⟩
  | .local _ .vmem, ⟨6, _⟩ => ⟨S1024x100, .f32⟩
  | .local _ .vmem, ⟨7, _⟩ => ⟨S1024x100, .f32⟩
  | .local _ .vmem, ⟨8, _⟩ => ⟨S1024, .i32⟩
  | .local _ .vmem, ⟨9, _⟩ => ⟨S1024, .i32⟩
  | .local _ .vmem, ⟨10, _⟩ => ⟨S1024, .i32⟩
  | .local _ .vmem, ⟨11, _⟩ => ⟨S1024, .i32⟩
  | .local _ .vmem, ⟨12, _⟩ => ⟨S1024, .f32⟩
  | .local _ .vmem, ⟨13, _⟩ => ⟨S1024, .f32⟩
  | .local _ .vmem, ⟨14, _⟩ => ⟨S1024, .f32⟩
  | _, _ => ⟨S8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_cst : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_v0 : Ref sig .tc := ⟨.hbm, 19, rfl⟩
abbrev main_call1_cst : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_v6 : Ref sig .tc := ⟨.hbm, 27, rfl⟩
abbrev main_call1_v7 : Ref sig .tc := ⟨.hbm, 28, rfl⟩
abbrev main_call1_v8 : Ref sig .tc := ⟨.hbm, 29, rfl⟩
abbrev main_call1_v9 : Ref sig .tc := ⟨.hbm, 30, rfl⟩
abbrev main_call1_v10 : Ref sig .tc := ⟨.hbm, 31, rfl⟩
abbrev main_call1_v11 : Ref sig .tc := ⟨.hbm, 32, rfl⟩
abbrev main_v1 : Ref sig .tc := ⟨.hbm, 33, rfl⟩
abbrev main_call2_cst : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_v5 : Ref sig .tc := ⟨.hbm, 40, rfl⟩
abbrev main_call2_v6 : Ref sig .tc := ⟨.hbm, 41, rfl⟩
abbrev main_call2_v7 : Ref sig .tc := ⟨.hbm, 42, rfl⟩
abbrev main_call2_v8 : Ref sig .tc := ⟨.hbm, 43, rfl⟩
abbrev main_call2_v9 : Ref sig .tc := ⟨.hbm, 44, rfl⟩
abbrev main_call2_v10 : Ref sig .tc := ⟨.hbm, 45, rfl⟩
abbrev main_call2_v11 : Ref sig .tc := ⟨.hbm, 46, rfl⟩
abbrev main_v2 : Ref sig .tc := ⟨.hbm, 47, rfl⟩
abbrev main_v3 : Ref sig .tc := ⟨.hbm, 48, rfl⟩
abbrev main_c : Ref sig .tc := ⟨.hbm, 49, rfl⟩
abbrev main_v4 : Ref sig .tc := ⟨.hbm, 50, rfl⟩
abbrev main_v5 : Ref sig .tc := ⟨.hbm, 51, rfl⟩
abbrev main_c_0 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_c_1 : Ref sig .tc := ⟨.hbm, 58, rfl⟩
abbrev main_v11 : Ref sig .tc := ⟨.hbm, 59, rfl⟩
abbrev main_v12 : Ref sig .tc := ⟨.hbm, 60, rfl⟩
abbrev main_c_2 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_c_3 : Ref sig .tc := ⟨.hbm, 68, rfl⟩
abbrev main_v19 : Ref sig .tc := ⟨.hbm, 69, rfl⟩
abbrev main_v20 : Ref sig .tc := ⟨.hbm, 70, rfl⟩
abbrev main_c_4 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_cst : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_cst_5 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_cst_6 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_cst_7 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_cst_8 : Ref sig .tc := ⟨.hbm, 95, rfl⟩
abbrev main_v40 : Ref sig .tc := ⟨.hbm, 96, rfl⟩
abbrev main_v41 : Ref sig .tc := ⟨.hbm, 97, rfl⟩
abbrev main_cst_9 : Ref sig .tc := ⟨.hbm, 98, rfl⟩
abbrev main_v42 : Ref sig .tc := ⟨.hbm, 99, rfl⟩
abbrev main_v43 : Ref sig .tc := ⟨.hbm, 100, rfl⟩
abbrev main_cst_10 : Ref sig .tc := ⟨.hbm, 101, rfl⟩
abbrev main_v44 : Ref sig .tc := ⟨.hbm, 102, rfl⟩
abbrev main_c_11 : Ref sig .tc := ⟨.hbm, 103, rfl⟩
abbrev main_v45 : Ref sig .tc := ⟨.hbm, 104, rfl⟩
abbrev main_v46 : Ref sig .tc := ⟨.hbm, 105, rfl⟩
abbrev main_c_12 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_cst_13 : Ref sig .tc := ⟨.hbm, 112, rfl⟩
abbrev main_v52 : Ref sig .tc := ⟨.hbm, 113, rfl⟩
abbrev main_c_14 : Ref sig .tc := ⟨.hbm, 114, rfl⟩
abbrev main_v53 : Ref sig .tc := ⟨.hbm, 115, rfl⟩
abbrev main_v54 : Ref sig .tc := ⟨.hbm, 116, rfl⟩
abbrev main_c_15 : Ref sig .tc := ⟨.hbm, 117, rfl⟩
abbrev main_v55 : Ref sig .tc := ⟨.hbm, 118, rfl⟩
abbrev main_v56 : Ref sig .tc := ⟨.hbm, 119, rfl⟩
abbrev main_v57 : Ref sig .tc := ⟨.hbm, 120, rfl⟩
abbrev main_v58 : Ref sig .tc := ⟨.hbm, 121, rfl⟩
abbrev main_v59 : Ref sig .tc := ⟨.hbm, 122, rfl⟩
abbrev main_v60 : Ref sig .tc := ⟨.hbm, 123, rfl⟩
abbrev main_v61 : Ref sig .tc := ⟨.hbm, 124, rfl⟩
abbrev main_cst_16 : Ref sig .tc := ⟨.hbm, 125, rfl⟩
abbrev main_v62 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v60 : BitVec 1 := Scalar.cmpi .eq arg1 c7_i32
  let v61 : BitVec 32 := Scalar.extui v60
  let c0_i32_16 : BitVec 32 := 0#32
  let v62 : BitVec 1 := Scalar.cmpi .ne v61 c0_i32_16
  v62

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x50 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x100 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  bcast_S_S50 : S_.BroadcastsInDim S50 (![] : Fin 0 → Fin S50.rank)
  bcast_S_S50x50 : S_.BroadcastsInDim S50x50 (![] : Fin 0 → Fin S50x50.rank)
  bcast_S_S100x100 : S_.BroadcastsInDim S100x100 (![] : Fin 0 → Fin S100x100.rank)
  transposes_S50x50_S50x50_1_0 : S50x50.Transposes [1, 0] S50x50
  bcast_S_S8192 : S_.BroadcastsInDim S8192 (![] : Fin 0 → Fin S8192.rank)
  bcast_S8192_S8192x1_0 : S8192.BroadcastsInDim S8192x1 (![0] : Fin 1 → Fin S8192x1.rank)
  inb_S1024_S1024_0 : ∀ a, (![0] : Fin 1 → Nat) a + S1024.size a ≤ S1024.size a
  h_S1024 : 0 < S1024.numel
  shapeCasts_S1024_S1024 : S1024.ShapeCasts S1024
  iota_S1024x1024_d0_w32 : S1024x1024.Iotas .tc 32 [0]
  iota_S1024x1024_d1_w32 : S1024x1024.Iotas .tc 32 [1]
  shapeCasts_S1024_S1024x1 : S1024.ShapeCasts S1024x1
  shapeCasts_S1024_S1x1024 : S1024.ShapeCasts S1x1024
  broadcasts_S1024x1_S1024x1024 : S1024x1.Broadcasts S1024x1024
  broadcasts_S1x1024_S1024x1024 : S1x1024.Broadcasts S1024x1024
  iota_S1024x50_d1_w32 : S1024x50.Iotas .tc 32 [1]
  broadcasts_S1024x1_S1024x50 : S1024x1.Broadcasts S1024x50
  natLt_1_32 : 1 < 32
  bitsLt_bf16_f32 : FTy.bits .bf16 < FTy.bits .f32
  inb_S1024x50_S1024x50_0_0 : ∀ a, (![0, 0] : Fin 2 → Nat) a + S1024x50.size a ≤ S1024x50.size a
  h_S1024x50 : 0 < S1024x50.numel
  shapeCasts_S1024x50_S1024x50 : S1024x50.ShapeCasts S1024x50
  transposes_S1024x50_p1_0_S50x1024 : S1024x50.Transposes [1, 0] S50x1024
  iota_S1024x100_d1_w32 : S1024x100.Iotas .tc 32 [1]
  broadcasts_S1024x1_S1024x100 : S1024x1.Broadcasts S1024x100
  inb_S1024x100_S1024x100_0_0 : ∀ a, (![0, 0] : Fin 2 → Nat) a + S1024x100.size a ≤ S1024x100.size a
  h_S1024x100 : 0 < S1024x100.numel
  shapeCasts_S1024x100_S1024x100 : S1024x100.ShapeCasts S1024x100
  transposes_S1024x100_p1_0_S100x1024 : S1024x100.Transposes [1, 0] S100x1024
  reduces_S1024x1024_S1024 : S1024x1024.Reduces [1] S1024
  reducesTo_S8192_S_d0 : S8192.ReducesTo [0] S_
  h_S_ : 0 < S_.numel
  slices_S8192_S1_8191 : S8192.Slices ![8191] S1
  shapeCasts_S1_S_ : S1.ShapeCasts S_
  reducesTo_S50_S_d0 : S50.ReducesTo [0] S_
  reducesTo_S50x50_S50_d1 : S50x50.ReducesTo [1] S50
  reducesTo_S100x100_S100_d0 : S100x100.ReducesTo [0] S100
  gather_S50x50_S8192x1_S8192x50_1_0_n_n_0_1_150_wf : GatherDims.WF S50x50 S8192x1 S8192x50 [1] [0] [] [0] [] 1 ![1, 50]
  gather_S100x100_S8192x1_S8192x100_1_0_n_n_0_1_1100_wf : GatherDims.WF S100x100 S8192x1 S8192x100 [1] [0] [] [0] [] 1 ![1, 100]
  dot_S1024x50_S50x1024_S1024x1024_1_0_0_1_n_n_wf : DotDims.WF S1024x50 S50x1024 S1024x1024 [1] [0] [0] [1] [] []
  dot_S1024x100_S100x1024_S1024x1024_1_0_0_1_n_n_wf : DotDims.WF S1024x100 S100x1024 S1024x1024 [1] [0] [0] [1] [] []
  gather_S50_S8192x1_S8192_n_0_n_n_0_1_1_wf : GatherDims.WF S50 S8192x1 S8192 [] [0] [] [0] [] 1 ![1]
  gather_S100_S8192x1_S8192_n_0_n_n_0_1_1_wf : GatherDims.WF S100 S8192x1 S8192 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024.size a ≤ S8192.size a
  hwx0_0 : ∀ i : grid0.Coords, EltTy.bits .f32 = 32 ∨ (Rect.block (s := S8192) S1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S8192.size a
  hwx0_1 : ∀ i : grid0.Coords, EltTy.bits .f32 = 32 ∨ (Rect.block (s := S8192) S1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x50.size a ≤ S8192x50.size a
  hwx0_2 : ∀ i : grid0.Coords, EltTy.bits .f32 = 32 ∨ (Rect.block (s := S8192x50) S1024x50.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x100.size a ≤ S8192x100.size a
  hwx0_3 : ∀ i : grid0.Coords, EltTy.bits .f32 = 32 ∨ (Rect.block (s := S8192x100) S1024x100.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S8192.size a
  hwx0_4 : ∀ i : grid0.Coords, EltTy.bits .i32 = 32 ∨ (Rect.block (s := S8192) S1024.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S8192.size a
  hwx0_5 : ∀ i : grid0.Coords, EltTy.bits .i32 = 32 ∨ (Rect.block (s := S8192) S1024.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S8192.size a
  hwx0_6 : ∀ i : grid0.Coords, EltTy.bits .f32 = 32 ∨ (Rect.block (s := S8192) S1024.size (cc0_transform_6 i) (hinb0_6 i)).WholeWords (EltTy.packing .f32)

variable [Facts₀]

def gather_S50x50_S8192x1_S8192x50_1_0_n_n_0_1_150 : GatherDims S50x50 S8192x1 S8192x50 where
  offsetDims := [1]
  collapsedSliceDims := [0]
  operandBatchingDims := []
  startIndicesBatchingDims := []
  startIndexMap := [0]
  indexVectorDim := 1
  sliceSizes := ![1, 50]
  wf := gather_S50x50_S8192x1_S8192x50_1_0_n_n_0_1_150_wf
def gather_S100x100_S8192x1_S8192x100_1_0_n_n_0_1_1100 : GatherDims S100x100 S8192x1 S8192x100 where
  offsetDims := [1]
  collapsedSliceDims := [0]
  operandBatchingDims := []
  startIndicesBatchingDims := []
  startIndexMap := [0]
  indexVectorDim := 1
  sliceSizes := ![1, 100]
  wf := gather_S100x100_S8192x1_S8192x100_1_0_n_n_0_1_1100_wf
def dot_S1024x50_S50x1024_S1024x1024_1_0_0_1_n_n : DotDims S1024x50 S50x1024 S1024x1024 where
  lhsContracting := [1]
  rhsContracting := [0]
  lhsNonContracting := [0]
  rhsNonContracting := [1]
  lhsBatch := []
  rhsBatch := []
  wf := dot_S1024x50_S50x1024_S1024x1024_1_0_0_1_n_n_wf
def dot_S1024x100_S100x1024_S1024x1024_1_0_0_1_n_n : DotDims S1024x100 S100x1024 S1024x1024 where
  lhsContracting := [1]
  rhsContracting := [0]
  lhsNonContracting := [0]
  rhsNonContracting := [1]
  lhsBatch := []
  rhsBatch := []
  wf := dot_S1024x100_S100x1024_S1024x1024_1_0_0_1_n_n_wf
def gather_S50_S8192x1_S8192_n_0_n_n_0_1_1 : GatherDims S50 S8192x1 S8192 where
  offsetDims := []
  collapsedSliceDims := [0]
  operandBatchingDims := []
  startIndicesBatchingDims := []
  startIndexMap := [0]
  indexVectorDim := 1
  sliceSizes := ![1]
  wf := gather_S50_S8192x1_S8192_n_0_n_n_0_1_1_wf
def gather_S100_S8192x1_S8192_n_0_n_n_0_1_1 : GatherDims S100 S8192x1 S8192 where
  offsetDims := []
  collapsedSliceDims := [0]
  operandBatchingDims := []
  startIndicesBatchingDims := []
  startIndexMap := [0]
  indexVectorDim := 1
  sliceSizes := ![1]
  wf := gather_S100_S8192x1_S8192_n_0_n_n_0_1_1_wf

abbrev win0_0 : Pipeline.Window sig grid0 :=
  Pipeline.Window.ofSpec (Memref.whole main_arg0) S1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1024x50.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1024x100.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v18) S1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S8192 : Shape := ⟨1, ![8192]⟩
abbrev S50 : Shape := ⟨1, ![50]⟩
abbrev S50x50 : Shape := ⟨2, ![50, 50]⟩
abbrev S100x100 : Shape := ⟨2, ![100, 100]⟩
abbrev S_ : Shape := ⟨0, ![]⟩
abbrev S8192x8192 : Shape := ⟨2, ![8192, 8192]⟩
abbrev S8192x1 : Shape := ⟨2, ![8192, 1]⟩
abbrev S1x8192 : Shape := ⟨2, ![1, 8192]⟩
abbrev S8192x100 : Shape := ⟨2, ![8192, 100]⟩
abbrev S8192x50 : Shape := ⟨2, ![8192, 50]⟩
abbrev S1 : Shape := ⟨1, ![1]⟩
abbrev S100 : Shape := ⟨1, ![100]⟩

abbrev nBuf : Space → Nat
  | .hbm => 179
  | .vmem => 0
  | .smem => 0
  | _ => 0

abbrev hbmTy0_0 (i : Nat) : BufTy := match i % 128 with
  | 0 => ⟨S8192, .f32⟩
  | 1 => ⟨S8192, .i32⟩
  | 2 => ⟨S8192, .i32⟩
  | 3 => ⟨S50, .f32⟩
  | 4 => ⟨S50x50, .f32⟩
  | 5 => ⟨S100x100, .f32⟩
  | 6 => ⟨S_, .f32⟩
  | 7 => ⟨S50, .f32⟩
  | 8 => ⟨S50, .f32⟩
  | 9 => ⟨S50, .f32⟩
  | 10 => ⟨S50, .f32⟩
  | 11 => ⟨S50, .i1⟩
  | 12 => ⟨S50, .f32⟩
  | 13 => ⟨S50, .f32⟩
  | 14 => ⟨S50, .f32⟩
  | 15 => ⟨S50, .f32⟩
  | 16 => ⟨S50, .f32⟩
  | 17 => ⟨S50, .f32⟩
  | 18 => ⟨S50, .f32⟩
  | 19 => ⟨S50, .f32⟩
  | 20 => ⟨S_, .f32⟩
  | 21 => ⟨S50x50, .f32⟩
  | 22 => ⟨S50x50, .f32⟩
  | 23 => ⟨S50x50, .f32⟩
  | 24 => ⟨S50x50, .f32⟩
  | 25 => ⟨S50x50, .i1⟩
  | 26 => ⟨S50x50, .f32⟩
  | 27 => ⟨S50x50, .f32⟩
  | 28 => ⟨S50x50, .f32⟩
  | 29 => ⟨S50x50, .f32⟩
  | 30 => ⟨S50x50, .f32⟩
  | 31 => ⟨S50x50, .f32⟩
  | 32 => ⟨S50x50, .f32⟩
  | 33 => ⟨S50x50, .f32⟩
  | 34 => ⟨S_, .f32⟩
  | 35 => ⟨S100x100, .f32⟩
  | 36 => ⟨S100x100, .f32⟩
  | 37 => ⟨S100x100, .f32⟩
  | 38 => ⟨S100x100, .f32⟩
  | 39 => ⟨S100x100, .i1⟩
  | 40 => ⟨S100x100, .f32⟩
  | 41 => ⟨S100x100, .f32⟩
  | 42 => ⟨S100x100, .f32⟩
  | 43 => ⟨S100x100, .f32⟩
  | 44 => ⟨S100x100, .f32⟩
  | 45 => ⟨S100x100, .f32⟩
  | 46 => ⟨S100x100, .f32⟩
  | 47 => ⟨S100x100, .f32⟩
  | 48 => ⟨S_, .i1⟩
  | 49 => ⟨S8192x8192, .i1⟩
  | 50 => ⟨S8192x8192, .i32⟩
  | 51 => ⟨S_, .i32⟩
  | 52 => ⟨S8192x8192, .i32⟩
  | 53 => ⟨S8192x8192, .i32⟩
  | 54 => ⟨S8192x8192, .i32⟩
  | 55 => ⟨S8192x8192, .i1⟩
  | 56 => ⟨S_, .i1⟩
  | 57 => ⟨S8192x8192, .i1⟩
  | 58 => ⟨S8192x8192, .i1⟩
  | 59 => ⟨S8192x1, .f32⟩
  | 60 => ⟨S1x8192, .f32⟩
  | 61 => ⟨S8192x8192, .f32⟩
  | 62 => ⟨S8192x8192, .f32⟩
  | 63 => ⟨S8192x8192, .f32⟩
  | 64 => ⟨S_, .f32⟩
  | 65 => ⟨S_, .f32⟩
  | 66 => ⟨S8192x8192, .f32⟩
  | 67 => ⟨S8192x8192, .f32⟩
  | 68 => ⟨S_, .f32⟩
  | 69 => ⟨S8192x8192, .f32⟩
  | 70 => ⟨S8192x8192, .f32⟩
  | 71 => ⟨S8192x8192, .f32⟩
  | 72 => ⟨S_, .f32⟩
  | 73 => ⟨S_, .f32⟩
  | 74 => ⟨S8192x8192, .f32⟩
  | 75 => ⟨S8192x8192, .f32⟩
  | 76 => ⟨S_, .i32⟩
  | 77 => ⟨S8192, .i32⟩
  | 78 => ⟨S8192, .i1⟩
  | 79 => ⟨S_, .i32⟩
  | 80 => ⟨S8192, .i32⟩
  | 81 => ⟨S8192, .i32⟩
  | 82 => ⟨S8192, .i32⟩
  | 83 => ⟨S8192x1, .i32⟩
  | 84 => ⟨S8192x100, .f32⟩
  | 85 => ⟨S_, .i32⟩
  | 86 => ⟨S8192, .i32⟩
  | 87 => ⟨S8192, .i1⟩
  | 88 => ⟨S_, .i32⟩
  | 89 => ⟨S8192, .i32⟩
  | 90 => ⟨S8192, .i32⟩
  | 91 => ⟨S8192, .i32⟩
  | 92 => ⟨S8192x1, .i32⟩
  | 93 => ⟨S8192x8192, .f32⟩
  | 94 => ⟨S_, .i32⟩
  | 95 => ⟨S8192, .i32⟩
  | 96 => ⟨S8192, .i1⟩
  | 97 => ⟨S_, .i32⟩
  | 98 => ⟨S8192, .i32⟩
  | 99 => ⟨S8192, .i32⟩
  | 100 => ⟨S8192, .i32⟩
  | 101 => ⟨S8192x1, .i32⟩
  | 102 => ⟨S8192x50, .f32⟩
  | 103 => ⟨S_, .i32⟩
  | 104 => ⟨S8192, .i32⟩
  | 105 => ⟨S8192, .i1⟩
  | 106 => ⟨S_, .i32⟩
  | 107 => ⟨S8192, .i32⟩
  | 108 => ⟨S8192, .i32⟩
  | 109 => ⟨S8192, .i32⟩
  | 110 => ⟨S8192x1, .i32⟩
  | 111 => ⟨S8192x8192, .f32⟩
  | 112 => ⟨S8192x8192, .f32⟩
  | 113 => ⟨S8192x8192, .f32⟩
  | 114 => ⟨S8192x8192, .f32⟩
  | 115 => ⟨S_, .f32⟩
  | 116 => ⟨S8192, .f32⟩
  | 117 => ⟨S_, .i32⟩
  | 118 => ⟨S8192, .i32⟩
  | 119 => ⟨S8192, .i1⟩
  | 120 => ⟨S_, .i32⟩
  | 121 => ⟨S8192, .i32⟩
  | 122 => ⟨S8192, .i32⟩
  | 123 => ⟨S8192, .i32⟩
  | 124 => ⟨S8192x1, .i32⟩
  | 125 => ⟨S8192, .f32⟩
  | 126 => ⟨S8192, .f32⟩
  | 127 => ⟨S_, .f32⟩
  | _ => ⟨S8192, .f32⟩

abbrev hbmTy0_1 (i : Nat) : BufTy := match i % 128 with
  | 0 => ⟨S8192, .f32⟩
  | 1 => ⟨S8192, .f32⟩
  | 2 => ⟨S8192, .f32⟩
  | 3 => ⟨S_, .f32⟩
  | 4 => ⟨S_, .f32⟩
  | 5 => ⟨S1, .f32⟩
  | 6 => ⟨S_, .f32⟩
  | 7 => ⟨S_, .f32⟩
  | 8 => ⟨S_, .f32⟩
  | 9 => ⟨S_, .f32⟩
  | 10 => ⟨S8192, .f32⟩
  | 11 => ⟨S8192, .f32⟩
  | 12 => ⟨S_, .f32⟩
  | 13 => ⟨S8192, .f32⟩
  | 14 => ⟨S8192, .f32⟩
  | 15 => ⟨S8192, .f32⟩
  | 16 => ⟨S_, .f32⟩
  | 17 => ⟨S8192, .f32⟩
  | 18 => ⟨S8192, .f32⟩
  | 19 => ⟨S_, .f32⟩
  | 20 => ⟨S8192, .f32⟩
  | 21 => ⟨S8192, .f32⟩
  | 22 => ⟨S_, .f32⟩
  | 23 => ⟨S50, .f32⟩
  | 24 => ⟨S_, .i32⟩
  | 25 => ⟨S8192, .i32⟩
  | 26 => ⟨S8192, .i1⟩
  | 27 => ⟨S_, .i32⟩
  | 28 => ⟨S8192, .i32⟩
  | 29 => ⟨S8192, .i32⟩
  | 30 => ⟨S8192, .i32⟩
  | 31 => ⟨S8192x1, .i32⟩
  | 32 => ⟨S8192, .f32⟩
  | 33 => ⟨S_, .f32⟩
  | 34 => ⟨S100, .f32⟩
  | 35 => ⟨S_, .i32⟩
  | 36 => ⟨S8192, .i32⟩
  | 37 => ⟨S8192, .i1⟩
  | 38 => ⟨S_, .i32⟩
  | 39 => ⟨S8192, .i32⟩
  | 40 => ⟨S8192, .i32⟩
  | 41 => ⟨S8192, .i32⟩
  | 42 => ⟨S8192x1, .i32⟩
  | 43 => ⟨S8192, .f32⟩
  | 44 => ⟨S8192, .f32⟩
  | 45 => ⟨S8192, .f32⟩
  | 46 => ⟨S_, .f32⟩
  | 47 => ⟨S_, .f32⟩
  | 48 => ⟨S_, .f32⟩
  | 49 => ⟨S_, .f32⟩
  | 50 => ⟨S_, .f32⟩
  | _ => ⟨S8192, .f32⟩

abbrev hbmTy (i : Nat) : BufTy := match i / 128 with
  | 0 => hbmTy0_0 i
  | 1 => hbmTy0_1 i
  | _ => ⟨S8192, .f32⟩

abbrev bufTy : (tb : Table) → Fin (tcTables nBuf tb) → BufTy
  | .hbm, ⟨i, _⟩ => hbmTy i
  | _, _ => ⟨S8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_cst : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_v0 : Ref sig .tc := ⟨.hbm, 19, rfl⟩
abbrev main_call1_cst : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_v6 : Ref sig .tc := ⟨.hbm, 27, rfl⟩
abbrev main_call1_v7 : Ref sig .tc := ⟨.hbm, 28, rfl⟩
abbrev main_call1_v8 : Ref sig .tc := ⟨.hbm, 29, rfl⟩
abbrev main_call1_v9 : Ref sig .tc := ⟨.hbm, 30, rfl⟩
abbrev main_call1_v10 : Ref sig .tc := ⟨.hbm, 31, rfl⟩
abbrev main_call1_v11 : Ref sig .tc := ⟨.hbm, 32, rfl⟩
abbrev main_v1 : Ref sig .tc := ⟨.hbm, 33, rfl⟩
abbrev main_call2_cst : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_v5 : Ref sig .tc := ⟨.hbm, 40, rfl⟩
abbrev main_call2_v6 : Ref sig .tc := ⟨.hbm, 41, rfl⟩
abbrev main_call2_v7 : Ref sig .tc := ⟨.hbm, 42, rfl⟩
abbrev main_call2_v8 : Ref sig .tc := ⟨.hbm, 43, rfl⟩
abbrev main_call2_v9 : Ref sig .tc := ⟨.hbm, 44, rfl⟩
abbrev main_call2_v10 : Ref sig .tc := ⟨.hbm, 45, rfl⟩
abbrev main_call2_v11 : Ref sig .tc := ⟨.hbm, 46, rfl⟩
abbrev main_v2 : Ref sig .tc := ⟨.hbm, 47, rfl⟩
abbrev main_c : Ref sig .tc := ⟨.hbm, 48, rfl⟩
abbrev main_v3 : Ref sig .tc := ⟨.hbm, 49, rfl⟩
abbrev main_call3_v0 : Ref sig .tc := ⟨.hbm, 50, rfl⟩
abbrev main_call3_c : Ref sig .tc := ⟨.hbm, 51, rfl⟩
abbrev main_call3_v1 : Ref sig .tc := ⟨.hbm, 52, rfl⟩
abbrev main_call3_v2 : Ref sig .tc := ⟨.hbm, 53, rfl⟩
abbrev main_call3_v3 : Ref sig .tc := ⟨.hbm, 54, rfl⟩
abbrev main_call3_v4 : Ref sig .tc := ⟨.hbm, 55, rfl⟩
abbrev main_call3_c_0 : Ref sig .tc := ⟨.hbm, 56, rfl⟩
abbrev main_call3_v5 : Ref sig .tc := ⟨.hbm, 57, rfl⟩
abbrev main_v4 : Ref sig .tc := ⟨.hbm, 58, rfl⟩
abbrev main_v5 : Ref sig .tc := ⟨.hbm, 59, rfl⟩
abbrev main_v6 : Ref sig .tc := ⟨.hbm, 60, rfl⟩
abbrev main_v7 : Ref sig .tc := ⟨.hbm, 61, rfl⟩
abbrev main_v8 : Ref sig .tc := ⟨.hbm, 62, rfl⟩
abbrev main_v9 : Ref sig .tc := ⟨.hbm, 63, rfl⟩
abbrev main_cst : Ref sig .tc := ⟨.hbm, 64, rfl⟩
abbrev main_call4_v0 : Ref sig .tc := ⟨.hbm, 65, rfl⟩
abbrev main_call4_v1 : Ref sig .tc := ⟨.hbm, 66, rfl⟩
abbrev main_v10 : Ref sig .tc := ⟨.hbm, 67, rfl⟩
abbrev main_cst_0 : Ref sig .tc := ⟨.hbm, 68, rfl⟩
abbrev main_v11 : Ref sig .tc := ⟨.hbm, 69, rfl⟩
abbrev main_v12 : Ref sig .tc := ⟨.hbm, 70, rfl⟩
abbrev main_v13 : Ref sig .tc := ⟨.hbm, 71, rfl⟩
abbrev main_cst_1 : Ref sig .tc := ⟨.hbm, 72, rfl⟩
abbrev main_call5_v0 : Ref sig .tc := ⟨.hbm, 73, rfl⟩
abbrev main_call5_v1 : Ref sig .tc := ⟨.hbm, 74, rfl⟩
abbrev main_v14 : Ref sig .tc := ⟨.hbm, 75, rfl⟩
abbrev main_c_2 : Ref sig .tc := ⟨.hbm, 76, rfl⟩
abbrev main_v15 : Ref sig .tc := ⟨.hbm, 77, rfl⟩
abbrev main_v16 : Ref sig .tc := ⟨.hbm, 78, rfl⟩
abbrev main_c_3 : Ref sig .tc := ⟨.hbm, 79, rfl⟩
abbrev main_v17 : Ref sig .tc := ⟨.hbm, 80, rfl⟩
abbrev main_v18 : Ref sig .tc := ⟨.hbm, 81, rfl⟩
abbrev main_v19 : Ref sig .tc := ⟨.hbm, 82, rfl⟩
abbrev main_v20 : Ref sig .tc := ⟨.hbm, 83, rfl⟩
abbrev main_v21 : Ref sig .tc := ⟨.hbm, 84, rfl⟩
abbrev main_c_4 : Ref sig .tc := ⟨.hbm, 85, rfl⟩
abbrev main_v22 : Ref sig .tc := ⟨.hbm, 86, rfl⟩
abbrev main_v23 : Ref sig .tc := ⟨.hbm, 87, rfl⟩
abbrev main_c_5 : Ref sig .tc := ⟨.hbm, 88, rfl⟩
abbrev main_v24 : Ref sig .tc := ⟨.hbm, 89, rfl⟩
abbrev main_v25 : Ref sig .tc := ⟨.hbm, 90, rfl⟩
abbrev main_v26 : Ref sig .tc := ⟨.hbm, 91, rfl⟩
abbrev main_v27 : Ref sig .tc := ⟨.hbm, 92, rfl⟩
abbrev main_v28 : Ref sig .tc := ⟨.hbm, 93, rfl⟩
abbrev main_c_6 : Ref sig .tc := ⟨.hbm, 94, rfl⟩
abbrev main_v29 : Ref sig .tc := ⟨.hbm, 95, rfl⟩
abbrev main_v30 : Ref sig .tc := ⟨.hbm, 96, rfl⟩
abbrev main_c_7 : Ref sig .tc := ⟨.hbm, 97, rfl⟩
abbrev main_v31 : Ref sig .tc := ⟨.hbm, 98, rfl⟩
abbrev main_v32 : Ref sig .tc := ⟨.hbm, 99, rfl⟩
abbrev main_v33 : Ref sig .tc := ⟨.hbm, 100, rfl⟩
abbrev main_v34 : Ref sig .tc := ⟨.hbm, 101, rfl⟩
abbrev main_v35 : Ref sig .tc := ⟨.hbm, 102, rfl⟩
abbrev main_c_8 : Ref sig .tc := ⟨.hbm, 103, rfl⟩
abbrev main_v36 : Ref sig .tc := ⟨.hbm, 104, rfl⟩
abbrev main_v37 : Ref sig .tc := ⟨.hbm, 105, rfl⟩
abbrev main_c_9 : Ref sig .tc := ⟨.hbm, 106, rfl⟩
abbrev main_v38 : Ref sig .tc := ⟨.hbm, 107, rfl⟩
abbrev main_v39 : Ref sig .tc := ⟨.hbm, 108, rfl⟩
abbrev main_v40 : Ref sig .tc := ⟨.hbm, 109, rfl⟩
abbrev main_v41 : Ref sig .tc := ⟨.hbm, 110, rfl⟩
abbrev main_v42 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_cst_10 : Ref sig .tc := ⟨.hbm, 115, rfl⟩
abbrev main_v46 : Ref sig .tc := ⟨.hbm, 116, rfl⟩
abbrev main_c_11 : Ref sig .tc := ⟨.hbm, 117, rfl⟩
abbrev main_v47 : Ref sig .tc := ⟨.hbm, 118, rfl⟩
abbrev main_v48 : Ref sig .tc := ⟨.hbm, 119, rfl⟩
abbrev main_c_12 : Ref sig .tc := ⟨.hbm, 120, rfl⟩
abbrev main_v49 : Ref sig .tc := ⟨.hbm, 121, rfl⟩
abbrev main_v50 : Ref sig .tc := ⟨.hbm, 122, rfl⟩
abbrev main_v51 : Ref sig .tc := ⟨.hbm, 123, rfl⟩
abbrev main_v52 : Ref sig .tc := ⟨.hbm, 124, rfl⟩
abbrev main_v53 : Ref sig .tc := ⟨.hbm, 125, rfl⟩
abbrev main_v54 : Ref sig .tc := ⟨.hbm, 126, rfl⟩
abbrev main_cst_13 : Ref sig .tc := ⟨.hbm, 127, rfl⟩
abbrev main_v55 : Ref sig .tc := ⟨.hbm, 128, rfl⟩
abbrev main_v56 : Ref sig .tc := ⟨.hbm, 129, rfl⟩
abbrev main_v57 : Ref sig .tc := ⟨.hbm, 130, rfl⟩
abbrev main_cst_14 : Ref sig .tc := ⟨.hbm, 131, rfl⟩
abbrev main_v58 : Ref sig .tc := ⟨.hbm, 132, rfl⟩
abbrev main_v59 : Ref sig .tc := ⟨.hbm, 133, rfl⟩
abbrev main_v60 : Ref sig .tc := ⟨.hbm, 134, rfl⟩
abbrev main_cst_15 : Ref sig .tc := ⟨.hbm, 135, rfl⟩
abbrev main_v61 : Ref sig .tc := ⟨.hbm, 136, rfl⟩
abbrev main_v62 : Ref sig .tc := ⟨.hbm, 137, rfl⟩
abbrev main_v63 : Ref sig .tc := ⟨.hbm, 138, rfl⟩
abbrev main_v64 : Ref sig .tc := ⟨.hbm, 139, rfl⟩
abbrev main_cst_16 : Ref sig .tc := ⟨.hbm, 140, rfl⟩
abbrev main_v65 : Ref sig .tc := ⟨.hbm, 141, rfl⟩
abbrev main_v66 : Ref sig .tc := ⟨.hbm, 142, rfl⟩
abbrev main_v67 : Ref sig .tc := ⟨.hbm, 143, rfl⟩
abbrev main_cst_17 : Ref sig .tc := ⟨.hbm, 144, rfl⟩
abbrev main_v68 : Ref sig .tc := ⟨.hbm, 145, rfl⟩
abbrev main_v69 : Ref sig .tc := ⟨.hbm, 146, rfl⟩
abbrev main_cst_18 : Ref sig .tc := ⟨.hbm, 147, rfl⟩
abbrev main_v70 : Ref sig .tc := ⟨.hbm, 148, rfl⟩
abbrev main_v71 : Ref sig .tc := ⟨.hbm, 149, rfl⟩
abbrev main_cst_19 : Ref sig .tc := ⟨.hbm, 150, rfl⟩
abbrev main_v72 : Ref sig .tc := ⟨.hbm, 151, rfl⟩
abbrev main_c_20 : Ref sig .tc := ⟨.hbm, 152, rfl⟩
abbrev main_v73 : Ref sig .tc := ⟨.hbm, 153, rfl⟩
abbrev main_v74 : Ref sig .tc := ⟨.hbm, 154, rfl⟩
abbrev main_c_21 : Ref sig .tc := ⟨.hbm, 155, rfl⟩
abbrev main_v75 : Ref sig .tc := ⟨.hbm, 156, rfl⟩
abbrev main_v76 : Ref sig .tc := ⟨.hbm, 157, rfl⟩
abbrev main_v77 : Ref sig .tc := ⟨.hbm, 158, rfl⟩
abbrev main_v78 : Ref sig .tc := ⟨.hbm, 159, rfl⟩
abbrev main_v79 : Ref sig .tc := ⟨.hbm, 160, rfl⟩
abbrev main_cst_22 : Ref sig .tc := ⟨.hbm, 161, rfl⟩
abbrev main_v80 : Ref sig .tc := ⟨.hbm, 162, rfl⟩
abbrev main_c_23 : Ref sig .tc := ⟨.hbm, 163, rfl⟩
abbrev main_v81 : Ref sig .tc := ⟨.hbm, 164, rfl⟩
abbrev main_v82 : Ref sig .tc := ⟨.hbm, 165, rfl⟩
abbrev main_c_24 : Ref sig .tc := ⟨.hbm, 166, rfl⟩
abbrev main_v83 : Ref sig .tc := ⟨.hbm, 167, rfl⟩
abbrev main_v84 : Ref sig .tc := ⟨.hbm, 168, rfl⟩
abbrev main_v85 : Ref sig .tc := ⟨.hbm, 169, rfl⟩
abbrev main_v86 : Ref sig .tc := ⟨.hbm, 170, rfl⟩
abbrev main_v87 : Ref sig .tc := ⟨.hbm, 171, rfl⟩
abbrev main_v88 : Ref sig .tc := ⟨.hbm, 172, rfl⟩
abbrev main_v89 : Ref sig .tc := ⟨.hbm, 173, rfl⟩
abbrev main_cst_25 : Ref sig .tc := ⟨.hbm, 174, rfl⟩
abbrev main_v90 : Ref sig .tc := ⟨.hbm, 175, rfl⟩
abbrev main_v91 : Ref sig .tc := ⟨.hbm, 176, rfl⟩
abbrev main_v92 : Ref sig .tc := ⟨.hbm, 177, rfl⟩
abbrev main_v93 : Ref sig .tc := ⟨.hbm, 178, rfl⟩

abbrev nD : Nat := 1
abbrev τ : Topo := Topo.v7x

variable {F : FTy → Type} [FloatOps F]

class Facts₀ : Prop where
  bcast_S_S50 : S_.BroadcastsInDim S50 (![] : Fin 0 → Fin S50.rank)
  bcast_S_S50x50 : S_.BroadcastsInDim S50x50 (![] : Fin 0 → Fin S50x50.rank)
  bcast_S_S100x100 : S_.BroadcastsInDim S100x100 (![] : Fin 0 → Fin S100x100.rank)
  bcast_S_S8192x8192 : S_.BroadcastsInDim S8192x8192 (![] : Fin 0 → Fin S8192x8192.rank)
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192 : S_.BroadcastsInDim S8192 (![] : Fin 0 → Fin S8192.rank)
  transposes_S8192x8192_S8192x8192_1_0 : S8192x8192.Transposes [1, 0] S8192x8192
  reducesTo_S8192x8192_S8192_d1 : S8192x8192.ReducesTo [1] S8192
  h_S_ : 0 < S_.numel
  reducesTo_S8192_S_d0 : S8192.ReducesTo [0] S_
  slices_S8192_S1_8191 : S8192.Slices ![8191] S1
  shapeCasts_S1_S_ : S1.ShapeCasts S_
  reducesTo_S50_S_d0 : S50.ReducesTo [0] S_
  reducesTo_S50x50_S50_d1 : S50x50.ReducesTo [1] S50
  reducesTo_S100x100_S100_d0 : S100x100.ReducesTo [0] S100
  gather_S100x100_S8192x1_S8192x100_1_0_n_n_0_1_1100_wf : GatherDims.WF S100x100 S8192x1 S8192x100 [1] [0] [] [0] [] 1 ![1, 100]
  gather_S8192x100_S8192x1_S8192x8192_0_1_n_n_1_1_81921_wf : GatherDims.WF S8192x100 S8192x1 S8192x8192 [0] [1] [] [1] [] 1 ![8192, 1]
  gather_S50x50_S8192x1_S8192x50_1_0_n_n_0_1_150_wf : GatherDims.WF S50x50 S8192x1 S8192x50 [1] [0] [] [0] [] 1 ![1, 50]
  gather_S8192x50_S8192x1_S8192x8192_0_1_n_n_1_1_81921_wf : GatherDims.WF S8192x50 S8192x1 S8192x8192 [0] [1] [] [1] [] 1 ![8192, 1]
  gather_S50_S8192x1_S8192_n_0_n_n_0_1_1_wf : GatherDims.WF S50 S8192x1 S8192 [] [0] [] [0] [] 1 ![1]
  gather_S100_S8192x1_S8192_n_0_n_n_0_1_1_wf : GatherDims.WF S100 S8192x1 S8192 [] [0] [] [0] [] 1 ![1]

variable [Facts₀]

def gather_S100x100_S8192x1_S8192x100_1_0_n_n_0_1_1100 : GatherDims S100x100 S8192x1 S8192x100 where
  offsetDims := [1]
  collapsedSliceDims := [0]
  operandBatchingDims := []
  startIndicesBatchingDims := []
  startIndexMap := [0]
  indexVectorDim := 1
  sliceSizes := ![1, 100]
  wf := gather_S100x100_S8192x1_S8192x100_1_0_n_n_0_1_1100_wf
def gather_S8192x100_S8192x1_S8192x8192_0_1_n_n_1_1_81921 : GatherDims S8192x100 S8192x1 S8192x8192 where
  offsetDims := [0]
  collapsedSliceDims := [1]
  operandBatchingDims := []
  startIndicesBatchingDims := []
  startIndexMap := [1]
  indexVectorDim := 1
  sliceSizes := ![8192, 1]
  wf := gather_S8192x100_S8192x1_S8192x8192_0_1_n_n_1_1_81921_wf
def gather_S50x50_S8192x1_S8192x50_1_0_n_n_0_1_150 : GatherDims S50x50 S8192x1 S8192x50 where
  offsetDims := [1]
  collapsedSliceDims := [0]
  operandBatchingDims := []
  startIndicesBatchingDims := []
  startIndexMap := [0]
  indexVectorDim := 1
  sliceSizes := ![1, 50]
  wf := gather_S50x50_S8192x1_S8192x50_1_0_n_n_0_1_150_wf
def gather_S8192x50_S8192x1_S8192x8192_0_1_n_n_1_1_81921 : GatherDims S8192x50 S8192x1 S8192x8192 where
  offsetDims := [0]
  collapsedSliceDims := [1]
  operandBatchingDims := []
  startIndicesBatchingDims := []
  startIndexMap := [1]
  indexVectorDim := 1
  sliceSizes := ![8192, 1]
  wf := gather_S8192x50_S8192x1_S8192x8192_0_1_n_n_1_1_81921_wf
def gather_S50_S8192x1_S8192_n_0_n_n_0_1_1 : GatherDims S50 S8192x1 S8192 where
  offsetDims := []
  collapsedSliceDims := [0]
  operandBatchingDims := []
  startIndicesBatchingDims := []
  startIndexMap := [0]
  indexVectorDim := 1
  sliceSizes := ![1]
  wf := gather_S50_S8192x1_S8192_n_0_n_n_0_1_1_wf
def gather_S100_S8192x1_S8192_n_0_n_n_0_1_1 : GatherDims S100 S8192x1 S8192 where
  offsetDims := []
  collapsedSliceDims := [0]
  operandBatchingDims := []
  startIndicesBatchingDims := []
  startIndexMap := [0]
  indexVectorDim := 1
  sliceSizes := ![1]
  wf := gather_S100_S8192x1_S8192_n_0_n_n_0_1_1_wf

class Facts : Prop extends Facts₀ where

variable [Facts]
-- ==== Proof.K.Conds.lean ====
import proofs.«401946_j23227183137529_1_alg».proof.Proof.Gen.Kernel.Launch
import proofs.«401946_j23227183137529_1_alg».proof.Proof.Gen.Kernel.Skeleton
import proofs.«401946_j23227183137529_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two branch conditions of the body, as functions of the grid point

The grid is 8 × 8, row-major: point `t` is the query tile `t / 8` against the key tile `t % 8`.
The accumulator is cleared at the first key tile and copied to the output block at the last. -/

/-- "this is the first key tile": the accumulator is cleared. -/
abbrev isFirst (i : grid0.Coords) : Prop :=
  (Scalar.cmpi .ne (Scalar.extui (Scalar.cmpi .eq (BitVec.ofNat 32 (i 1).val) 0#32)) 0#32) = 1#1
theorem isFirst_iff : ∀ t : Fin cfg0.N, isFirst (grid0.coords t) ↔ t.val % 8 = 0 :=
  (by decide +kernel : ∀ t : Fin grid0.N, isFirst (grid0.coords t) ↔ t.val % 8 = 0)

/-- "this is the last key tile": the accumulator is copied to the output block. -/
abbrev isLast (i : grid0.Coords) : Prop := k0_cond2 i = 1#1
theorem isLast_iff : ∀ t : Fin cfg0.N, isLast (grid0.coords t) ↔ t.val % 8 = 7 :=
  (by decide +kernel : ∀ t : Fin grid0.N, isLast (grid0.coords t) ↔ t.val % 8 = 7)

/-! ## Where the windows are idle, and when the output block is written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- The output window is idle except at the last key tile, -/
theorem idle6 : ∀ t : Fin cfg0.N, ¬isLast (grid0.coords t) → cfg0.idle 6 (grid0.coords t) = true := by decide +kernel
/-- where it is live, -/
theorem live6 : ∀ t : Fin cfg0.N, isLast (grid0.coords t) → cfg0.idle 6 (grid0.coords t) = false := by decide +kernel
/-- and it is written back only there. -/
theorem noFlush6 : ∀ t : Fin cfg0.N, ¬isLast (grid0.coords t) → (cfg0.win 6).flush t = false := by decide +kernel

/-! ## The memrefs the body is called with -/

abbrev ms0 (t : Fin cfg0.N) : Memref sig .tc .vmem S1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x50 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x100 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024 .i32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024 .f32 := win0_6.stage (cfg0.slots t 6)
abbrev hs6 (t : Fin cfg0.N) : (ms6 t).IsWhole := hstage0_6 ((cfg0.slots t 6).cast nbuf0_6)
/-- The accumulator: a scratch buffer of the kernel's own, carried from key tile to key tile. -/
abbrev accM : Memref sig .tc .vmem S1024 .f32 := Memref.whole cc0_scratch0
abbrev accV : View sig .tc .vmem S1024 .f32 := accM.view
/-- One staging buffer of the output window, through which its contents are stated. -/
abbrev outV : View sig .tc .vmem S1024 .f32 := (Memref.whole cc0_stg6_0 : Memref sig .tc .vmem S1024 .f32).view

/-- The region's class invariant with the accumulator as a memref owned at some contents. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.Kernel.Hand

end
-- ==== Proof.K.RunA.lean ====
import proofs.«401946_j23227183137529_1_alg».proof.Proof.K.Conds

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body on whole memrefs holding the six input blocks, the output block's buffer at any contents `xi` and the
    accumulator at anything: it runs to the end, hands the input buffers back as it found them, the output buffer too, and leaves in the accumulator what its stores wrote (a list of pieces, last store first). -/
noncomputable def runA (c : Dev nD) (i : grid0.Coords) (arg2 : Memref sig .tc .vmem S1024 .f32) (harg2 : arg2.IsWhole) (arg3 : Memref sig .tc .vmem S1024 .f32) (harg3 : arg3.IsWhole) (arg4 : Memref sig .tc .vmem S1024x50 .f32) (harg4 : arg4.IsWhole) (arg5 : Memref sig .tc .vmem S1024x100 .f32) (harg5 : arg5.IsWhole) (arg6 : Memref sig .tc .vmem S1024 .i32) (harg6 : arg6.IsWhole) (arg7 : Memref sig .tc .vmem S1024 .i32) (harg7 : arg7.IsWhole) (arg8 : Memref sig .tc .vmem S1024 .f32) (harg8 : arg8.IsWhole) (arg9 : Memref sig .tc .vmem S1024 .f32) (harg9 : arg9.IsWhole) (hc0 : isFirst i) (hc1 : ¬isLast i)
    (x0 : Vec F S1024 .f32) (x1 : Vec F S1024 .f32) (x2 : Vec F S1024x50 .f32) (x3 : Vec F S1024x100 .f32) (x4 : Vec F S1024 .i32) (x5 : Vec F S1024 .i32) :
    { LA : List (View.Piece (Elt F) S1024 .f32) //
      ∀ (xi : Vec F S1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi ∗ (∃ f, arg9.view.loc (c : Thread nD τ) ↦[arg9.view.set]{fullShare} arg9.view.writes (Elt F) f LA)) -∗ K ⟨⟩))
          ⊢ wp frame (wpE (defs₀ (F := F)) Variants.none c none) E (cc0__excitation_kernel i arg2 harg2 arg3 harg3 arg4 harg4 arg5 harg5 arg6 harg6 arg7 harg7 arg8 harg8 arg9 harg9) K } := by
  refine ⟨?_, fun xi E K => ?run⟩
  case run =>
    simp only [cc0__excitation_kernel_eq_skeleton]; unfold cc0__excitation_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%da, %fa, -, HA⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HA

end Cert.Kernel.Hand

end
-- ==== Proof.K.RunB.lean ====
import proofs.«401946_j23227183137529_1_alg».proof.Proof.K.Conds

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body on whole memrefs holding the six input blocks, the output block's buffer at any contents `xi` and the
    accumulator at `xs`: it runs to the end, hands the input buffers back as it found them, the output buffer too, and leaves in the accumulator what its stores wrote (a list of pieces, last store first). -/
noncomputable def runB (c : Dev nD) (i : grid0.Coords) (arg2 : Memref sig .tc .vmem S1024 .f32) (harg2 : arg2.IsWhole) (arg3 : Memref sig .tc .vmem S1024 .f32) (harg3 : arg3.IsWhole) (arg4 : Memref sig .tc .vmem S1024x50 .f32) (harg4 : arg4.IsWhole) (arg5 : Memref sig .tc .vmem S1024x100 .f32) (harg5 : arg5.IsWhole) (arg6 : Memref sig .tc .vmem S1024 .i32) (harg6 : arg6.IsWhole) (arg7 : Memref sig .tc .vmem S1024 .i32) (harg7 : arg7.IsWhole) (arg8 : Memref sig .tc .vmem S1024 .f32) (harg8 : arg8.IsWhole) (arg9 : Memref sig .tc .vmem S1024 .f32) (harg9 : arg9.IsWhole) (hc0 : ¬isFirst i) (hc1 : ¬isLast i)
    (x0 : Vec F S1024 .f32) (x1 : Vec F S1024 .f32) (x2 : Vec F S1024x50 .f32) (x3 : Vec F S1024x100 .f32) (x4 : Vec F S1024 .i32) (x5 : Vec F S1024 .i32) (xs : Vec F S1024 .f32) :
    { LA : List (View.Piece (Elt F) S1024 .f32) //
      ∀ (xi : Vec F S1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi ∗ (∃ f, arg9.view.loc (c : Thread nD τ) ↦[arg9.view.set]{fullShare} arg9.view.writes (Elt F) f LA)) -∗ K ⟨⟩))
          ⊢ wp frame (wpE (defs₀ (F := F)) Variants.none c none) E (cc0__excitation_kernel i arg2 harg2 arg3 harg3 arg4 harg4 arg5 harg5 arg6 harg6 arg7 harg7 arg8 harg8 arg9 harg9) K } := by
  refine ⟨?_, fun xi E K => ?run⟩
  case run =>
    simp only [cc0__excitation_kernel_eq_skeleton]; unfold cc0__excitation_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fa, %hfa, HA⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5; obtain rfl := harg8.eq_unread hf6; obtain rfl := harg9.eq_unread hfa
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HA

end Cert.Kernel.Hand

end
-- ==== Proof.K.RunC.lean ====
import proofs.«401946_j23227183137529_1_alg».proof.Proof.K.Conds

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body on whole memrefs holding the six input blocks, the output block's buffer at anything and the
    accumulator at `xs`: it runs to the end, hands the input buffers back as it found them, and leaves in the output buffer and in the accumulator what its stores wrote (two lists of pieces, last store first). -/
noncomputable def runC (c : Dev nD) (i : grid0.Coords) (arg2 : Memref sig .tc .vmem S1024 .f32) (harg2 : arg2.IsWhole) (arg3 : Memref sig .tc .vmem S1024 .f32) (harg3 : arg3.IsWhole) (arg4 : Memref sig .tc .vmem S1024x50 .f32) (harg4 : arg4.IsWhole) (arg5 : Memref sig .tc .vmem S1024x100 .f32) (harg5 : arg5.IsWhole) (arg6 : Memref sig .tc .vmem S1024 .i32) (harg6 : arg6.IsWhole) (arg7 : Memref sig .tc .vmem S1024 .i32) (harg7 : arg7.IsWhole) (arg8 : Memref sig .tc .vmem S1024 .f32) (harg8 : arg8.IsWhole) (arg9 : Memref sig .tc .vmem S1024 .f32) (harg9 : arg9.IsWhole) (hc0 : ¬isFirst i) (hc1 : isLast i)
    (x0 : Vec F S1024 .f32) (x1 : Vec F S1024 .f32) (x2 : Vec F S1024x50 .f32) (x3 : Vec F S1024x100 .f32) (x4 : Vec F S1024 .i32) (x5 : Vec F S1024 .i32) (xs : Vec F S1024 .f32) :
    Σ' (LO : List (View.Piece (Elt F) S1024 .f32)), { LA : List (View.Piece (Elt F) S1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f LO) ∗ (∃ f, arg9.view.loc (c : Thread nD τ) ↦[arg9.view.set]{fullShare} arg9.view.writes (Elt F) f LA)) -∗ K ⟨⟩))
          ⊢ wp frame (wpE (defs₀ (F := F)) Variants.none c none) E (cc0__excitation_kernel i arg2 harg2 arg3 harg3 arg4 harg4 arg5 harg5 arg6 harg6 arg7 harg7 arg8 harg8 arg9 harg9) K } := by
  refine ⟨?_, ?_, fun E K => ?run⟩
  case run =>
    simp only [cc0__excitation_kernel_eq_skeleton]; unfold cc0__excitation_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fa, %hfa, HA⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5; obtain rfl := harg9.eq_unread hfa
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HA

end Cert.Kernel.Hand

end
-- ==== Proof.K.Fold.lean ====
import proofs.«401946_j23227183137529_1_alg».proof.Proof.K.Conds
import Idealize.ShloMosaic.Lib.Pipeline.RegionsLoop

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary of @main: a fold from the launch memory

@main is four stretches of host operations (three softplus calls; the transpose and the two row gathers),
the kernel region, and one more stretch (everything after the excitation). -/

/-- Core `c`'s buffers at launch. -/
abbrev W0 : Dev nD → Valuation τ sig (Elt F) := fun c b => (s₀ m ρ).mem ((c : Dev nD), b)
/-- After the softplus of the base rates, -/
abbrev W1 : Dev nD → Valuation τ sig (Elt F) := fun c => StableHlo.after hostOps0 (W0 m ρ c)
/-- of the type couplings, -/
abbrev W2 : Dev nD → Valuation τ sig (Elt F) := fun c => StableHlo.after hostOps0_1 (W1 m ρ c)
/-- of the device couplings, -/
abbrev W3 : Dev nD → Valuation τ sig (Elt F) := fun c => StableHlo.after hostOps0_2 (W2 m ρ c)
/-- and after the gathers: the region's entry. -/
abbrev W4 : Dev nD → Valuation τ sig (Elt F) := fun c => StableHlo.after hostOps0_3 (W3 m ρ c)
/-- The same read at the TensorCore's references. -/
abbrev V4 : (c : Dev nD) → (b : Ref sig .tc) → Buf (Elt F) ((c : Thread nD τ).loc b) := fun c b => W4 m ρ c b

variable (X : (c : Dev nD) → Buf (Elt F) ((c : Thread nD τ).loc main_v18))

/-- At the region's exit: the excitation array at what the kernel left there (`X`), every other buffer as entered
    (the region's inputs are only read). -/
def W5 (c : Dev nD) : Valuation τ sig (Elt F) :=
  Function.update (W4 m ρ c) (Proc.devRef .tc main_v18) (X c)
theorem W5_out (c : Dev nD) : W5 m ρ X c (Proc.devRef .tc main_v18) = X c := by
  unfold W5; exact Function.update_self _ _ _
theorem W5_of_ne (c : Dev nD) (b : Ref sig .tc) (hb : b ≠ main_v18) :
    W5 m ρ X c (Proc.devRef .tc b) = W4 m ρ c (Proc.devRef .tc b) := by
  unfold W5; exact Function.update_of_ne (fun h => hb (Proc.devRef_injective _ h)) _ _
abbrev V5 : (c : Dev nD) → (b : Ref sig .tc) → Buf (Elt F) ((c : Thread nD τ).loc b) := fun c b => W5 m ρ X c b

/-- After the last stretch: the return. -/
abbrev W6 : Dev nD → Valuation τ sig (Elt F) := fun c => StableHlo.after hostOps1 (W5 m ρ X c)

/-! ## The arguments end as launched: no host operation writes one and the region only reads them -/

theorem W6_main_arg0 (c : Dev nD) : W6 m ρ X c (Proc.devRef .tc main_arg0) = m ((c : Thread nD τ).loc main_arg0) :=
  calc W6 m ρ X c (Proc.devRef .tc main_arg0)
    _ = W5 m ρ X c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg0) := W5_of_ne m ρ X c main_arg0 (by decide)
    _ = W3 m ρ c (Proc.devRef .tc main_arg0) := StableHlo.after_of_forall_not_mem (b := Proc.devRef .tc main_arg0) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := StableHlo.after_of_forall_not_mem (b := Proc.devRef .tc main_arg0) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W6_main_arg1 (c : Dev nD) : W6 m ρ X c (Proc.devRef .tc main_arg1) = m ((c : Thread nD τ).loc main_arg1) :=
  calc W6 m ρ X c (Proc.devRef .tc main_arg1)
    _ = W5 m ρ X c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg1) := W5_of_ne m ρ X c main_arg1 (by decide)
    _ = W3 m ρ c (Proc.devRef .tc main_arg1) := StableHlo.after_of_forall_not_mem (b := Proc.devRef .tc main_arg1) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := StableHlo.after_of_forall_not_mem (b := Proc.devRef .tc main_arg1) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := StableHlo.after_of_forall_not_mem (b := Proc.devRef .tc main_arg1) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W6_main_arg2 (c : Dev nD) : W6 m ρ X c (Proc.devRef .tc main_arg2) = m ((c : Thread nD τ).loc main_arg2) :=
  calc W6 m ρ X c (Proc.devRef .tc main_arg2)
    _ = W5 m ρ X c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg2) := W5_of_ne m ρ X c main_arg2 (by decide)
    _ = W3 m ρ c (Proc.devRef .tc main_arg2) := StableHlo.after_of_forall_not_mem (b := Proc.devRef .tc main_arg2) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := StableHlo.after_of_forall_not_mem (b := Proc.devRef .tc main_arg2) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W6_main_arg3 (c : Dev nD) : W6 m ρ X c (Proc.devRef .tc main_arg3) = m ((c : Thread nD τ).loc main_arg3) :=
  calc W6 m ρ X c (Proc.devRef .tc main_arg3)
    _ = W5 m ρ X c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg3) := W5_of_ne m ρ X c main_arg3 (by decide)
    _ = W3 m ρ c (Proc.devRef .tc main_arg3) := StableHlo.after_of_forall_not_mem (b := Proc.devRef .tc main_arg3) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg3) := StableHlo.after_of_forall_not_mem (b := Proc.devRef .tc main_arg3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W6_main_arg4 (c : Dev nD) : W6 m ρ X c (Proc.devRef .tc main_arg4) = m ((c : Thread nD τ).loc main_arg4) :=
  calc W6 m ρ X c (Proc.devRef .tc main_arg4)
    _ = W5 m ρ X c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg4) := W5_of_ne m ρ X c main_arg4 (by decide)
    _ = W3 m ρ c (Proc.devRef .tc main_arg4) := StableHlo.after_of_forall_not_mem (b := Proc.devRef .tc main_arg4) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := StableHlo.after_of_forall_not_mem (b := Proc.devRef .tc main_arg4) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W6_main_arg5 (c : Dev nD) : W6 m ρ X c (Proc.devRef .tc main_arg5) = m ((c : Thread nD τ).loc main_arg5) :=
  calc W6 m ρ X c (Proc.devRef .tc main_arg5)
    _ = W5 m ρ X c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg5) := W5_of_ne m ρ X c main_arg5 (by decide)
    _ = W3 m ρ c (Proc.devRef .tc main_arg5) := StableHlo.after_of_forall_not_mem (b := Proc.devRef .tc main_arg5) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg5) := StableHlo.after_of_forall_not_mem (b := Proc.devRef .tc main_arg5) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := StableHlo.after_of_forall_not_mem (b := Proc.devRef .tc main_arg5) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-- No operation of a stretch allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.K.Frame.lean ====
import proofs.«401946_j23227183137529_1_alg».proof.Proof.K.RunA
import proofs.«401946_j23227183137529_1_alg».proof.Proof.K.RunB
import proofs.«401946_j23227183137529_1_alg».proof.Proof.K.RunC
import proofs.«401946_j23227183137529_1_alg».proof.Proof.K.Fold

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V4 m ρ c (Pipeline.arrRef spec0 w))

/-- Each input window's current staging buffer holds its block at every point, fetched there or not, for any proof
    data whose array is the region-entry contents and whose body leaves the block in place: unfetched, the block
    index has not moved. -/
theorem before0_of {c : Dev nD} (dat : Dat τ (Elt F) Unit ℕ (UR sig nD τ) ℕ cfg0 c) (hA : dat.A 0 = V4 m ρ c (Pipeline.arrRef spec0 0))
    (hafter : ∀ t, dat.after 0 t = iblk m ρ c 0 t) (t : Fin cfg0.N) (d) : dat.before 0 t d = iblk m ρ c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V4 m ρ c (Pipeline.arrRef spec0 1))
    (hafter : ∀ t, dat.after 1 t = iblk m ρ c 1 t) (t : Fin cfg0.N) (d) : dat.before 1 t d = iblk m ρ c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V4 m ρ c (Pipeline.arrRef spec0 2))
    (hafter : ∀ t, dat.after 2 t = iblk m ρ c 2 t) (t : Fin cfg0.N) (d) : dat.before 2 t d = iblk m ρ c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V4 m ρ c (Pipeline.arrRef spec0 3))
    (hafter : ∀ t, dat.after 3 t = iblk m ρ c 3 t) (t : Fin cfg0.N) (d) : dat.before 3 t d = iblk m ρ c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V4 m ρ c (Pipeline.arrRef spec0 4))
    (hafter : ∀ t, dat.after 4 t = iblk m ρ c 4 t) (t : Fin cfg0.N) (d) : dat.before 4 t d = iblk m ρ c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V4 m ρ c (Pipeline.arrRef spec0 5))
    (hafter : ∀ t, dat.after 5 t = iblk m ρ c 5 t) (t : Fin cfg0.N) (d) : dat.before 5 t d = iblk m ρ c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## What each case leaves in the accumulator and in the output block's buffer -/

/-- The first key tile's pieces for the accumulator cover it. -/
theorem coverA (c : Dev nD) (i : grid0.Coords) (arg2 : Memref sig .tc .vmem S1024 .f32) (harg2 : arg2.IsWhole) (arg3 : Memref sig .tc .vmem S1024 .f32) (harg3 : arg3.IsWhole) (arg4 : Memref sig .tc .vmem S1024x50 .f32) (harg4 : arg4.IsWhole) (arg5 : Memref sig .tc .vmem S1024x100 .f32) (harg5 : arg5.IsWhole) (arg6 : Memref sig .tc .vmem S1024 .i32) (harg6 : arg6.IsWhole) (arg7 : Memref sig .tc .vmem S1024 .i32) (harg7 : arg7.IsWhole) (arg8 : Memref sig .tc .vmem S1024 .f32) (harg8 : arg8.IsWhole) (arg9 : Memref sig .tc .vmem S1024 .f32) (harg9 : arg9.IsWhole) (hc0 : isFirst i) (hc1 : ¬isLast i)
    (x0 : Vec F S1024 .f32) (x1 : Vec F S1024 .f32) (x2 : Vec F S1024x50 .f32) (x3 : Vec F S1024x100 .f32) (x4 : Vec F S1024 .i32) (x5 : Vec F S1024 .i32) (y : S1024.Idx) :
    ∃ pc ∈ (runA c i arg2 harg2 arg3 harg3 arg4 harg4 arg5 harg5 arg6 harg6 arg7 harg7 arg8 harg8 arg9 harg9 hc0 hc1 x0 x1 x2 x3 x4 x5).1, y ∈ pc.1.set :=
  View.cover_of_tiledL (runA c i arg2 harg2 arg3 harg3 arg4 harg4 arg5 harg5 arg6 harg6 arg7 harg7 arg8 harg8 arg9 harg9 hc0 hc1 x0 x1 x2 x3 x4 x5).1 S1024.size (by sl_kernel_rfl) y
/-- What the first key tile leaves in the accumulator. -/
def accA (c : Dev nD) (i : grid0.Coords) (arg2 : Memref sig .tc .vmem S1024 .f32) (harg2 : arg2.IsWhole) (arg3 : Memref sig .tc .vmem S1024 .f32) (harg3 : arg3.IsWhole) (arg4 : Memref sig .tc .vmem S1024x50 .f32) (harg4 : arg4.IsWhole) (arg5 : Memref sig .tc .vmem S1024x100 .f32) (harg5 : arg5.IsWhole) (arg6 : Memref sig .tc .vmem S1024 .i32) (harg6 : arg6.IsWhole) (arg7 : Memref sig .tc .vmem S1024 .i32) (harg7 : arg7.IsWhole) (arg8 : Memref sig .tc .vmem S1024 .f32) (harg8 : arg8.IsWhole) (arg9 : Memref sig .tc .vmem S1024 .f32) (harg9 : arg9.IsWhole) (hc0 : isFirst i) (hc1 : ¬isLast i)
    (x0 : Vec F S1024 .f32) (x1 : Vec F S1024 .f32) (x2 : Vec F S1024x50 .f32) (x3 : Vec F S1024x100 .f32) (x4 : Vec F S1024 .i32) (x5 : Vec F S1024 .i32) : Vec F S1024 .f32 :=
  accV.read (Elt F) (accV.writes (Elt F) accV.junk (runA c i arg2 harg2 arg3 harg3 arg4 harg4 arg5 harg5 arg6 harg6 arg7 harg7 arg8 harg8 arg9 harg9 hc0 hc1 x0 x1 x2 x3 x4 x5).1)

theorem coverB (c : Dev nD) (i : grid0.Coords) (arg2 : Memref sig .tc .vmem S1024 .f32) (harg2 : arg2.IsWhole) (arg3 : Memref sig .tc .vmem S1024 .f32) (harg3 : arg3.IsWhole) (arg4 : Memref sig .tc .vmem S1024x50 .f32) (harg4 : arg4.IsWhole) (arg5 : Memref sig .tc .vmem S1024x100 .f32) (harg5 : arg5.IsWhole) (arg6 : Memref sig .tc .vmem S1024 .i32) (harg6 : arg6.IsWhole) (arg7 : Memref sig .tc .vmem S1024 .i32) (harg7 : arg7.IsWhole) (arg8 : Memref sig .tc .vmem S1024 .f32) (harg8 : arg8.IsWhole) (arg9 : Memref sig .tc .vmem S1024 .f32) (harg9 : arg9.IsWhole) (hc0 : ¬isFirst i) (hc1 : ¬isLast i)
    (x0 : Vec F S1024 .f32) (x1 : Vec F S1024 .f32) (x2 : Vec F S1024x50 .f32) (x3 : Vec F S1024x100 .f32) (x4 : Vec F S1024 .i32) (x5 : Vec F S1024 .i32) (xs : Vec F S1024 .f32) (y : S1024.Idx) :
    ∃ pc ∈ (runB c i arg2 harg2 arg3 harg3 arg4 harg4 arg5 harg5 arg6 harg6 arg7 harg7 arg8 harg8 arg9 harg9 hc0 hc1 x0 x1 x2 x3 x4 x5 xs).1, y ∈ pc.1.set :=
  View.cover_of_tiledL (runB c i arg2 harg2 arg3 harg3 arg4 harg4 arg5 harg5 arg6 harg6 arg7 harg7 arg8 harg8 arg9 harg9 hc0 hc1 x0 x1 x2 x3 x4 x5 xs).1 S1024.size (by sl_kernel_rfl) y
/-- What a middle key tile leaves in the accumulator, over what the tile before left. -/
def accB (c : Dev nD) (i : grid0.Coords) (arg2 : Memref sig .tc .vmem S1024 .f32) (harg2 : arg2.IsWhole) (arg3 : Memref sig .tc .vmem S1024 .f32) (harg3 : arg3.IsWhole) (arg4 : Memref sig .tc .vmem S1024x50 .f32) (harg4 : arg4.IsWhole) (arg5 : Memref sig .tc .vmem S1024x100 .f32) (harg5 : arg5.IsWhole) (arg6 : Memref sig .tc .vmem S1024 .i32) (harg6 : arg6.IsWhole) (arg7 : Memref sig .tc .vmem S1024 .i32) (harg7 : arg7.IsWhole) (arg8 : Memref sig .tc .vmem S1024 .f32) (harg8 : arg8.IsWhole) (arg9 : Memref sig .tc .vmem S1024 .f32) (harg9 : arg9.IsWhole) (hc0 : ¬isFirst i) (hc1 : ¬isLast i)
    (x0 : Vec F S1024 .f32) (x1 : Vec F S1024 .f32) (x2 : Vec F S1024x50 .f32) (x3 : Vec F S1024x100 .f32) (x4 : Vec F S1024 .i32) (x5 : Vec F S1024 .i32) (xs : Vec F S1024 .f32) : Vec F S1024 .f32 :=
  accV.read (Elt F) (accV.writes (Elt F) accV.junk (runB c i arg2 harg2 arg3 harg3 arg4 harg4 arg5 harg5 arg6 harg6 arg7 harg7 arg8 harg8 arg9 harg9 hc0 hc1 x0 x1 x2 x3 x4 x5 xs).1)

theorem coverC (c : Dev nD) (i : grid0.Coords) (arg2 : Memref sig .tc .vmem S1024 .f32) (harg2 : arg2.IsWhole) (arg3 : Memref sig .tc .vmem S1024 .f32) (harg3 : arg3.IsWhole) (arg4 : Memref sig .tc .vmem S1024x50 .f32) (harg4 : arg4.IsWhole) (arg5 : Memref sig .tc .vmem S1024x100 .f32) (harg5 : arg5.IsWhole) (arg6 : Memref sig .tc .vmem S1024 .i32) (harg6 : arg6.IsWhole) (arg7 : Memref sig .tc .vmem S1024 .i32) (harg7 : arg7.IsWhole) (arg8 : Memref sig .tc .vmem S1024 .f32) (harg8 : arg8.IsWhole) (arg9 : Memref sig .tc .vmem S1024 .f32) (harg9 : arg9.IsWhole) (hc0 : ¬isFirst i) (hc1 : isLast i)
    (x0 : Vec F S1024 .f32) (x1 : Vec F S1024 .f32) (x2 : Vec F S1024x50 .f32) (x3 : Vec F S1024x100 .f32) (x4 : Vec F S1024 .i32) (x5 : Vec F S1024 .i32) (xs : Vec F S1024 .f32) (y : S1024.Idx) :
    ∃ pc ∈ (runC c i arg2 harg2 arg3 harg3 arg4 harg4 arg5 harg5 arg6 harg6 arg7 harg7 arg8 harg8 arg9 harg9 hc0 hc1 x0 x1 x2 x3 x4 x5 xs).2.1, y ∈ pc.1.set :=
  View.cover_of_tiledL (runC c i arg2 harg2 arg3 harg3 arg4 harg4 arg5 harg5 arg6 harg6 arg7 harg7 arg8 harg8 arg9 harg9 hc0 hc1 x0 x1 x2 x3 x4 x5 xs).2.1 S1024.size (by sl_kernel_rfl) y
/-- What the last key tile leaves in the accumulator, -/
def accC (c : Dev nD) (i : grid0.Coords) (arg2 : Memref sig .tc .vmem S1024 .f32) (harg2 : arg2.IsWhole) (arg3 : Memref sig .tc .vmem S1024 .f32) (harg3 : arg3.IsWhole) (arg4 : Memref sig .tc .vmem S1024x50 .f32) (harg4 : arg4.IsWhole) (arg5 : Memref sig .tc .vmem S1024x100 .f32) (harg5 : arg5.IsWhole) (arg6 : Memref sig .tc .vmem S1024 .i32) (harg6 : arg6.IsWhole) (arg7 : Memref sig .tc .vmem S1024 .i32) (harg7 : arg7.IsWhole) (arg8 : Memref sig .tc .vmem S1024 .f32) (harg8 : arg8.IsWhole) (arg9 : Memref sig .tc .vmem S1024 .f32) (harg9 : arg9.IsWhole) (hc0 : ¬isFirst i) (hc1 : isLast i)
    (x0 : Vec F S1024 .f32) (x1 : Vec F S1024 .f32) (x2 : Vec F S1024x50 .f32) (x3 : Vec F S1024x100 .f32) (x4 : Vec F S1024 .i32) (x5 : Vec F S1024 .i32) (xs : Vec F S1024 .f32) : Vec F S1024 .f32 :=
  accV.read (Elt F) (accV.writes (Elt F) accV.junk (runC c i arg2 harg2 arg3 harg3 arg4 harg4 arg5 harg5 arg6 harg6 arg7 harg7 arg8 harg8 arg9 harg9 hc0 hc1 x0 x1 x2 x3 x4 x5 xs).2.1)
theorem coverOutC (c : Dev nD) (i : grid0.Coords) (arg2 : Memref sig .tc .vmem S1024 .f32) (harg2 : arg2.IsWhole) (arg3 : Memref sig .tc .vmem S1024 .f32) (harg3 : arg3.IsWhole) (arg4 : Memref sig .tc .vmem S1024x50 .f32) (harg4 : arg4.IsWhole) (arg5 : Memref sig .tc .vmem S1024x100 .f32) (harg5 : arg5.IsWhole) (arg6 : Memref sig .tc .vmem S1024 .i32) (harg6 : arg6.IsWhole) (arg7 : Memref sig .tc .vmem S1024 .i32) (harg7 : arg7.IsWhole) (arg8 : Memref sig .tc .vmem S1024 .f32) (harg8 : arg8.IsWhole) (arg9 : Memref sig .tc .vmem S1024 .f32) (harg9 : arg9.IsWhole) (hc0 : ¬isFirst i) (hc1 : isLast i)
    (x0 : Vec F S1024 .f32) (x1 : Vec F S1024 .f32) (x2 : Vec F S1024x50 .f32) (x3 : Vec F S1024x100 .f32) (x4 : Vec F S1024 .i32) (x5 : Vec F S1024 .i32) (xs : Vec F S1024 .f32) (y : S1024.Idx) :
    ∃ pc ∈ (runC c i arg2 harg2 arg3 harg3 arg4 harg4 arg5 harg5 arg6 harg6 arg7 harg7 arg8 harg8 arg9 harg9 hc0 hc1 x0 x1 x2 x3 x4 x5 xs).1, y ∈ pc.1.set :=
  View.cover_of_tiledL (runC c i arg2 harg2 arg3 harg3 arg4 harg4 arg5 harg5 arg6 harg6 arg7 harg7 arg8 harg8 arg9 harg9 hc0 hc1 x0 x1 x2 x3 x4 x5 xs).1 S1024.size (by sl_kernel_rfl) y
/-- and in the output block's buffer. -/
def outC (c : Dev nD) (i : grid0.Coords) (arg2 : Memref sig .tc .vmem S1024 .f32) (harg2 : arg2.IsWhole) (arg3 : Memref sig .tc .vmem S1024 .f32) (harg3 : arg3.IsWhole) (arg4 : Memref sig .tc .vmem S1024x50 .f32) (harg4 : arg4.IsWhole) (arg5 : Memref sig .tc .vmem S1024x100 .f32) (harg5 : arg5.IsWhole) (arg6 : Memref sig .tc .vmem S1024 .i32) (harg6 : arg6.IsWhole) (arg7 : Memref sig .tc .vmem S1024 .i32) (harg7 : arg7.IsWhole) (arg8 : Memref sig .tc .vmem S1024 .f32) (harg8 : arg8.IsWhole) (arg9 : Memref sig .tc .vmem S1024 .f32) (harg9 : arg9.IsWhole) (hc0 : ¬isFirst i) (hc1 : isLast i)
    (x0 : Vec F S1024 .f32) (x1 : Vec F S1024 .f32) (x2 : Vec F S1024x50 .f32) (x3 : Vec F S1024x100 .f32) (x4 : Vec F S1024 .i32) (x5 : Vec F S1024 .i32) (xs : Vec F S1024 .f32) : Vec F S1024 .f32 :=
  outV.read (Elt F) (outV.writes (Elt F) outV.junk (runC c i arg2 harg2 arg3 harg3 arg4 harg4 arg5 harg5 arg6 harg6 arg7 harg7 arg8 harg8 arg9 harg9 hc0 hc1 x0 x1 x2 x3 x4 x5 xs).1)

/-- Where the body stores nothing into the output block's buffer, a placeholder nothing consults: there the window
    is neither written back nor read at the next point. -/
def outNone : Vec F S1024 .f32 := outV.read (Elt F) outV.junk

/-! ## What the output buffer and the accumulator hold after each point -/

/-- THE ACCUMULATION: after the body at position `n`, the output block's buffer and the accumulator. At a first key
    tile the accumulator is cleared and the tile's part added; elsewhere the tile's part is added to what the point
    before left; at a last key tile the accumulator is also copied to the output block's buffer. -/
def outsAt (c : Dev nD) : (n : ℕ) → n < cfg0.N → Vec F S1024 .f32 × Vec F S1024 .f32
  | 0, hn => (outNone (F := F), accA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) accM (Memref.isWhole_whole _) ((isFirst_iff ⟨0, hn⟩).mpr (Nat.zero_mod _)) (fun h => (fun h => by (try dsimp only at h); omega) ((isLast_iff ⟨0, hn⟩).mp h)) (iblk m ρ c 0 ⟨0, hn⟩) (iblk m ρ c 1 ⟨0, hn⟩) (iblk m ρ c 2 ⟨0, hn⟩) (iblk m ρ c 3 ⟨0, hn⟩) (iblk m ρ c 4 ⟨0, hn⟩) (iblk m ρ c 5 ⟨0, hn⟩))
  | n + 1, hn =>
    if h0 : (n + 1) % 8 = 0 then
      if h1 : (n + 1) % 8 = 7 then
        False.elim (by omega)
      else
        (outNone (F := F), accA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _) ((isFirst_iff ⟨n + 1, hn⟩).mpr h0) (fun h => h1 ((isLast_iff ⟨n + 1, hn⟩).mp h)) (iblk m ρ c 0 ⟨n + 1, hn⟩) (iblk m ρ c 1 ⟨n + 1, hn⟩) (iblk m ρ c 2 ⟨n + 1, hn⟩) (iblk m ρ c 3 ⟨n + 1, hn⟩) (iblk m ρ c 4 ⟨n + 1, hn⟩) (iblk m ρ c 5 ⟨n + 1, hn⟩))
    else
      if h1 : (n + 1) % 8 = 7 then
        (outC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _) (fun h => h0 ((isFirst_iff ⟨n + 1, hn⟩).mp h)) ((isLast_iff ⟨n + 1, hn⟩).mpr h1) (iblk m ρ c 0 ⟨n + 1, hn⟩) (iblk m ρ c 1 ⟨n + 1, hn⟩) (iblk m ρ c 2 ⟨n + 1, hn⟩) (iblk m ρ c 3 ⟨n + 1, hn⟩) (iblk m ρ c 4 ⟨n + 1, hn⟩) (iblk m ρ c 5 ⟨n + 1, hn⟩) (outsAt c n (Nat.lt_of_succ_lt hn)).2,
         accC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _) (fun h => h0 ((isFirst_iff ⟨n + 1, hn⟩).mp h)) ((isLast_iff ⟨n + 1, hn⟩).mpr h1) (iblk m ρ c 0 ⟨n + 1, hn⟩) (iblk m ρ c 1 ⟨n + 1, hn⟩) (iblk m ρ c 2 ⟨n + 1, hn⟩) (iblk m ρ c 3 ⟨n + 1, hn⟩) (iblk m ρ c 4 ⟨n + 1, hn⟩) (iblk m ρ c 5 ⟨n + 1, hn⟩) (outsAt c n (Nat.lt_of_succ_lt hn)).2)
      else
        (outNone (F := F), accB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _) (fun h => h0 ((isFirst_iff ⟨n + 1, hn⟩).mp h)) (fun h => h1 ((isLast_iff ⟨n + 1, hn⟩).mp h)) (iblk m ρ c 0 ⟨n + 1, hn⟩) (iblk m ρ c 1 ⟨n + 1, hn⟩) (iblk m ρ c 2 ⟨n + 1, hn⟩) (iblk m ρ c 3 ⟨n + 1, hn⟩) (iblk m ρ c 4 ⟨n + 1, hn⟩) (iblk m ρ c 5 ⟨n + 1, hn⟩) (outsAt c n (Nat.lt_of_succ_lt hn)).2)

/-- `outsAt` at a first key tile. -/
theorem outsAt_A (c : Dev nD) (t : Fin cfg0.N) (h0 : t.val % 8 = 0) (h1 : ¬t.val % 8 = 7) :
    outsAt m ρ c t.val t.isLt = (outNone (F := F), accA c (grid0.coords t) (ms0 t) (hs0 t) (ms1 t) (hs1 t) (ms2 t) (hs2 t) (ms3 t) (hs3 t) (ms4 t) (hs4 t) (ms5 t) (hs5 t) (ms6 t) (hs6 t) accM (Memref.isWhole_whole _) ((isFirst_iff t).mpr h0) (fun h => h1 ((isLast_iff t).mp h)) (iblk m ρ c 0 t) (iblk m ρ c 1 t) (iblk m ρ c 2 t) (iblk m ρ c 3 t) (iblk m ρ c 4 t) (iblk m ρ c 5 t)) := by
  obtain ⟨n, hn⟩ := t
  cases n with
  | zero => exact rfl
  | succ n => exact (dif_pos h0).trans ((dif_neg h1).trans rfl)

/-- `outsAt` at a middle key tile: over what the point before left. -/
theorem outsAt_B (c : Dev nD) (t : Fin cfg0.N) (h0 : ¬t.val % 8 = 0) (h1 : ¬t.val % 8 = 7) :
    outsAt m ρ c t.val t.isLt = (outNone (F := F), accB c (grid0.coords t) (ms0 t) (hs0 t) (ms1 t) (hs1 t) (ms2 t) (hs2 t) (ms3 t) (hs3 t) (ms4 t) (hs4 t) (ms5 t) (hs5 t) (ms6 t) (hs6 t) accM (Memref.isWhole_whole _) (fun h => h0 ((isFirst_iff t).mp h)) (fun h => h1 ((isLast_iff t).mp h)) (iblk m ρ c 0 t) (iblk m ρ c 1 t) (iblk m ρ c 2 t) (iblk m ρ c 3 t) (iblk m ρ c 4 t) (iblk m ρ c 5 t) (outsAt m ρ c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt` at a last key tile: over what the point before left. -/
theorem outsAt_C (c : Dev nD) (t : Fin cfg0.N) (h0 : ¬t.val % 8 = 0) (h1 : t.val % 8 = 7) :
    outsAt m ρ c t.val t.isLt = (outC c (grid0.coords t) (ms0 t) (hs0 t) (ms1 t) (hs1 t) (ms2 t) (hs2 t) (ms3 t) (hs3 t) (ms4 t) (hs4 t) (ms5 t) (hs5 t) (ms6 t) (hs6 t) accM (Memref.isWhole_whole _) (fun h => h0 ((isFirst_iff t).mp h)) ((isLast_iff t).mpr h1) (iblk m ρ c 0 t) (iblk m ρ c 1 t) (iblk m ρ c 2 t) (iblk m ρ c 3 t) (iblk m ρ c 4 t) (iblk m ρ c 5 t) (outsAt m ρ c (t.val - 1) (Nat.lt_of_le_of_lt (Nat.sub_le _ _) t.isLt)).2, accC c (grid0.coords t) (ms0 t) (hs0 t) (ms1 t) (hs1 t) (ms2 t) (hs2 t) (ms3 t) (hs3 t) (ms4 t) (hs4 t) (ms5 t) (hs5 t) (ms6 t) (hs6 t) accM (Memref.isWhole_whole _) (fun h => h0 ((isFirst_iff t).mp h)) ((isLast_iff t).mpr h1) (iblk m ρ c 0 t) (iblk m ρ c 1 t) (iblk m ρ c 2 t) (iblk m ρ c 3 t) (iblk m ρ c 4 t) (iblk m ρ c 5 t) (outsAt m ρ c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (the accumulator at anything);
    afterwards the accumulator at what the point before left in it, and the generator register at some state. -/
def PhiS (c : Dev nD) : (n : ℕ) → n ≤ cfg0.N → sProp 𝕄
  | 0, _ => Pipeline.ΦA spec0 c
  | n + 1, hn => iprop(iprop(owns (c : Thread nD τ) accM fullShare ((outsAt m ρ c n hn).2)) ∗ (∃ r, prngReg c r))

theorem PhiS_zero (c : Dev nD) (n : ℕ) (h : n ≤ cfg0.N) (hz : n = 0) : PhiS m ρ c n h = Pipeline.ΦA spec0 c := by
  subst hz; rfl
theorem PhiS_succ (c : Dev nD) (n : ℕ) (hn : n < cfg0.N) :
    PhiS m ρ c (n + 1) hn = iprop(iprop(owns (c : Thread nD τ) accM fullShare ((outsAt m ρ c n hn).2)) ∗ (∃ r, prngReg c r)) := rfl
theorem PhiS_pos (c : Dev nD) (n : ℕ) (h : n ≤ cfg0.N) (hz : n ≠ 0) :
    PhiS m ρ c n h = iprop(iprop(owns (c : Thread nD τ) accM fullShare ((outsAt m ρ c (n - 1) (by omega)).2)) ∗ (∃ r, prngReg c r)) := by
  cases n with
  | zero => exact absurd rfl hz
  | succ n => rfl

/-! ## The pipeline's proof data -/

/-- The proof data of the pipeline on core `c`: the arrays as the region finds them; after the body at point `t`
    each input's buffer at its block and the output's at `outsAt`; the invariant `PhiS`; nothing owed; the two
    windows that read the event times hold the two halves of that array's share, every other window a whole share. -/
def dats (_ : Fin 1) (c : Dev nD) : Dat τ (Elt F) Unit ℕ (UR sig nD τ) ℕ cfg0 c where
  A w := V4 m ρ c (Pipeline.arrRef spec0 w)
  after w t := match w with
    | ⟨0, _⟩ => iblk m ρ c 0 t
    | ⟨1, _⟩ => iblk m ρ c 1 t
    | ⟨2, _⟩ => iblk m ρ c 2 t
    | ⟨3, _⟩ => iblk m ρ c 3 t
    | ⟨4, _⟩ => iblk m ρ c 4 t
    | ⟨5, _⟩ => iblk m ρ c 5 t
    | ⟨6, _⟩ => (outsAt m ρ c t.val t.isLt).1
  Φ t := PhiS m ρ c t.val (Nat.le_of_lt_succ t.isLt)
  q w := match w with
    | ⟨0, _⟩ => fullShare.left
    | ⟨1, _⟩ => fullShare.right
    | _ => fullShare
  owed _ := 0

theorem A_eq (c : Dev nD) (w : Fin cfg0.W) : (dats m ρ 0 c).A w = V4 m ρ c (Pipeline.arrRef spec0 w) := by
  dsimp only [dats]
theorem PhiS_castSucc (c : Dev nD) (t : Fin cfg0.N) :
    (dats m ρ 0 c).Φ t.castSucc = PhiS m ρ c t.val (Nat.le_of_lt t.isLt) := by
  dsimp only [dats]; simp only [Fin.coe_castSucc]
theorem q0 (c : Dev nD) : (dats m ρ 0 c).q 0 = fullShare.left := rfl
theorem q1 (c : Dev nD) : (dats m ρ 0 c).q 1 = fullShare.right := rfl
theorem qrest (c : Dev nD) : ∀ w : Fin 7, 2 ≤ w.val → (dats m ρ 0 c).q w = fullShare := by
  intro w hw; fin_cases w <;> first | (exfalso; revert hw; decide) | rfl

theorem after0 (c : Dev nD) (t : Fin cfg0.N) : (dats m ρ 0 c).after 0 t = iblk m ρ c 0 t := by dsimp only [dats]
theorem after1 (c : Dev nD) (t : Fin cfg0.N) : (dats m ρ 0 c).after 1 t = iblk m ρ c 1 t := by dsimp only [dats]
theorem after2 (c : Dev nD) (t : Fin cfg0.N) : (dats m ρ 0 c).after 2 t = iblk m ρ c 2 t := by dsimp only [dats]
theorem after3 (c : Dev nD) (t : Fin cfg0.N) : (dats m ρ 0 c).after 3 t = iblk m ρ c 3 t := by dsimp only [dats]
theorem after4 (c : Dev nD) (t : Fin cfg0.N) : (dats m ρ 0 c).after 4 t = iblk m ρ c 4 t := by dsimp only [dats]
theorem after5 (c : Dev nD) (t : Fin cfg0.N) : (dats m ρ 0 c).after 5 t = iblk m ρ c 5 t := by dsimp only [dats]
theorem after6 (c : Dev nD) (t : Fin cfg0.N) : (dats m ρ 0 c).after 6 t = (outsAt m ρ c t.val t.isLt).1 := by dsimp only [dats]

theorem before0 (c : Dev nD) (t : Fin cfg0.N) (d) : (dats m ρ 0 c).before 0 t d = iblk m ρ c 0 t :=
  before0_of m ρ (dats m ρ 0 c) (A_eq m ρ c 0) (after0 m ρ c) t d
theorem before1 (c : Dev nD) (t : Fin cfg0.N) (d) : (dats m ρ 0 c).before 1 t d = iblk m ρ c 1 t :=
  before1_of m ρ (dats m ρ 0 c) (A_eq m ρ c 1) (after1 m ρ c) t d
theorem before2 (c : Dev nD) (t : Fin cfg0.N) (d) : (dats m ρ 0 c).before 2 t d = iblk m ρ c 2 t :=
  before2_of m ρ (dats m ρ 0 c) (A_eq m ρ c 2) (after2 m ρ c) t d
theorem before3 (c : Dev nD) (t : Fin cfg0.N) (d) : (dats m ρ 0 c).before 3 t d = iblk m ρ c 3 t :=
  before3_of m ρ (dats m ρ 0 c) (A_eq m ρ c 3) (after3 m ρ c) t d
theorem before4 (c : Dev nD) (t : Fin cfg0.N) (d) : (dats m ρ 0 c).before 4 t d = iblk m ρ c 4 t :=
  before4_of m ρ (dats m ρ 0 c) (A_eq m ρ c 4) (after4 m ρ c) t d
theorem before5 (c : Dev nD) (t : Fin cfg0.N) (d) : (dats m ρ 0 c).before 5 t d = iblk m ρ c 5 t :=
  before5_of m ρ (dats m ρ 0 c) (A_eq m ρ c 5) (after5 m ρ c) t d

/-! ## The body obligation, at a generic point -/

/-- What the body is called with at point `t`, the windows one by one, -/
def bodyPre (c : Dev nD) (t : Fin cfg0.N) : sProp 𝕄 :=
  iprop((dats m ρ 0 c).Φ t.castSucc ∗ (dats m ρ 0 c).owesAt () t.castSucc
    ∗ (∃ d, owns (c : Thread nD τ) (ms0 t) fullShare ((dats m ρ 0 c).before 0 t d))
    ∗ (∃ d, owns (c : Thread nD τ) (ms1 t) fullShare ((dats m ρ 0 c).before 1 t d))
    ∗ (∃ d, owns (c : Thread nD τ) (ms2 t) fullShare ((dats m ρ 0 c).before 2 t d))
    ∗ (∃ d, owns (c : Thread nD τ) (ms3 t) fullShare ((dats m ρ 0 c).before 3 t d))
    ∗ (∃ d, owns (c : Thread nD τ) (ms4 t) fullShare ((dats m ρ 0 c).before 4 t d))
    ∗ (∃ d, owns (c : Thread nD τ) (ms5 t) fullShare ((dats m ρ 0 c).before 5 t d))
    ∗ (∃ d, owns (c : Thread nD τ) (ms6 t) fullShare ((dats m ρ 0 c).before 6 t d)))

/-- and what it returns. -/
def bodyPost (c : Dev nD) (t : Fin cfg0.N) : sProp 𝕄 :=
  iprop((dats m ρ 0 c).Φ t.succ ∗ (dats m ρ 0 c).owesAt () t.succ
    ∗ (dats m ρ 0 c).leavesExact 0 t
    ∗ (dats m ρ 0 c).leavesExact 1 t
    ∗ (dats m ρ 0 c).leavesExact 2 t
    ∗ (dats m ρ 0 c).leavesExact 3 t
    ∗ (dats m ρ 0 c).leavesExact 4 t
    ∗ (dats m ρ 0 c).leavesExact 5 t
    ∗ (dats m ρ 0 c).leavesExact 6 t)

set_option maxHeartbeats 8000000 in
/-- The body at any point. The inputs' buffers hold their blocks; the closed forms say which case the point is in; the
    invariant hands the body the accumulator at what the point before left (at anything at the very first point) and
    takes it back at this point's contents; the output block's buffer is stored into only at a last key tile, and is
    handed back as found elsewhere; the core owes nothing throughout. -/
theorem sound_body (c : Dev nD) (t : Fin cfg0.N) :
    bodyPre m ρ c t ⊢ wp frame (wpE (defs₀ (F := F)) Variants.none c none) Set.univ (bodyAt0 t) (fun _ => bodyPost m ρ c t) := by
  unfold bodyPre bodyPost bodyAt0
  simp only [before0, before1, before2, before3, before4, before5]
  rw [show (dats m ρ 0 c).owesAt () t.succ = (dats m ρ 0 c).owesAt () t.castSucc from rfl]
  rw [show (dats m ρ 0 c).Φ t.succ = PhiS m ρ c (t.val + 1) t.isLt from rfl, PhiS_succ]
  have hN : t.val < 64 := lt_of_lt_of_eq t.isLt (show cfg0.N = 64 from N_0)
  rw [show (dats m ρ 0 c).leavesExact 0 t = owns (c : Thread nD τ) (ms0 t) fullShare ((dats m ρ 0 c).after 0 t) from by
    unfold Dat.leavesExact; rw [live0 t], after0]
  rw [show (dats m ρ 0 c).leavesExact 1 t = owns (c : Thread nD τ) (ms1 t) fullShare ((dats m ρ 0 c).after 1 t) from by
    unfold Dat.leavesExact; rw [live1 t], after1]
  rw [show (dats m ρ 0 c).leavesExact 2 t = owns (c : Thread nD τ) (ms2 t) fullShare ((dats m ρ 0 c).after 2 t) from by
    unfold Dat.leavesExact; rw [live2 t], after2]
  rw [show (dats m ρ 0 c).leavesExact 3 t = owns (c : Thread nD τ) (ms3 t) fullShare ((dats m ρ 0 c).after 3 t) from by
    unfold Dat.leavesExact; rw [live3 t], after3]
  rw [show (dats m ρ 0 c).leavesExact 4 t = owns (c : Thread nD τ) (ms4 t) fullShare ((dats m ρ 0 c).after 4 t) from by
    unfold Dat.leavesExact; rw [live4 t], after4]
  rw [show (dats m ρ 0 c).leavesExact 5 t = owns (c : Thread nD τ) (ms5 t) fullShare ((dats m ρ 0 c).after 5 t) from by
    unfold Dat.leavesExact; rw [live5 t], after5]
  by_cases h0 : t.val % 8 = 0
  · have h1 : ¬t.val % 8 = 7 := by omega
    rw [Dat.leavesExact_idle (dats m ρ 0 c) 6 t (idle6 t (fun h => h1 ((isLast_iff t).mp h))) (noFlush6 t (fun h => h1 ((isLast_iff t).mp h)))]
    rw [outsAt_A m ρ c t h0 h1]
    unfold accA; (try dsimp only)
    by_cases hz : t.val = 0
    · rw [PhiS_castSucc m ρ c t, PhiS_zero m ρ c _ _ hz, PhiA_eq]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((runA c (grid0.coords t) _ _ _ _ _ _ _ _ _ _ _ _ _ _ _ _ ((isFirst_iff t).mpr h0) (fun h => h1 ((isLast_iff t).mp h)) (iblk m ρ c 0 t) (iblk m ρ c 1 t) (iblk m ρ c 2 t) (iblk m ρ c 3 t) (iblk m ρ c 4 t) (iblk m ρ c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [HS Hg]
      · isplitl [HS]
        · unfold owns; iexists _; isplitr
          swap; · iexact HS
          ipureintro; exact View.read_writes_of_cover _ _ _ _ _ (coverA c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc m ρ c t, PhiS_pos m ρ c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((runA c (grid0.coords t) _ _ _ _ _ _ _ _ _ _ _ _ _ _ _ _ ((isFirst_iff t).mpr h0) (fun h => h1 ((isLast_iff t).mp h)) (iblk m ρ c 0 t) (iblk m ρ c 1 t) (iblk m ρ c 2 t) (iblk m ρ c 3 t) (iblk m ρ c 4 t) (iblk m ρ c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexists _; iexact HS
      iintro ⟨H0, H1, H2, H3, H4, H5, H6, ⟨%es, HS⟩⟩
      isplitl [HS Hg]
      · isplitl [HS]
        · unfold owns; iexists _; isplitr
          swap; · iexact HS
          ipureintro; exact View.read_writes_of_cover _ _ _ _ _ (coverA c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun h => h0 (by rw [h])
    by_cases h1 : t.val % 8 = 7
    · rw [show (dats m ρ 0 c).leavesExact 6 t = owns (c : Thread nD τ) (ms6 t) fullShare ((dats m ρ 0 c).after 6 t) from by
        unfold Dat.leavesExact; rw [live6 t ((isLast_iff t).mpr h1)], after6]
      rw [outsAt_C m ρ c t h0 h1]
      unfold outC accC; (try dsimp only)
      rw [PhiS_castSucc m ρ c t, PhiS_pos m ρ c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((runC c (grid0.coords t) _ _ _ _ _ _ _ _ _ _ _ _ _ _ _ _ (fun h => h0 ((isFirst_iff t).mp h)) ((isLast_iff t).mpr h1) (iblk m ρ c 0 t) (iblk m ρ c 1 t) (iblk m ρ c 2 t) (iblk m ρ c 3 t) (iblk m ρ c 4 t) (iblk m ρ c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%e6, H6⟩, ⟨%es, HS⟩⟩
      isplitl [HS Hg]
      · isplitl [HS]
        · unfold owns; iexists _; isplitr
          swap; · iexact HS
          ipureintro; exact View.read_writes_of_cover _ _ _ _ _ (coverC c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverOutC c _ _ _ _ _ _ _ _ _ _ _ _ _ _ _ _ _ _ _ _ _ _ _ _ _ _)
    · rw [Dat.leavesExact_idle (dats m ρ 0 c) 6 t (idle6 t (fun h => h1 ((isLast_iff t).mp h))) (noFlush6 t (fun h => h1 ((isLast_iff t).mp h)))]
      rw [outsAt_B m ρ c t h0 h1]
      unfold accB; (try dsimp only)
      rw [PhiS_castSucc m ρ c t, PhiS_pos m ρ c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((runB c (grid0.coords t) _ _ _ _ _ _ _ _ _ _ _ _ _ _ _ _ (fun h => h0 ((isFirst_iff t).mp h)) (fun h => h1 ((isLast_iff t).mp h)) (iblk m ρ c 0 t) (iblk m ρ c 1 t) (iblk m ρ c 2 t) (iblk m ρ c 3 t) (iblk m ρ c 4 t) (iblk m ρ c 5 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [HS Hg]
      · isplitl [HS]
        · unfold owns; iexists _; isplitr
          swap; · iexact HS
          ipureintro; exact View.read_writes_of_cover _ _ _ _ _ (coverB c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dats (F := F) m ρ 0 c) (defs₀ (F := F)) Variants.none () Set.univ := fun t => by
  rw [bigSep_W0, bigSep_W0]
  exact sound_body m ρ c t

/-- What the launch hands the region is the invariant before the first point. -/
theorem hin (c : Dev nD) : Pipeline.ΦA spec0 c ⊢ (dats m ρ 0 c).Φ 0 := by
  rw [show (dats m ρ 0 c).Φ 0 = PhiS m ρ c 0 (Nat.zero_le _) from rfl, PhiS_zero m ρ c 0 _ rfl]
  try exact Idealize.SL.BI.Entails.refl _

/-- After any point but the first the invariant gives the class's back: what the accumulator holds is forgotten. -/
theorem Phi_out (c : Dev nD) (t : Fin (cfg0.N + 1)) (ht : t.val ≠ 0) : (dats m ρ 0 c).Φ t ⊢ Pipeline.ΦA spec0 c := by
  rw [show (dats m ρ 0 c).Φ t = PhiS m ρ c t.val (Nat.le_of_lt_succ t.isLt) from rfl, PhiS_pos m ρ c _ _ ht, PhiA_eq]
  iintro ⟨HS, Hg⟩
  isplitl [HS]
  · iexists _; iexact HS
  iexact Hg

theorem hout (c : Dev nD) : (dats m ρ 0 c).Φ (Fin.last cfg0.N) ⊢ Pipeline.ΦA spec0 c :=
  Phi_out m ρ c _ (by rw [Fin.val_last]; have : cfg0.N = 64 := N_0; omega)

end Cert.Kernel.Hand

end
-- ==== Proof.K.Share.lean ====
/- The windows' arrays of a pipeline two of whose input windows read ONE array: the bridge between the distinct
   buffers behind the windows' arrays, each whole at the full share, and the proof data's arrays, where the two
   windows on the shared array hold its left and its right half share; and from it the entry and the exit of the
   region over a core's unscoped buffers. -/
import proofs.«401946_j23227183137529_1_alg».proof.Proof.Gen.Kernel.Launch
import Idealize.ShloMosaic.Lib.Pipeline.Frame
import Idealize.ShloMosaic.Lib.Pipeline.RegionsLoop

-- deciding which of the program's references are the windows' arrays recurses past the default depth
set_option maxRecDepth 4096

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [FloatOps F]

local notation "𝕄" => MT nD τ sig Unit (Elt F) ℕ (UR sig nD τ) ℕ

/-- The distinct arrays behind the seven windows: the first two windows share theirs. -/
theorem arrRef_image : Finset.univ.image (Pipeline.arrRef spec0)
    = {Pipeline.arrRef spec0 0, Pipeline.arrRef spec0 2, Pipeline.arrRef spec0 3, Pipeline.arrRef spec0 4,
       Pipeline.arrRef spec0 5, Pipeline.arrRef spec0 6} := by decide

section
variable (c : Dev nD) (dat : Pipeline.Dat τ (Elt F) Unit ℕ (UR sig nD τ) ℕ cfg0 c)

/-- An input window's array is held at the share the proof data names. -/
theorem share_in (w : Fin 7) (h : (cfg0.win w).isOut = false) : dat.share w = dat.q w := by
  unfold Pipeline.Dat.share; rw [h]; rfl

/-- An output window's array is held at the full share. -/
theorem share_out (w : Fin 7) (h : (cfg0.win w).isOut = true) : dat.share w = fullShare := by
  unfold Pipeline.Dat.share; rw [h]; rfl

/-- One window's array, a whole buffer, held at share `q` at the contents a valuation `V` gives its buffer. -/
theorem arr_at (w : Fin 7) (q : PosShare TreeShare) (hs : dat.share w = q)
    (V : (b : Ref sig .tc) → Buf (Elt F) ((c.tc : Thread nD τ).loc b))
    (G : (w : Fin cfg0.W) → Buf (Elt F) ((cfg0.win w).arr.view.loc (c.tc : Thread nD τ)))
    (hG : ∀ w, G w = V (Pipeline.arrRef spec0 w)) :
    ((cfg0.win w).arr.view.loc (c.tc : Thread nD τ) ↦[(cfg0.win w).arr.view.set]{dat.share w} G w : sProp 𝕄)
      = ((c.tc : Thread nD τ).loc (Pipeline.arrRef spec0 w) ↦{q} V (Pipeline.arrRef spec0 w)) := by
  rw [(arr_whole0 w).set_eq_univ, hs, hG w]
end

/-- the distinct buffers behind the windows' arrays, whole at the full share, are the proof data's arrays when the
    two windows on the shared array hold its two half shares -/
theorem arrays_iff_arrBufs (c : Dev nD) (dat : Pipeline.Dat τ (Elt F) Unit ℕ (UR sig nD τ) ℕ cfg0 c)
    (hq0 : dat.q 0 = fullShare.left) (hq1 : dat.q 1 = fullShare.right) (hq : ∀ w : Fin 7, 2 ≤ w.val → dat.q w = fullShare)
    (V : (b : Ref sig .tc) → Buf (Elt F) ((c.tc : Thread nD τ).loc b))
    (G : (w : Fin cfg0.W) → Buf (Elt F) ((cfg0.win w).arr.view.loc (c.tc : Thread nD τ)))
    (hG : ∀ w, G w = V (Pipeline.arrRef spec0 w)) :
    (Pipeline.arrBufs spec0 c V : sProp 𝕄) ⊣⊢ dat.arrays G := by
  -- the second window's array is the first's
  have h1 : ((c.tc : Thread nD τ).loc (Pipeline.arrRef spec0 1) ↦{fullShare.right} V (Pipeline.arrRef spec0 1) : sProp 𝕄)
      = ((c.tc : Thread nD τ).loc (Pipeline.arrRef spec0 0) ↦{fullShare.right} V (Pipeline.arrRef spec0 0)) := rfl
  unfold Pipeline.arrBufs Pipeline.Dat.arrays
  -- left: the six distinct arrays one by one; right: the seven windows one by one
  rw [arrRef_image, bigSep_insert (by decide), bigSep_insert (by decide), bigSep_insert (by decide), bigSep_insert (by decide),
    bigSep_insert (by decide), bigSep_singleton]
  rw [show (bigSep Finset.univ fun w : Fin cfg0.W => ((cfg0.win w).arr.view.loc (c.tc : Thread nD τ) ↦[(cfg0.win w).arr.view.set]{dat.share w} G w : sProp 𝕄)) = _ from bigSep_W0 _]
  rw [arr_at c dat 0 fullShare.left ((share_in c dat 0 rfl).trans hq0) V G hG,
    arr_at c dat 1 fullShare.right ((share_in c dat 1 rfl).trans hq1) V G hG,
    arr_at c dat 2 fullShare ((share_in c dat 2 rfl).trans (hq 2 (by decide))) V G hG,
    arr_at c dat 3 fullShare ((share_in c dat 3 rfl).trans (hq 3 (by decide))) V G hG,
    arr_at c dat 4 fullShare ((share_in c dat 4 rfl).trans (hq 4 (by decide))) V G hG,
    arr_at c dat 5 fullShare ((share_in c dat 5 rfl).trans (hq 5 (by decide))) V G hG,
    arr_at c dat 6 fullShare (share_out c dat 6 rfl) V G hG, h1]
  -- the shared array's full share is its left and its right half
  have hs : ((c.tc : Thread nD τ).loc (Pipeline.arrRef spec0 0) ↦{fullShare} V (Pipeline.arrRef spec0 0) : sProp 𝕄)
      ⊣⊢ iprop(((c.tc : Thread nD τ).loc (Pipeline.arrRef spec0 0) ↦{fullShare.left} V (Pipeline.arrRef spec0 0))
        ∗ (c.tc : Thread nD τ).loc (Pipeline.arrRef spec0 0) ↦{fullShare.right} V (Pipeline.arrRef spec0 0)) :=
    pointsTo_share (PosShare.mem_left_op_right fullShare)
  rw [BI.equiv_iff.mp ⟨hs.1, hs.2⟩]
  exact ⟨BI.sep_assoc, BI.sep_assoc'⟩

/-- ENTRY: a core's unscoped buffers at `V` are the arrays at `V` and the unscoped rest -/
theorem arrays_of_unscopedBufs (c : Dev nD) (dat : Pipeline.Dat τ (Elt F) Unit ℕ (UR sig nD τ) ℕ cfg0 c)
    (hq0 : dat.q 0 = fullShare.left) (hq1 : dat.q 1 = fullShare.right) (hq : ∀ w : Fin 7, 2 ≤ w.val → dat.q w = fullShare)
    (V : (b : Ref sig .tc) → Buf (Elt F) ((c.tc : Thread nD τ).loc b))
    (G : (w : Fin cfg0.W) → Buf (Elt F) ((cfg0.win w).arr.view.loc (c.tc : Thread nD τ)))
    (hG : ∀ w, G w = V (Pipeline.arrRef spec0 w)) :
    (unscopedBufs c V : sProp 𝕄) ⊢ iprop(dat.arrays G ∗ Pipeline.unscopedRest spec0 c V) := by
  rw [Pipeline.unscopedBufs_split₀ (P := Fin 1) cfgs 0 winFacts₀0.arr_unscoped c V]
  exact sep_mono (arrays_iff_arrBufs c dat hq0 hq1 hq V G hG).1 .rfl

/-- EXIT: the arrays at `G` and the unscoped rest at `V` are the core's unscoped buffers at any `V'` that has the
    arrays at `G` and agrees with `V` off them -/
theorem unscopedBufs_of_arrays (c : Dev nD) (dat : Pipeline.Dat τ (Elt F) Unit ℕ (UR sig nD τ) ℕ cfg0 c)
    (hq0 : dat.q 0 = fullShare.left) (hq1 : dat.q 1 = fullShare.right) (hq : ∀ w : Fin 7, 2 ≤ w.val → dat.q w = fullShare)
    (V V' : (b : Ref sig .tc) → Buf (Elt F) ((c.tc : Thread nD τ).loc b))
    (G : (w : Fin cfg0.W) → Buf (Elt F) ((cfg0.win w).arr.view.loc (c.tc : Thread nD τ)))
    (hG : ∀ w, G w = V' (Pipeline.arrRef spec0 w))
    (hrest : ∀ b, b ∉ Finset.univ.image (Pipeline.arrRef spec0) → V' b = V b) :
    iprop(dat.arrays G ∗ Pipeline.unscopedRest spec0 c V) ⊢ (unscopedBufs c V' : sProp 𝕄) := by
  rw [Pipeline.unscopedBufs_split₀ (P := Fin 1) cfgs 0 winFacts₀0.arr_unscoped c V']
  refine sep_mono (arrays_iff_arrBufs c dat hq0 hq1 hq V' G hG).2 (Entails.of_eq ?_)
  unfold Pipeline.unscopedRest
  exact bigSep_congr fun b hb => by rw [hrest b (Finset.mem_sdiff.mp hb).2]

end Cert.Kernel.Hand
-- ==== Proof.K.Region.lean ====
import proofs.«401946_j23227183137529_1_alg».proof.Proof.K.Frame
import proofs.«401946_j23227183137529_1_alg».proof.Proof.K.Share

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: @main's segments from the launch to the return -/

/-- What the kernel leaves in the excitation array: the library's fold of the output window's write-backs. -/
abbrev Xout (c : Dev nD) : Buf (Elt F) ((c : Thread nD τ).loc main_v18) := (dats m ρ 0 c).arrAt 6 cfg0.N

/-- At the region's exit each of its arrays holds what the pipeline leaves: an input what it held at entry, the
    output the fold of its write-backs; -/
theorem hF (c : Dev nD) (w : Fin cfg0.W) : (dats m ρ 0 c).arrAt w cfg0.N = V5 m ρ (Xout m ρ) c (Pipeline.arrRef spec0 w) :=
  match w with
  | ⟨0, _⟩ => (((dats m ρ 0 c).arrAt_in 0 rfl _).trans (A_eq m ρ c 0)).trans (W5_of_ne m ρ (Xout m ρ) c main_arg0 (by decide)).symm
  | ⟨1, _⟩ => (((dats m ρ 0 c).arrAt_in 1 rfl _).trans (A_eq m ρ c 1)).trans (W5_of_ne m ρ (Xout m ρ) c main_arg0 (by decide)).symm
  | ⟨2, _⟩ => (((dats m ρ 0 c).arrAt_in 2 rfl _).trans (A_eq m ρ c 2)).trans (W5_of_ne m ρ (Xout m ρ) c main_v10 (by decide)).symm
  | ⟨3, _⟩ => (((dats m ρ 0 c).arrAt_in 3 rfl _).trans (A_eq m ρ c 3)).trans (W5_of_ne m ρ (Xout m ρ) c main_v17 (by decide)).symm
  | ⟨4, _⟩ => (((dats m ρ 0 c).arrAt_in 4 rfl _).trans (A_eq m ρ c 4)).trans (W5_of_ne m ρ (Xout m ρ) c main_arg1 (by decide)).symm
  | ⟨5, _⟩ => (((dats m ρ 0 c).arrAt_in 5 rfl _).trans (A_eq m ρ c 5)).trans (W5_of_ne m ρ (Xout m ρ) c main_arg2 (by decide)).symm
  | ⟨6, _⟩ => (W5_out m ρ (Xout m ρ) c).symm
/-- and every other buffer what it held at entry. -/
theorem hrest (c : Dev nD) : ∀ b, b ∉ Finset.univ.image (Pipeline.arrRef spec0) → V5 m ρ (Xout m ρ) c b = V4 m ρ c b :=
  fun b hb => W5_of_ne m ρ (Xout m ρ) c b fun e => hb (Finset.mem_image.mpr ⟨6, Finset.mem_univ _, e.symm⟩)

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dats m ρ 0 c
abbrev 𝒱₀ : Variants := Variants.none
abbrev L : GSem nD τ sig → Finset Unit := fun _ => ∅
abbrev lv : GSem nD τ sig → Unit → ℕ := fun _ _ => 0
/-- What rides beside the buffers through every segment: the generator register at some state and the core's
    `owes`, at nothing. -/
abbrev R (c : Dev nD) : sProp 𝕄 := iprop((∃ r, prngReg c r) ∗ ∃ W, owes (c : Thread nD τ) (0 : CellTallies nD τ sig Unit) W)
/-- A host stretch as a segment, over every unscoped buffer from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the `owes`. -/
abbrev Tₙ (c : Dev nD) : sProp 𝕄 := iprop(StableHlo.held (c : Thread nD τ) (Pipeline.ucRefs τ sig) (W6 m ρ (Xout m ρ) c) ∗ ∃ r, prngReg c r)

/-! ## The region as a segment -/

set_option backward.isDefEq.respectTransparency.types false in
/-- The kernel region over the thread state: entered from every unscoped buffer at the entry contents, left at the
    exit contents. Its arrays are split out of the unscoped buffers — the array of event times, which two windows
    read, as its two half shares — and put back at the exit contents; the generator register goes into the class
    invariant and out; nothing is owed; the kernel has no semaphore of its own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation m ρ c).loose
  hwaits := Pipeline.hwaits_of_owed_zero _ _ _ _ L lv 0 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ (Xout m ρ) c) ∗ R c)
  X c := iprop(∃ r, prngReg c r)
  Y c := iprop(∃ r, prngReg c r)
  Z c := Pipeline.unscopedRest (Ix := Unit) (Name := ℕ) (U := UR sig nD τ) (Lvl := ℕ) spec0 c (V4 m ρ c)
  hentry c := by
    rw [Pipeline.ownSems0_none]
    have hsplit := arrays_of_unscopedBufs (F := F) c (pdats m ρ 0 c) (q0 m ρ c) (q1 m ρ c) (qrest m ρ c) (V4 m ρ c) (pdats m ρ 0 c).A (A_eq m ρ c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    exact (show _ ⊢ Pipeline.ΦA spec0 c by
      unfold Pipeline.ΦA
      iintro ⟨Hp, -, Hr⟩
      isplitl [Hr]; · iexact Hr
      iexact Hp).trans (hin m ρ c)
  hout c := by
    rw [Pipeline.ownSems0_none]
    refine (hout m ρ c).trans ?_
    unfold Pipeline.ΦA
    iintro ⟨Hr, Hp⟩
    isplitl [Hp]; · iexact Hp
    isplitr; · iempintro
    iexact Hr
  hexit c := by
    have hjoin := unscopedBufs_of_arrays (F := F) c (pdats m ρ 0 c) (q0 m ρ c) (q1 m ρ c) (qrest m ρ c)
      (V4 m ρ c) (V5 m ρ (Xout m ρ) c) ((pdats m ρ 0 c).arrAt · cfg0.N) (hF m ρ c) (hrest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's six segments in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .region (reg0 m ρ),
    .host (hseg hostOps1 hostOps1_sub hostOps1_fresh (W5 m ρ (Xout m ρ))) ]
/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main on the TensorCore terminates,
    nothing faulting, and in every final state every unscoped buffer holds what the fold through @main says:
    the launch contents, each host stretch applied, the excitation array at what the kernel left. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W6 m ρ (Xout m ρ) c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (W6 m ρ (Xout m ρ) c) ∗ R c)
        ⊢ iprop(Tₙ m ρ c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ (Xout m ρ) c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ (Xout m ρ) c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨
      (h c _ (mem_uc main_arg0 (by decide))).trans (W6_main_arg0 m ρ (Xout m ρ) c),
      (h c _ (mem_uc main_arg1 (by decide))).trans (W6_main_arg1 m ρ (Xout m ρ) c),
      (h c _ (mem_uc main_arg2 (by decide))).trans (W6_main_arg2 m ρ (Xout m ρ) c),
      (h c _ (mem_uc main_arg3 (by decide))).trans (W6_main_arg3 m ρ (Xout m ρ) c),
      (h c _ (mem_uc main_arg4 (by decide))).trans (W6_main_arg4 m ρ (Xout m ρ) c),
      (h c _ (mem_uc main_arg5 (by decide))).trans (W6_main_arg5 m ρ (Xout m ρ) c)⟩) (run_main m ρ)

end Cert.Kernel.Hand

end
-- ==== Proof.KI.Conds.lean ====
import proofs.«401946_j23227183137529_1_alg».proof.Proof.Gen.KernelIdeal.Launch
import proofs.«401946_j23227183137529_1_alg».proof.Proof.Gen.KernelIdeal.Skeleton
import proofs.«401946_j23227183137529_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two branch conditions of the body, as functions of the grid point

The grid is 8 × 8, row-major: point `t` is the query tile `t / 8` against the key tile `t % 8`.
The accumulator is cleared at the first key tile and copied to the output block at the last. -/

/-- "this is the first key tile": the accumulator is cleared. -/
abbrev isFirst (i : grid0.Coords) : Prop :=
  (Scalar.cmpi .ne (Scalar.extui (Scalar.cmpi .eq (BitVec.ofNat 32 (i 1).val) 0#32)) 0#32) = 1#1
theorem isFirst_iff : ∀ t : Fin cfg0.N, isFirst (grid0.coords t) ↔ t.val % 8 = 0 :=
  (by decide +kernel : ∀ t : Fin grid0.N, isFirst (grid0.coords t) ↔ t.val % 8 = 0)

/-- "this is the last key tile": the accumulator is copied to the output block. -/
abbrev isLast (i : grid0.Coords) : Prop := k0_cond2 i = 1#1
theorem isLast_iff : ∀ t : Fin cfg0.N, isLast (grid0.coords t) ↔ t.val % 8 = 7 :=
  (by decide +kernel : ∀ t : Fin grid0.N, isLast (grid0.coords t) ↔ t.val % 8 = 7)

/-! ## Where the windows are idle, and when the output block is written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- The output window is idle except at the last key tile, -/
theorem idle6 : ∀ t : Fin cfg0.N, ¬isLast (grid0.coords t) → cfg0.idle 6 (grid0.coords t) = true := by decide +kernel
/-- where it is live, -/
theorem live6 : ∀ t : Fin cfg0.N, isLast (grid0.coords t) → cfg0.idle 6 (grid0.coords t) = false := by decide +kernel
/-- and it is written back only there. -/
theorem noFlush6 : ∀ t : Fin cfg0.N, ¬isLast (grid0.coords t) → (cfg0.win 6).flush t = false := by decide +kernel

/-! ## The memrefs the body is called with -/

abbrev ms0 (t : Fin cfg0.N) : Memref sig .tc .vmem S1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x50 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x100 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024 .i32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024 .f32 := win0_6.stage (cfg0.slots t 6)
abbrev hs6 (t : Fin cfg0.N) : (ms6 t).IsWhole := hstage0_6 ((cfg0.slots t 6).cast nbuf0_6)
/-- The accumulator: a scratch buffer of the kernel's own, carried from key tile to key tile. -/
abbrev accM : Memref sig .tc .vmem S1024 .f32 := Memref.whole cc0_scratch0
abbrev accV : View sig .tc .vmem S1024 .f32 := accM.view
/-- One staging buffer of the output window, through which its contents are stated. -/
abbrev outV : View sig .tc .vmem S1024 .f32 := (Memref.whole cc0_stg6_0 : Memref sig .tc .vmem S1024 .f32).view

/-- The region's class invariant with the accumulator as a memref owned at some contents. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.KernelIdeal.Hand

end
-- ==== Proof.KI.RunA.lean ====
import proofs.«401946_j23227183137529_1_alg».proof.Proof.KI.Conds

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body on whole memrefs holding the six input blocks, the output block's buffer at any contents `xi` and the
    accumulator at anything: it runs to the end, hands the input buffers back as it found them, the output buffer too, and leaves in the accumulator what its stores wrote (a list of pieces, last store first). -/
noncomputable def runA (c : Dev nD) (i : grid0.Coords) (arg2 : Memref sig .tc .vmem S1024 .f32) (harg2 : arg2.IsWhole) (arg3 : Memref sig .tc .vmem S1024 .f32) (harg3 : arg3.IsWhole) (arg4 : Memref sig .tc .vmem S1024x50 .f32) (harg4 : arg4.IsWhole) (arg5 : Memref sig .tc .vmem S1024x100 .f32) (harg5 : arg5.IsWhole) (arg6 : Memref sig .tc .vmem S1024 .i32) (harg6 : arg6.IsWhole) (arg7 : Memref sig .tc .vmem S1024 .i32) (harg7 : arg7.IsWhole) (arg8 : Memref sig .tc .vmem S1024 .f32) (harg8 : arg8.IsWhole) (arg9 : Memref sig .tc .vmem S1024 .f32) (harg9 : arg9.IsWhole) (hc0 : isFirst i) (hc1 : ¬isLast i)
    (x0 : Vec F S1024 .f32) (x1 : Vec F S1024 .f32) (x2 : Vec F S1024x50 .f32) (x3 : Vec F S1024x100 .f32) (x4 : Vec F S1024 .i32) (x5 : Vec F S1024 .i32) :
    { LA : List (View.Piece (Elt F) S1024 .f32) //
      ∀ (xi : Vec F S1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi ∗ (∃ f, arg9.view.loc (c : Thread nD τ) ↦[arg9.view.set]{fullShare} arg9.view.writes (Elt F) f LA)) -∗ K ⟨⟩))
          ⊢ wp frame (wpE (defs₀ (F := F)) Variants.none c none) E (cc0__excitation_kernel i arg2 harg2 arg3 harg3 arg4 harg4 arg5 harg5 arg6 harg6 arg7 harg7 arg8 harg8 arg9 harg9) K } := by
  refine ⟨?_, fun xi E K => ?run⟩
  case run =>
    simp only [cc0__excitation_kernel_eq_skeleton]; unfold cc0__excitation_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%da, %fa, -, HA⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HA

end Cert.KernelIdeal.Hand

end
-- ==== Proof.KI.RunB.lean ====
import proofs.«401946_j23227183137529_1_alg».proof.Proof.KI.Conds

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body on whole memrefs holding the six input blocks, the output block's buffer at any contents `xi` and the
    accumulator at `xs`: it runs to the end, hands the input buffers back as it found them, the output buffer too, and leaves in the accumulator what its stores wrote (a list of pieces, last store first). -/
noncomputable def runB (c : Dev nD) (i : grid0.Coords) (arg2 : Memref sig .tc .vmem S1024 .f32) (harg2 : arg2.IsWhole) (arg3 : Memref sig .tc .vmem S1024 .f32) (harg3 : arg3.IsWhole) (arg4 : Memref sig .tc .vmem S1024x50 .f32) (harg4 : arg4.IsWhole) (arg5 : Memref sig .tc .vmem S1024x100 .f32) (harg5 : arg5.IsWhole) (arg6 : Memref sig .tc .vmem S1024 .i32) (harg6 : arg6.IsWhole) (arg7 : Memref sig .tc .vmem S1024 .i32) (harg7 : arg7.IsWhole) (arg8 : Memref sig .tc .vmem S1024 .f32) (harg8 : arg8.IsWhole) (arg9 : Memref sig .tc .vmem S1024 .f32) (harg9 : arg9.IsWhole) (hc0 : ¬isFirst i) (hc1 : ¬isLast i)
    (x0 : Vec F S1024 .f32) (x1 : Vec F S1024 .f32) (x2 : Vec F S1024x50 .f32) (x3 : Vec F S1024x100 .f32) (x4 : Vec F S1024 .i32) (x5 : Vec F S1024 .i32) (xs : Vec F S1024 .f32) :
    { LA : List (View.Piece (Elt F) S1024 .f32) //
      ∀ (xi : Vec F S1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi ∗ (∃ f, arg9.view.loc (c : Thread nD τ) ↦[arg9.view.set]{fullShare} arg9.view.writes (Elt F) f LA)) -∗ K ⟨⟩))
          ⊢ wp frame (wpE (defs₀ (F := F)) Variants.none c none) E (cc0__excitation_kernel i arg2 harg2 arg3 harg3 arg4 harg4 arg5 harg5 arg6 harg6 arg7 harg7 arg8 harg8 arg9 harg9) K } := by
  refine ⟨?_, fun xi E K => ?run⟩
  case run =>
    simp only [cc0__excitation_kernel_eq_skeleton]; unfold cc0__excitation_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fa, %hfa, HA⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5; obtain rfl := harg8.eq_unread hf6; obtain rfl := harg9.eq_unread hfa
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HA

end Cert.KernelIdeal.Hand

end
-- ==== Proof.KI.RunC.lean ====
import proofs.«401946_j23227183137529_1_alg».proof.Proof.KI.Conds

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body on whole memrefs holding the six input blocks, the output block's buffer at anything and the
    accumulator at `xs`: it runs to the end, hands the input buffers back as it found them, and leaves in the output buffer and in the accumulator what its stores wrote (two lists of pieces, last store first). -/
noncomputable def runC (c : Dev nD) (i : grid0.Coords) (arg2 : Memref sig .tc .vmem S1024 .f32) (harg2 : arg2.IsWhole) (arg3 : Memref sig .tc .vmem S1024 .f32) (harg3 : arg3.IsWhole) (arg4 : Memref sig .tc .vmem S1024x50 .f32) (harg4 : arg4.IsWhole) (arg5 : Memref sig .tc .vmem S1024x100 .f32) (harg5 : arg5.IsWhole) (arg6 : Memref sig .tc .vmem S1024 .i32) (harg6 : arg6.IsWhole) (arg7 : Memref sig .tc .vmem S1024 .i32) (harg7 : arg7.IsWhole) (arg8 : Memref sig .tc .vmem S1024 .f32) (harg8 : arg8.IsWhole) (arg9 : Memref sig .tc .vmem S1024 .f32) (harg9 : arg9.IsWhole) (hc0 : ¬isFirst i) (hc1 : isLast i)
    (x0 : Vec F S1024 .f32) (x1 : Vec F S1024 .f32) (x2 : Vec F S1024x50 .f32) (x3 : Vec F S1024x100 .f32) (x4 : Vec F S1024 .i32) (x5 : Vec F S1024 .i32) (xs : Vec F S1024 .f32) :
    Σ' (LO : List (View.Piece (Elt F) S1024 .f32)), { LA : List (View.Piece (Elt F) S1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f LO) ∗ (∃ f, arg9.view.loc (c : Thread nD τ) ↦[arg9.view.set]{fullShare} arg9.view.writes (Elt F) f LA)) -∗ K ⟨⟩))
          ⊢ wp frame (wpE (defs₀ (F := F)) Variants.none c none) E (cc0__excitation_kernel i arg2 harg2 arg3 harg3 arg4 harg4 arg5 harg5 arg6 harg6 arg7 harg7 arg8 harg8 arg9 harg9) K } := by
  refine ⟨?_, ?_, fun E K => ?run⟩
  case run =>
    simp only [cc0__excitation_kernel_eq_skeleton]; unfold cc0__excitation_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fa, %hfa, HA⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5; obtain rfl := harg9.eq_unread hfa
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HA

end Cert.KernelIdeal.Hand

end
-- ==== Proof.KI.Fold.lean ====
import proofs.«401946_j23227183137529_1_alg».proof.Proof.KI.Conds
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary of @main: a fold from the launch memory

@main is four stretches of host operations (three softplus calls; the transpose and the two row gathers),
the kernel region, and one more stretch (everything after the excitation). -/

/-- Core `c`'s buffers at launch. -/
abbrev W0 : Dev nD → Valuation τ sig (Elt F) := fun c b => (s₀ m ρ).mem ((c : Dev nD), b)
/-- After the softplus of the base rates, -/
abbrev W1 : Dev nD → Valuation τ sig (Elt F) := fun c => StableHlo.after hostOps0 (W0 m ρ c)
/-- of the type couplings, -/
abbrev W2 : Dev nD → Valuation τ sig (Elt F) := fun c => StableHlo.after hostOps0_1 (W1 m ρ c)
/-- of the device couplings, -/
abbrev W3 : Dev nD → Valuation τ sig (Elt F) := fun c => StableHlo.after hostOps0_2 (W2 m ρ c)
/-- and after the gathers: the region's entry. -/
abbrev W4 : Dev nD → Valuation τ sig (Elt F) := fun c => StableHlo.after hostOps0_3 (W3 m ρ c)
/-- The same read at the TensorCore's references. -/
abbrev V4 : (c : Dev nD) → (b : Ref sig .tc) → Buf (Elt F) ((c : Thread nD τ).loc b) := fun c b => W4 m ρ c b

variable (X : (c : Dev nD) → Buf (Elt F) ((c : Thread nD τ).loc main_v18))

/-- At the region's exit: the excitation array at what the kernel left there (`X`), every other buffer as entered
    (the region's inputs are only read). -/
def W5 (c : Dev nD) : Valuation τ sig (Elt F) :=
  Function.update (W4 m ρ c) (Proc.devRef .tc main_v18) (X c)
theorem W5_out (c : Dev nD) : W5 m ρ X c (Proc.devRef .tc main_v18) = X c := by
  unfold W5; exact Function.update_self _ _ _
theorem W5_of_ne (c : Dev nD) (b : Ref sig .tc) (hb : b ≠ main_v18) :
    W5 m ρ X c (Proc.devRef .tc b) = W4 m ρ c (Proc.devRef .tc b) := by
  unfold W5; exact Function.update_of_ne (fun h => hb (Proc.devRef_injective _ h)) _ _
abbrev V5 : (c : Dev nD) → (b : Ref sig .tc) → Buf (Elt F) ((c : Thread nD τ).loc b) := fun c b => W5 m ρ X c b

/-- After the last stretch: the return. -/
abbrev W6 : Dev nD → Valuation τ sig (Elt F) := fun c => StableHlo.after hostOps1 (W5 m ρ X c)

/-! ## The arguments end as launched: no host operation writes one and the region only reads them -/

theorem W6_main_arg0 (c : Dev nD) : W6 m ρ X c (Proc.devRef .tc main_arg0) = m ((c : Thread nD τ).loc main_arg0) :=
  calc W6 m ρ X c (Proc.devRef .tc main_arg0)
    _ = W5 m ρ X c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg0) := W5_of_ne m ρ X c main_arg0 (by decide)
    _ = W3 m ρ c (Proc.devRef .tc main_arg0) := StableHlo.after_of_forall_not_mem (b := Proc.devRef .tc main_arg0) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := StableHlo.after_of_forall_not_mem (b := Proc.devRef .tc main_arg0) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W6_main_arg1 (c : Dev nD) : W6 m ρ X c (Proc.devRef .tc main_arg1) = m ((c : Thread nD τ).loc main_arg1) :=
  calc W6 m ρ X c (Proc.devRef .tc main_arg1)
    _ = W5 m ρ X c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg1) := W5_of_ne m ρ X c main_arg1 (by decide)
    _ = W3 m ρ c (Proc.devRef .tc main_arg1) := StableHlo.after_of_forall_not_mem (b := Proc.devRef .tc main_arg1) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := StableHlo.after_of_forall_not_mem (b := Proc.devRef .tc main_arg1) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := StableHlo.after_of_forall_not_mem (b := Proc.devRef .tc main_arg1) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W6_main_arg2 (c : Dev nD) : W6 m ρ X c (Proc.devRef .tc main_arg2) = m ((c : Thread nD τ).loc main_arg2) :=
  calc W6 m ρ X c (Proc.devRef .tc main_arg2)
    _ = W5 m ρ X c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg2) := W5_of_ne m ρ X c main_arg2 (by decide)
    _ = W3 m ρ c (Proc.devRef .tc main_arg2) := StableHlo.after_of_forall_not_mem (b := Proc.devRef .tc main_arg2) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := StableHlo.after_of_forall_not_mem (b := Proc.devRef .tc main_arg2) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W6_main_arg3 (c : Dev nD) : W6 m ρ X c (Proc.devRef .tc main_arg3) = m ((c : Thread nD τ).loc main_arg3) :=
  calc W6 m ρ X c (Proc.devRef .tc main_arg3)
    _ = W5 m ρ X c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg3) := W5_of_ne m ρ X c main_arg3 (by decide)
    _ = W3 m ρ c (Proc.devRef .tc main_arg3) := StableHlo.after_of_forall_not_mem (b := Proc.devRef .tc main_arg3) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg3) := StableHlo.after_of_forall_not_mem (b := Proc.devRef .tc main_arg3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W6_main_arg4 (c : Dev nD) : W6 m ρ X c (Proc.devRef .tc main_arg4) = m ((c : Thread nD τ).loc main_arg4) :=
  calc W6 m ρ X c (Proc.devRef .tc main_arg4)
    _ = W5 m ρ X c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg4) := W5_of_ne m ρ X c main_arg4 (by decide)
    _ = W3 m ρ c (Proc.devRef .tc main_arg4) := StableHlo.after_of_forall_not_mem (b := Proc.devRef .tc main_arg4) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := StableHlo.after_of_forall_not_mem (b := Proc.devRef .tc main_arg4) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W6_main_arg5 (c : Dev nD) : W6 m ρ X c (Proc.devRef .tc main_arg5) = m ((c : Thread nD τ).loc main_arg5) :=
  calc W6 m ρ X c (Proc.devRef .tc main_arg5)
    _ = W5 m ρ X c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg5) := W5_of_ne m ρ X c main_arg5 (by decide)
    _ = W3 m ρ c (Proc.devRef .tc main_arg5) := StableHlo.after_of_forall_not_mem (b := Proc.devRef .tc main_arg5) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg5) := StableHlo.after_of_forall_not_mem (b := Proc.devRef .tc main_arg5) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := StableHlo.after_of_forall_not_mem (b := Proc.devRef .tc main_arg5) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-- No operation of a stretch allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.KI.Frame.lean ====
import proofs.«401946_j23227183137529_1_alg».proof.Proof.KI.RunA
import proofs.«401946_j23227183137529_1_alg».proof.Proof.KI.RunB
import proofs.«401946_j23227183137529_1_alg».proof.Proof.KI.RunC
import proofs.«401946_j23227183137529_1_alg».proof.Proof.KI.Fold

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V4 m ρ c (Pipeline.arrRef spec0 w))

/-- Each input window's current staging buffer holds its block at every point, fetched there or not, for any proof
    data whose array is the region-entry contents and whose body leaves the block in place: unfetched, the block
    index has not moved. -/
theorem before0_of {c : Dev nD} (dat : Dat τ (Elt F) Unit ℕ (UR sig nD τ) ℕ cfg0 c) (hA : dat.A 0 = V4 m ρ c (Pipeline.arrRef spec0 0))
    (hafter : ∀ t, dat.after 0 t = iblk m ρ c 0 t) (t : Fin cfg0.N) (d) : dat.before 0 t d = iblk m ρ c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V4 m ρ c (Pipeline.arrRef spec0 1))
    (hafter : ∀ t, dat.after 1 t = iblk m ρ c 1 t) (t : Fin cfg0.N) (d) : dat.before 1 t d = iblk m ρ c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V4 m ρ c (Pipeline.arrRef spec0 2))
    (hafter : ∀ t, dat.after 2 t = iblk m ρ c 2 t) (t : Fin cfg0.N) (d) : dat.before 2 t d = iblk m ρ c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V4 m ρ c (Pipeline.arrRef spec0 3))
    (hafter : ∀ t, dat.after 3 t = iblk m ρ c 3 t) (t : Fin cfg0.N) (d) : dat.before 3 t d = iblk m ρ c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V4 m ρ c (Pipeline.arrRef spec0 4))
    (hafter : ∀ t, dat.after 4 t = iblk m ρ c 4 t) (t : Fin cfg0.N) (d) : dat.before 4 t d = iblk m ρ c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V4 m ρ c (Pipeline.arrRef spec0 5))
    (hafter : ∀ t, dat.after 5 t = iblk m ρ c 5 t) (t : Fin cfg0.N) (d) : dat.before 5 t d = iblk m ρ c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## What each case leaves in the accumulator and in the output block's buffer -/

/-- The first key tile's pieces for the accumulator cover it. -/
theorem coverA (c : Dev nD) (i : grid0.Coords) (arg2 : Memref sig .tc .vmem S1024 .f32) (harg2 : arg2.IsWhole) (arg3 : Memref sig .tc .vmem S1024 .f32) (harg3 : arg3.IsWhole) (arg4 : Memref sig .tc .vmem S1024x50 .f32) (harg4 : arg4.IsWhole) (arg5 : Memref sig .tc .vmem S1024x100 .f32) (harg5 : arg5.IsWhole) (arg6 : Memref sig .tc .vmem S1024 .i32) (harg6 : arg6.IsWhole) (arg7 : Memref sig .tc .vmem S1024 .i32) (harg7 : arg7.IsWhole) (arg8 : Memref sig .tc .vmem S1024 .f32) (harg8 : arg8.IsWhole) (arg9 : Memref sig .tc .vmem S1024 .f32) (harg9 : arg9.IsWhole) (hc0 : isFirst i) (hc1 : ¬isLast i)
    (x0 : Vec F S1024 .f32) (x1 : Vec F S1024 .f32) (x2 : Vec F S1024x50 .f32) (x3 : Vec F S1024x100 .f32) (x4 : Vec F S1024 .i32) (x5 : Vec F S1024 .i32) (y : S1024.Idx) :
    ∃ pc ∈ (runA c i arg2 harg2 arg3 harg3 arg4 harg4 arg5 harg5 arg6 harg6 arg7 harg7 arg8 harg8 arg9 harg9 hc0 hc1 x0 x1 x2 x3 x4 x5).1, y ∈ pc.1.set :=
  View.cover_of_tiledL (runA c i arg2 harg2 arg3 harg3 arg4 harg4 arg5 harg5 arg6 harg6 arg7 harg7 arg8 harg8 arg9 harg9 hc0 hc1 x0 x1 x2 x3 x4 x5).1 S1024.size (by sl_kernel_rfl) y
/-- What the first key tile leaves in the accumulator. -/
def accA (c : Dev nD) (i : grid0.Coords) (arg2 : Memref sig .tc .vmem S1024 .f32) (harg2 : arg2.IsWhole) (arg3 : Memref sig .tc .vmem S1024 .f32) (harg3 : arg3.IsWhole) (arg4 : Memref sig .tc .vmem S1024x50 .f32) (harg4 : arg4.IsWhole) (arg5 : Memref sig .tc .vmem S1024x100 .f32) (harg5 : arg5.IsWhole) (arg6 : Memref sig .tc .vmem S1024 .i32) (harg6 : arg6.IsWhole) (arg7 : Memref sig .tc .vmem S1024 .i32) (harg7 : arg7.IsWhole) (arg8 : Memref sig .tc .vmem S1024 .f32) (harg8 : arg8.IsWhole) (arg9 : Memref sig .tc .vmem S1024 .f32) (harg9 : arg9.IsWhole) (hc0 : isFirst i) (hc1 : ¬isLast i)
    (x0 : Vec F S1024 .f32) (x1 : Vec F S1024 .f32) (x2 : Vec F S1024x50 .f32) (x3 : Vec F S1024x100 .f32) (x4 : Vec F S1024 .i32) (x5 : Vec F S1024 .i32) : Vec F S1024 .f32 :=
  accV.read (Elt F) (accV.writes (Elt F) accV.junk (runA c i arg2 harg2 arg3 harg3 arg4 harg4 arg5 harg5 arg6 harg6 arg7 harg7 arg8 harg8 arg9 harg9 hc0 hc1 x0 x1 x2 x3 x4 x5).1)

theorem coverB (c : Dev nD) (i : grid0.Coords) (arg2 : Memref sig .tc .vmem S1024 .f32) (harg2 : arg2.IsWhole) (arg3 : Memref sig .tc .vmem S1024 .f32) (harg3 : arg3.IsWhole) (arg4 : Memref sig .tc .vmem S1024x50 .f32) (harg4 : arg4.IsWhole) (arg5 : Memref sig .tc .vmem S1024x100 .f32) (harg5 : arg5.IsWhole) (arg6 : Memref sig .tc .vmem S1024 .i32) (harg6 : arg6.IsWhole) (arg7 : Memref sig .tc .vmem S1024 .i32) (harg7 : arg7.IsWhole) (arg8 : Memref sig .tc .vmem S1024 .f32) (harg8 : arg8.IsWhole) (arg9 : Memref sig .tc .vmem S1024 .f32) (harg9 : arg9.IsWhole) (hc0 : ¬isFirst i) (hc1 : ¬isLast i)
    (x0 : Vec F S1024 .f32) (x1 : Vec F S1024 .f32) (x2 : Vec F S1024x50 .f32) (x3 : Vec F S1024x100 .f32) (x4 : Vec F S1024 .i32) (x5 : Vec F S1024 .i32) (xs : Vec F S1024 .f32) (y : S1024.Idx) :
    ∃ pc ∈ (runB c i arg2 harg2 arg3 harg3 arg4 harg4 arg5 harg5 arg6 harg6 arg7 harg7 arg8 harg8 arg9 harg9 hc0 hc1 x0 x1 x2 x3 x4 x5 xs).1, y ∈ pc.1.set :=
  View.cover_of_tiledL (runB c i arg2 harg2 arg3 harg3 arg4 harg4 arg5 harg5 arg6 harg6 arg7 harg7 arg8 harg8 arg9 harg9 hc0 hc1 x0 x1 x2 x3 x4 x5 xs).1 S1024.size (by sl_kernel_rfl) y
/-- What a middle key tile leaves in the accumulator, over what the tile before left. -/
def accB (c : Dev nD) (i : grid0.Coords) (arg2 : Memref sig .tc .vmem S1024 .f32) (harg2 : arg2.IsWhole) (arg3 : Memref sig .tc .vmem S1024 .f32) (harg3 : arg3.IsWhole) (arg4 : Memref sig .tc .vmem S1024x50 .f32) (harg4 : arg4.IsWhole) (arg5 : Memref sig .tc .vmem S1024x100 .f32) (harg5 : arg5.IsWhole) (arg6 : Memref sig .tc .vmem S1024 .i32) (harg6 : arg6.IsWhole) (arg7 : Memref sig .tc .vmem S1024 .i32) (harg7 : arg7.IsWhole) (arg8 : Memref sig .tc .vmem S1024 .f32) (harg8 : arg8.IsWhole) (arg9 : Memref sig .tc .vmem S1024 .f32) (harg9 : arg9.IsWhole) (hc0 : ¬isFirst i) (hc1 : ¬isLast i)
    (x0 : Vec F S1024 .f32) (x1 : Vec F S1024 .f32) (x2 : Vec F S1024x50 .f32) (x3 : Vec F S1024x100 .f32) (x4 : Vec F S1024 .i32) (x5 : Vec F S1024 .i32) (xs : Vec F S1024 .f32) : Vec F S1024 .f32 :=
  accV.read (Elt F) (accV.writes (Elt F) accV.junk (runB c i arg2 harg2 arg3 harg3 arg4 harg4 arg5 harg5 arg6 harg6 arg7 harg7 arg8 harg8 arg9 harg9 hc0 hc1 x0 x1 x2 x3 x4 x5 xs).1)

theorem coverC (c : Dev nD) (i : grid0.Coords) (arg2 : Memref sig .tc .vmem S1024 .f32) (harg2 : arg2.IsWhole) (arg3 : Memref sig .tc .vmem S1024 .f32) (harg3 : arg3.IsWhole) (arg4 : Memref sig .tc .vmem S1024x50 .f32) (harg4 : arg4.IsWhole) (arg5 : Memref sig .tc .vmem S1024x100 .f32) (harg5 : arg5.IsWhole) (arg6 : Memref sig .tc .vmem S1024 .i32) (harg6 : arg6.IsWhole) (arg7 : Memref sig .tc .vmem S1024 .i32) (harg7 : arg7.IsWhole) (arg8 : Memref sig .tc .vmem S1024 .f32) (harg8 : arg8.IsWhole) (arg9 : Memref sig .tc .vmem S1024 .f32) (harg9 : arg9.IsWhole) (hc0 : ¬isFirst i) (hc1 : isLast i)
    (x0 : Vec F S1024 .f32) (x1 : Vec F S1024 .f32) (x2 : Vec F S1024x50 .f32) (x3 : Vec F S1024x100 .f32) (x4 : Vec F S1024 .i32) (x5 : Vec F S1024 .i32) (xs : Vec F S1024 .f32) (y : S1024.Idx) :
    ∃ pc ∈ (runC c i arg2 harg2 arg3 harg3 arg4 harg4 arg5 harg5 arg6 harg6 arg7 harg7 arg8 harg8 arg9 harg9 hc0 hc1 x0 x1 x2 x3 x4 x5 xs).2.1, y ∈ pc.1.set :=
  View.cover_of_tiledL (runC c i arg2 harg2 arg3 harg3 arg4 harg4 arg5 harg5 arg6 harg6 arg7 harg7 arg8 harg8 arg9 harg9 hc0 hc1 x0 x1 x2 x3 x4 x5 xs).2.1 S1024.size (by sl_kernel_rfl) y
/-- What the last key tile leaves in the accumulator, -/
def accC (c : Dev nD) (i : grid0.Coords) (arg2 : Memref sig .tc .vmem S1024 .f32) (harg2 : arg2.IsWhole) (arg3 : Memref sig .tc .vmem S1024 .f32) (harg3 : arg3.IsWhole) (arg4 : Memref sig .tc .vmem S1024x50 .f32) (harg4 : arg4.IsWhole) (arg5 : Memref sig .tc .vmem S1024x100 .f32) (harg5 : arg5.IsWhole) (arg6 : Memref sig .tc .vmem S1024 .i32) (harg6 : arg6.IsWhole) (arg7 : Memref sig .tc .vmem S1024 .i32) (harg7 : arg7.IsWhole) (arg8 : Memref sig .tc .vmem S1024 .f32) (harg8 : arg8.IsWhole) (arg9 : Memref sig .tc .vmem S1024 .f32) (harg9 : arg9.IsWhole) (hc0 : ¬isFirst i) (hc1 : isLast i)
    (x0 : Vec F S1024 .f32) (x1 : Vec F S1024 .f32) (x2 : Vec F S1024x50 .f32) (x3 : Vec F S1024x100 .f32) (x4 : Vec F S1024 .i32) (x5 : Vec F S1024 .i32) (xs : Vec F S1024 .f32) : Vec F S1024 .f32 :=
  accV.read (Elt F) (accV.writes (Elt F) accV.junk (runC c i arg2 harg2 arg3 harg3 arg4 harg4 arg5 harg5 arg6 harg6 arg7 harg7 arg8 harg8 arg9 harg9 hc0 hc1 x0 x1 x2 x3 x4 x5 xs).2.1)
theorem coverOutC (c : Dev nD) (i : grid0.Coords) (arg2 : Memref sig .tc .vmem S1024 .f32) (harg2 : arg2.IsWhole) (arg3 : Memref sig .tc .vmem S1024 .f32) (harg3 : arg3.IsWhole) (arg4 : Memref sig .tc .vmem S1024x50 .f32) (harg4 : arg4.IsWhole) (arg5 : Memref sig .tc .vmem S1024x100 .f32) (harg5 : arg5.IsWhole) (arg6 : Memref sig .tc .vmem S1024 .i32) (harg6 : arg6.IsWhole) (arg7 : Memref sig .tc .vmem S1024 .i32) (harg7 : arg7.IsWhole) (arg8 : Memref sig .tc .vmem S1024 .f32) (harg8 : arg8.IsWhole) (arg9 : Memref sig .tc .vmem S1024 .f32) (harg9 : arg9.IsWhole) (hc0 : ¬isFirst i) (hc1 : isLast i)
    (x0 : Vec F S1024 .f32) (x1 : Vec F S1024 .f32) (x2 : Vec F S1024x50 .f32) (x3 : Vec F S1024x100 .f32) (x4 : Vec F S1024 .i32) (x5 : Vec F S1024 .i32) (xs : Vec F S1024 .f32) (y : S1024.Idx) :
    ∃ pc ∈ (runC c i arg2 harg2 arg3 harg3 arg4 harg4 arg5 harg5 arg6 harg6 arg7 harg7 arg8 harg8 arg9 harg9 hc0 hc1 x0 x1 x2 x3 x4 x5 xs).1, y ∈ pc.1.set :=
  View.cover_of_tiledL (runC c i arg2 harg2 arg3 harg3 arg4 harg4 arg5 harg5 arg6 harg6 arg7 harg7 arg8 harg8 arg9 harg9 hc0 hc1 x0 x1 x2 x3 x4 x5 xs).1 S1024.size (by sl_kernel_rfl) y
/-- and in the output block's buffer. -/
def outC (c : Dev nD) (i : grid0.Coords) (arg2 : Memref sig .tc .vmem S1024 .f32) (harg2 : arg2.IsWhole) (arg3 : Memref sig .tc .vmem S1024 .f32) (harg3 : arg3.IsWhole) (arg4 : Memref sig .tc .vmem S1024x50 .f32) (harg4 : arg4.IsWhole) (arg5 : Memref sig .tc .vmem S1024x100 .f32) (harg5 : arg5.IsWhole) (arg6 : Memref sig .tc .vmem S1024 .i32) (harg6 : arg6.IsWhole) (arg7 : Memref sig .tc .vmem S1024 .i32) (harg7 : arg7.IsWhole) (arg8 : Memref sig .tc .vmem S1024 .f32) (harg8 : arg8.IsWhole) (arg9 : Memref sig .tc .vmem S1024 .f32) (harg9 : arg9.IsWhole) (hc0 : ¬isFirst i) (hc1 : isLast i)
    (x0 : Vec F S1024 .f32) (x1 : Vec F S1024 .f32) (x2 : Vec F S1024x50 .f32) (x3 : Vec F S1024x100 .f32) (x4 : Vec F S1024 .i32) (x5 : Vec F S1024 .i32) (xs : Vec F S1024 .f32) : Vec F S1024 .f32 :=
  outV.read (Elt F) (outV.writes (Elt F) outV.junk (runC c i arg2 harg2 arg3 harg3 arg4 harg4 arg5 harg5 arg6 harg6 arg7 harg7 arg8 harg8 arg9 harg9 hc0 hc1 x0 x1 x2 x3 x4 x5 xs).1)

/-- Where the body stores nothing into the output block's buffer, a placeholder nothing consults: there the window
    is neither written back nor read at the next point. -/
def outNone : Vec F S1024 .f32 := outV.read (Elt F) outV.junk

/-! ## What the output buffer and the accumulator hold after each point -/

/-- THE ACCUMULATION: after the body at position `n`, the output block's buffer and the accumulator. At a first key
    tile the accumulator is cleared and the tile's part added; elsewhere the tile's part is added to what the point
    before left; at a last key tile the accumulator is also copied to the output block's buffer. -/
def outsAt (c : Dev nD) : (n : ℕ) → n < cfg0.N → Vec F S1024 .f32 × Vec F S1024 .f32
  | 0, hn => (outNone (F := F), accA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) accM (Memref.isWhole_whole _) ((isFirst_iff ⟨0, hn⟩).mpr (Nat.zero_mod _)) (fun h => (fun h => by (try dsimp only at h); omega) ((isLast_iff ⟨0, hn⟩).mp h)) (iblk m ρ c 0 ⟨0, hn⟩) (iblk m ρ c 1 ⟨0, hn⟩) (iblk m ρ c 2 ⟨0, hn⟩) (iblk m ρ c 3 ⟨0, hn⟩) (iblk m ρ c 4 ⟨0, hn⟩) (iblk m ρ c 5 ⟨0, hn⟩))
  | n + 1, hn =>
    if h0 : (n + 1) % 8 = 0 then
      if h1 : (n + 1) % 8 = 7 then
        False.elim (by omega)
      else
        (outNone (F := F), accA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _) ((isFirst_iff ⟨n + 1, hn⟩).mpr h0) (fun h => h1 ((isLast_iff ⟨n + 1, hn⟩).mp h)) (iblk m ρ c 0 ⟨n + 1, hn⟩) (iblk m ρ c 1 ⟨n + 1, hn⟩) (iblk m ρ c 2 ⟨n + 1, hn⟩) (iblk m ρ c 3 ⟨n + 1, hn⟩) (iblk m ρ c 4 ⟨n + 1, hn⟩) (iblk m ρ c 5 ⟨n + 1, hn⟩))
    else
      if h1 : (n + 1) % 8 = 7 then
        (outC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _) (fun h => h0 ((isFirst_iff ⟨n + 1, hn⟩).mp h)) ((isLast_iff ⟨n + 1, hn⟩).mpr h1) (iblk m ρ c 0 ⟨n + 1, hn⟩) (iblk m ρ c 1 ⟨n + 1, hn⟩) (iblk m ρ c 2 ⟨n + 1, hn⟩) (iblk m ρ c 3 ⟨n + 1, hn⟩) (iblk m ρ c 4 ⟨n + 1, hn⟩) (iblk m ρ c 5 ⟨n + 1, hn⟩) (outsAt c n (Nat.lt_of_succ_lt hn)).2,
         accC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _) (fun h => h0 ((isFirst_iff ⟨n + 1, hn⟩).mp h)) ((isLast_iff ⟨n + 1, hn⟩).mpr h1) (iblk m ρ c 0 ⟨n + 1, hn⟩) (iblk m ρ c 1 ⟨n + 1, hn⟩) (iblk m ρ c 2 ⟨n + 1, hn⟩) (iblk m ρ c 3 ⟨n + 1, hn⟩) (iblk m ρ c 4 ⟨n + 1, hn⟩) (iblk m ρ c 5 ⟨n + 1, hn⟩) (outsAt c n (Nat.lt_of_succ_lt hn)).2)
      else
        (outNone (F := F), accB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _) (fun h => h0 ((isFirst_iff ⟨n + 1, hn⟩).mp h)) (fun h => h1 ((isLast_iff ⟨n + 1, hn⟩).mp h)) (iblk m ρ c 0 ⟨n + 1, hn⟩) (iblk m ρ c 1 ⟨n + 1, hn⟩) (iblk m ρ c 2 ⟨n + 1, hn⟩) (iblk m ρ c 3 ⟨n + 1, hn⟩) (iblk m ρ c 4 ⟨n + 1, hn⟩) (iblk m ρ c 5 ⟨n + 1, hn⟩) (outsAt c n (Nat.lt_of_succ_lt hn)).2)

/-- `outsAt` at a first key tile. -/
theorem outsAt_A (c : Dev nD) (t : Fin cfg0.N) (h0 : t.val % 8 = 0) (h1 : ¬t.val % 8 = 7) :
    outsAt m ρ c t.val t.isLt = (outNone (F := F), accA c (grid0.coords t) (ms0 t) (hs0 t) (ms1 t) (hs1 t) (ms2 t) (hs2 t) (ms3 t) (hs3 t) (ms4 t) (hs4 t) (ms5 t) (hs5 t) (ms6 t) (hs6 t) accM (Memref.isWhole_whole _) ((isFirst_iff t).mpr h0) (fun h => h1 ((isLast_iff t).mp h)) (iblk m ρ c 0 t) (iblk m ρ c 1 t) (iblk m ρ c 2 t) (iblk m ρ c 3 t) (iblk m ρ c 4 t) (iblk m ρ c 5 t)) := by
  obtain ⟨n, hn⟩ := t
  cases n with
  | zero => exact rfl
  | succ n => exact (dif_pos h0).trans ((dif_neg h1).trans rfl)

/-- `outsAt` at a middle key tile: over what the point before left. -/
theorem outsAt_B (c : Dev nD) (t : Fin cfg0.N) (h0 : ¬t.val % 8 = 0) (h1 : ¬t.val % 8 = 7) :
    outsAt m ρ c t.val t.isLt = (outNone (F := F), accB c (grid0.coords t) (ms0 t) (hs0 t) (ms1 t) (hs1 t) (ms2 t) (hs2 t) (ms3 t) (hs3 t) (ms4 t) (hs4 t) (ms5 t) (hs5 t) (ms6 t) (hs6 t) accM (Memref.isWhole_whole _) (fun h => h0 ((isFirst_iff t).mp h)) (fun h => h1 ((isLast_iff t).mp h)) (iblk m ρ c 0 t) (iblk m ρ c 1 t) (iblk m ρ c 2 t) (iblk m ρ c 3 t) (iblk m ρ c 4 t) (iblk m ρ c 5 t) (outsAt m ρ c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt` at a last key tile: over what the point before left. -/
theorem outsAt_C (c : Dev nD) (t : Fin cfg0.N) (h0 : ¬t.val % 8 = 0) (h1 : t.val % 8 = 7) :
    outsAt m ρ c t.val t.isLt = (outC c (grid0.coords t) (ms0 t) (hs0 t) (ms1 t) (hs1 t) (ms2 t) (hs2 t) (ms3 t) (hs3 t) (ms4 t) (hs4 t) (ms5 t) (hs5 t) (ms6 t) (hs6 t) accM (Memref.isWhole_whole _) (fun h => h0 ((isFirst_iff t).mp h)) ((isLast_iff t).mpr h1) (iblk m ρ c 0 t) (iblk m ρ c 1 t) (iblk m ρ c 2 t) (iblk m ρ c 3 t) (iblk m ρ c 4 t) (iblk m ρ c 5 t) (outsAt m ρ c (t.val - 1) (Nat.lt_of_le_of_lt (Nat.sub_le _ _) t.isLt)).2, accC c (grid0.coords t) (ms0 t) (hs0 t) (ms1 t) (hs1 t) (ms2 t) (hs2 t) (ms3 t) (hs3 t) (ms4 t) (hs4 t) (ms5 t) (hs5 t) (ms6 t) (hs6 t) accM (Memref.isWhole_whole _) (fun h => h0 ((isFirst_iff t).mp h)) ((isLast_iff t).mpr h1) (iblk m ρ c 0 t) (iblk m ρ c 1 t) (iblk m ρ c 2 t) (iblk m ρ c 3 t) (iblk m ρ c 4 t) (iblk m ρ c 5 t) (outsAt m ρ c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (the accumulator at anything);
    afterwards the accumulator at what the point before left in it, and the generator register at some state. -/
def PhiS (c : Dev nD) : (n : ℕ) → n ≤ cfg0.N → sProp 𝕄
  | 0, _ => Pipeline.ΦA spec0 c
  | n + 1, hn => iprop(iprop(owns (c : Thread nD τ) accM fullShare ((outsAt m ρ c n hn).2)) ∗ (∃ r, prngReg c r))

theorem PhiS_zero (c : Dev nD) (n : ℕ) (h : n ≤ cfg0.N) (hz : n = 0) : PhiS m ρ c n h = Pipeline.ΦA spec0 c := by
  subst hz; rfl
theorem PhiS_succ (c : Dev nD) (n : ℕ) (hn : n < cfg0.N) :
    PhiS m ρ c (n + 1) hn = iprop(iprop(owns (c : Thread nD τ) accM fullShare ((outsAt m ρ c n hn).2)) ∗ (∃ r, prngReg c r)) := rfl
theorem PhiS_pos (c : Dev nD) (n : ℕ) (h : n ≤ cfg0.N) (hz : n ≠ 0) :
    PhiS m ρ c n h = iprop(iprop(owns (c : Thread nD τ) accM fullShare ((outsAt m ρ c (n - 1) (by omega)).2)) ∗ (∃ r, prngReg c r)) := by
  cases n with
  | zero => exact absurd rfl hz
  | succ n => rfl

/-! ## The pipeline's proof data -/

/-- The proof data of the pipeline on core `c`: the arrays as the region finds them; after the body at point `t`
    each input's buffer at its block and the output's at `outsAt`; the invariant `PhiS`; nothing owed; the two
    windows that read the event times hold the two halves of that array's share, every other window a whole share. -/
def dats (_ : Fin 1) (c : Dev nD) : Dat τ (Elt F) Unit ℕ (UR sig nD τ) ℕ cfg0 c where
  A w := V4 m ρ c (Pipeline.arrRef spec0 w)
  after w t := match w with
    | ⟨0, _⟩ => iblk m ρ c 0 t
    | ⟨1, _⟩ => iblk m ρ c 1 t
    | ⟨2, _⟩ => iblk m ρ c 2 t
    | ⟨3, _⟩ => iblk m ρ c 3 t
    | ⟨4, _⟩ => iblk m ρ c 4 t
    | ⟨5, _⟩ => iblk m ρ c 5 t
    | ⟨6, _⟩ => (outsAt m ρ c t.val t.isLt).1
  Φ t := PhiS m ρ c t.val (Nat.le_of_lt_succ t.isLt)
  q w := match w with
    | ⟨0, _⟩ => fullShare.left
    | ⟨1, _⟩ => fullShare.right
    | _ => fullShare
  owed _ := 0

theorem A_eq (c : Dev nD) (w : Fin cfg0.W) : (dats m ρ 0 c).A w = V4 m ρ c (Pipeline.arrRef spec0 w) := by
  dsimp only [dats]
theorem PhiS_castSucc (c : Dev nD) (t : Fin cfg0.N) :
    (dats m ρ 0 c).Φ t.castSucc = PhiS m ρ c t.val (Nat.le_of_lt t.isLt) := by
  dsimp only [dats]; simp only [Fin.coe_castSucc]
theorem q0 (c : Dev nD) : (dats m ρ 0 c).q 0 = fullShare.left := rfl
theorem q1 (c : Dev nD) : (dats m ρ 0 c).q 1 = fullShare.right := rfl
theorem qrest (c : Dev nD) : ∀ w : Fin 7, 2 ≤ w.val → (dats m ρ 0 c).q w = fullShare := by
  intro w hw; fin_cases w <;> first | (exfalso; revert hw; decide) | rfl

theorem after0 (c : Dev nD) (t : Fin cfg0.N) : (dats m ρ 0 c).after 0 t = iblk m ρ c 0 t := by dsimp only [dats]
theorem after1 (c : Dev nD) (t : Fin cfg0.N) : (dats m ρ 0 c).after 1 t = iblk m ρ c 1 t := by dsimp only [dats]
theorem after2 (c : Dev nD) (t : Fin cfg0.N) : (dats m ρ 0 c).after 2 t = iblk m ρ c 2 t := by dsimp only [dats]
theorem after3 (c : Dev nD) (t : Fin cfg0.N) : (dats m ρ 0 c).after 3 t = iblk m ρ c 3 t := by dsimp only [dats]
theorem after4 (c : Dev nD) (t : Fin cfg0.N) : (dats m ρ 0 c).after 4 t = iblk m ρ c 4 t := by dsimp only [dats]
theorem after5 (c : Dev nD) (t : Fin cfg0.N) : (dats m ρ 0 c).after 5 t = iblk m ρ c 5 t := by dsimp only [dats]
theorem after6 (c : Dev nD) (t : Fin cfg0.N) : (dats m ρ 0 c).after 6 t = (outsAt m ρ c t.val t.isLt).1 := by dsimp only [dats]

theorem before0 (c : Dev nD) (t : Fin cfg0.N) (d) : (dats m ρ 0 c).before 0 t d = iblk m ρ c 0 t :=
  before0_of m ρ (dats m ρ 0 c) (A_eq m ρ c 0) (after0 m ρ c) t d
theorem before1 (c : Dev nD) (t : Fin cfg0.N) (d) : (dats m ρ 0 c).before 1 t d = iblk m ρ c 1 t :=
  before1_of m ρ (dats m ρ 0 c) (A_eq m ρ c 1) (after1 m ρ c) t d
theorem before2 (c : Dev nD) (t : Fin cfg0.N) (d) : (dats m ρ 0 c).before 2 t d = iblk m ρ c 2 t :=
  before2_of m ρ (dats m ρ 0 c) (A_eq m ρ c 2) (after2 m ρ c) t d
theorem before3 (c : Dev nD) (t : Fin cfg0.N) (d) : (dats m ρ 0 c).before 3 t d = iblk m ρ c 3 t :=
  before3_of m ρ (dats m ρ 0 c) (A_eq m ρ c 3) (after3 m ρ c) t d
theorem before4 (c : Dev nD) (t : Fin cfg0.N) (d) : (dats m ρ 0 c).before 4 t d = iblk m ρ c 4 t :=
  before4_of m ρ (dats m ρ 0 c) (A_eq m ρ c 4) (after4 m ρ c) t d
theorem before5 (c : Dev nD) (t : Fin cfg0.N) (d) : (dats m ρ 0 c).before 5 t d = iblk m ρ c 5 t :=
  before5_of m ρ (dats m ρ 0 c) (A_eq m ρ c 5) (after5 m ρ c) t d

/-! ## The body obligation, at a generic point -/

/-- What the body is called with at point `t`, the windows one by one, -/
def bodyPre (c : Dev nD) (t : Fin cfg0.N) : sProp 𝕄 :=
  iprop((dats m ρ 0 c).Φ t.castSucc ∗ (dats m ρ 0 c).owesAt () t.castSucc
    ∗ (∃ d, owns (c : Thread nD τ) (ms0 t) fullShare ((dats m ρ 0 c).before 0 t d))
    ∗ (∃ d, owns (c : Thread nD τ) (ms1 t) fullShare ((dats m ρ 0 c).before 1 t d))
    ∗ (∃ d, owns (c : Thread nD τ) (ms2 t) fullShare ((dats m ρ 0 c).before 2 t d))
    ∗ (∃ d, owns (c : Thread nD τ) (ms3 t) fullShare ((dats m ρ 0 c).before 3 t d))
    ∗ (∃ d, owns (c : Thread nD τ) (ms4 t) fullShare ((dats m ρ 0 c).before 4 t d))
    ∗ (∃ d, owns (c : Thread nD τ) (ms5 t) fullShare ((dats m ρ 0 c).before 5 t d))
    ∗ (∃ d, owns (c : Thread nD τ) (ms6 t) fullShare ((dats m ρ 0 c).before 6 t d)))

/-- and what it returns. -/
def bodyPost (c : Dev nD) (t : Fin cfg0.N) : sProp 𝕄 :=
  iprop((dats m ρ 0 c).Φ t.succ ∗ (dats m ρ 0 c).owesAt () t.succ
    ∗ (dats m ρ 0 c).leavesExact 0 t
    ∗ (dats m ρ 0 c).leavesExact 1 t
    ∗ (dats m ρ 0 c).leavesExact 2 t
    ∗ (dats m ρ 0 c).leavesExact 3 t
    ∗ (dats m ρ 0 c).leavesExact 4 t
    ∗ (dats m ρ 0 c).leavesExact 5 t
    ∗ (dats m ρ 0 c).leavesExact 6 t)

set_option maxHeartbeats 8000000 in
/-- The body at any point. The inputs' buffers hold their blocks; the closed forms say which case the point is in; the
    invariant hands the body the accumulator at what the point before left (at anything at the very first point) and
    takes it back at this point's contents; the output block's buffer is stored into only at a last key tile, and is
    handed back as found elsewhere; the core owes nothing throughout. -/
theorem sound_body (c : Dev nD) (t : Fin cfg0.N) :
    bodyPre m ρ c t ⊢ wp frame (wpE (defs₀ (F := F)) Variants.none c none) Set.univ (bodyAt0 t) (fun _ => bodyPost m ρ c t) := by
  unfold bodyPre bodyPost bodyAt0
  simp only [before0, before1, before2, before3, before4, before5]
  rw [show (dats m ρ 0 c).owesAt () t.succ = (dats m ρ 0 c).owesAt () t.castSucc from rfl]
  rw [show (dats m ρ 0 c).Φ t.succ = PhiS m ρ c (t.val + 1) t.isLt from rfl, PhiS_succ]
  have hN : t.val < 64 := lt_of_lt_of_eq t.isLt (show cfg0.N = 64 from N_0)
  rw [show (dats m ρ 0 c).leavesExact 0 t = owns (c : Thread nD τ) (ms0 t) fullShare ((dats m ρ 0 c).after 0 t) from by
    unfold Dat.leavesExact; rw [live0 t], after0]
  rw [show (dats m ρ 0 c).leavesExact 1 t = owns (c : Thread nD τ) (ms1 t) fullShare ((dats m ρ 0 c).after 1 t) from by
    unfold Dat.leavesExact; rw [live1 t], after1]
  rw [show (dats m ρ 0 c).leavesExact 2 t = owns (c : Thread nD τ) (ms2 t) fullShare ((dats m ρ 0 c).after 2 t) from by
    unfold Dat.leavesExact; rw [live2 t], after2]
  rw [show (dats m ρ 0 c).leavesExact 3 t = owns (c : Thread nD τ) (ms3 t) fullShare ((dats m ρ 0 c).after 3 t) from by
    unfold Dat.leavesExact; rw [live3 t], after3]
  rw [show (dats m ρ 0 c).leavesExact 4 t = owns (c : Thread nD τ) (ms4 t) fullShare ((dats m ρ 0 c).after 4 t) from by
    unfold Dat.leavesExact; rw [live4 t], after4]
  rw [show (dats m ρ 0 c).leavesExact 5 t = owns (c : Thread nD τ) (ms5 t) fullShare ((dats m ρ 0 c).after 5 t) from by
    unfold Dat.leavesExact; rw [live5 t], after5]
  by_cases h0 : t.val % 8 = 0
  · have h1 : ¬t.val % 8 = 7 := by omega
    rw [Dat.leavesExact_idle (dats m ρ 0 c) 6 t (idle6 t (fun h => h1 ((isLast_iff t).mp h))) (noFlush6 t (fun h => h1 ((isLast_iff t).mp h)))]
    rw [outsAt_A m ρ c t h0 h1]
    unfold accA; (try dsimp only)
    by_cases hz : t.val = 0
    · rw [PhiS_castSucc m ρ c t, PhiS_zero m ρ c _ _ hz, PhiA_eq]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((runA c (grid0.coords t) _ _ _ _ _ _ _ _ _ _ _ _ _ _ _ _ ((isFirst_iff t).mpr h0) (fun h => h1 ((isLast_iff t).mp h)) (iblk m ρ c 0 t) (iblk m ρ c 1 t) (iblk m ρ c 2 t) (iblk m ρ c 3 t) (iblk m ρ c 4 t) (iblk m ρ c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [HS Hg]
      · isplitl [HS]
        · unfold owns; iexists _; isplitr
          swap; · iexact HS
          ipureintro; exact View.read_writes_of_cover _ _ _ _ _ (coverA c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc m ρ c t, PhiS_pos m ρ c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((runA c (grid0.coords t) _ _ _ _ _ _ _ _ _ _ _ _ _ _ _ _ ((isFirst_iff t).mpr h0) (fun h => h1 ((isLast_iff t).mp h)) (iblk m ρ c 0 t) (iblk m ρ c 1 t) (iblk m ρ c 2 t) (iblk m ρ c 3 t) (iblk m ρ c 4 t) (iblk m ρ c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexists _; iexact HS
      iintro ⟨H0, H1, H2, H3, H4, H5, H6, ⟨%es, HS⟩⟩
      isplitl [HS Hg]
      · isplitl [HS]
        · unfold owns; iexists _; isplitr
          swap; · iexact HS
          ipureintro; exact View.read_writes_of_cover _ _ _ _ _ (coverA c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun h => h0 (by rw [h])
    by_cases h1 : t.val % 8 = 7
    · rw [show (dats m ρ 0 c).leavesExact 6 t = owns (c : Thread nD τ) (ms6 t) fullShare ((dats m ρ 0 c).after 6 t) from by
        unfold Dat.leavesExact; rw [live6 t ((isLast_iff t).mpr h1)], after6]
      rw [outsAt_C m ρ c t h0 h1]
      unfold outC accC; (try dsimp only)
      rw [PhiS_castSucc m ρ c t, PhiS_pos m ρ c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((runC c (grid0.coords t) _ _ _ _ _ _ _ _ _ _ _ _ _ _ _ _ (fun h => h0 ((isFirst_iff t).mp h)) ((isLast_iff t).mpr h1) (iblk m ρ c 0 t) (iblk m ρ c 1 t) (iblk m ρ c 2 t) (iblk m ρ c 3 t) (iblk m ρ c 4 t) (iblk m ρ c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%e6, H6⟩, ⟨%es, HS⟩⟩
      isplitl [HS Hg]
      · isplitl [HS]
        · unfold owns; iexists _; isplitr
          swap; · iexact HS
          ipureintro; exact View.read_writes_of_cover _ _ _ _ _ (coverC c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverOutC c _ _ _ _ _ _ _ _ _ _ _ _ _ _ _ _ _ _ _ _ _ _ _ _ _ _)
    · rw [Dat.leavesExact_idle (dats m ρ 0 c) 6 t (idle6 t (fun h => h1 ((isLast_iff t).mp h))) (noFlush6 t (fun h => h1 ((isLast_iff t).mp h)))]
      rw [outsAt_B m ρ c t h0 h1]
      unfold accB; (try dsimp only)
      rw [PhiS_castSucc m ρ c t, PhiS_pos m ρ c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((runB c (grid0.coords t) _ _ _ _ _ _ _ _ _ _ _ _ _ _ _ _ (fun h => h0 ((isFirst_iff t).mp h)) (fun h => h1 ((isLast_iff t).mp h)) (iblk m ρ c 0 t) (iblk m ρ c 1 t) (iblk m ρ c 2 t) (iblk m ρ c 3 t) (iblk m ρ c 4 t) (iblk m ρ c 5 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [HS Hg]
      · isplitl [HS]
        · unfold owns; iexists _; isplitr
          swap; · iexact HS
          ipureintro; exact View.read_writes_of_cover _ _ _ _ _ (coverB c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dats (F := F) m ρ 0 c) (defs₀ (F := F)) Variants.none () Set.univ := fun t => by
  rw [bigSep_W0, bigSep_W0]
  exact sound_body m ρ c t

/-- What the launch hands the region is the invariant before the first point. -/
theorem hin (c : Dev nD) : Pipeline.ΦA spec0 c ⊢ (dats m ρ 0 c).Φ 0 := by
  rw [show (dats m ρ 0 c).Φ 0 = PhiS m ρ c 0 (Nat.zero_le _) from rfl, PhiS_zero m ρ c 0 _ rfl]
  try exact Idealize.SL.BI.Entails.refl _

/-- After any point but the first the invariant gives the class's back: what the accumulator holds is forgotten. -/
theorem Phi_out (c : Dev nD) (t : Fin (cfg0.N + 1)) (ht : t.val ≠ 0) : (dats m ρ 0 c).Φ t ⊢ Pipeline.ΦA spec0 c := by
  rw [show (dats m ρ 0 c).Φ t = PhiS m ρ c t.val (Nat.le_of_lt_succ t.isLt) from rfl, PhiS_pos m ρ c _ _ ht, PhiA_eq]
  iintro ⟨HS, Hg⟩
  isplitl [HS]
  · iexists _; iexact HS
  iexact Hg

theorem hout (c : Dev nD) : (dats m ρ 0 c).Φ (Fin.last cfg0.N) ⊢ Pipeline.ΦA spec0 c :=
  Phi_out m ρ c _ (by rw [Fin.val_last]; have : cfg0.N = 64 := N_0; omega)

end Cert.KernelIdeal.Hand

end
-- ==== Proof.KI.Share.lean ====
/- The windows' arrays of a pipeline two of whose input windows read ONE array: the bridge between the distinct
   buffers behind the windows' arrays, each whole at the full share, and the proof data's arrays, where the two
   windows on the shared array hold its left and its right half share; and from it the entry and the exit of the
   region over a core's unscoped buffers. -/
import proofs.«401946_j23227183137529_1_alg».proof.Proof.Gen.KernelIdeal.Launch
import Idealize.ShloMosaic.Lib.Pipeline.Frame
import Idealize.ShloMosaic.Lib.Pipeline.RegionsLoop

-- deciding which of the program's references are the windows' arrays recurses past the default depth
set_option maxRecDepth 4096

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- The distinct arrays behind the seven windows: the first two windows share theirs. -/
theorem arrRef_image : Finset.univ.image (Pipeline.arrRef spec0)
    = {Pipeline.arrRef spec0 0, Pipeline.arrRef spec0 2, Pipeline.arrRef spec0 3, Pipeline.arrRef spec0 4,
       Pipeline.arrRef spec0 5, Pipeline.arrRef spec0 6} := by decide

section
variable (c : Dev nD) (dat : Pipeline.Dat τ (Elt F) Unit ℕ (UR sig nD τ) ℕ cfg0 c)

/-- An input window's array is held at the share the proof data names. -/
theorem share_in (w : Fin 7) (h : (cfg0.win w).isOut = false) : dat.share w = dat.q w := by
  unfold Pipeline.Dat.share; rw [h]; rfl

/-- An output window's array is held at the full share. -/
theorem share_out (w : Fin 7) (h : (cfg0.win w).isOut = true) : dat.share w = fullShare := by
  unfold Pipeline.Dat.share; rw [h]; rfl

/-- One window's array, a whole buffer, held at share `q` at the contents a valuation `V` gives its buffer. -/
theorem arr_at (w : Fin 7) (q : PosShare TreeShare) (hs : dat.share w = q)
    (V : (b : Ref sig .tc) → Buf (Elt F) ((c.tc : Thread nD τ).loc b))
    (G : (w : Fin cfg0.W) → Buf (Elt F) ((cfg0.win w).arr.view.loc (c.tc : Thread nD τ)))
    (hG : ∀ w, G w = V (Pipeline.arrRef spec0 w)) :
    ((cfg0.win w).arr.view.loc (c.tc : Thread nD τ) ↦[(cfg0.win w).arr.view.set]{dat.share w} G w : sProp 𝕄)
      = ((c.tc : Thread nD τ).loc (Pipeline.arrRef spec0 w) ↦{q} V (Pipeline.arrRef spec0 w)) := by
  rw [(arr_whole0 w).set_eq_univ, hs, hG w]
end

/-- the distinct buffers behind the windows' arrays, whole at the full share, are the proof data's arrays when the
    two windows on the shared array hold its two half shares -/
theorem arrays_iff_arrBufs (c : Dev nD) (dat : Pipeline.Dat τ (Elt F) Unit ℕ (UR sig nD τ) ℕ cfg0 c)
    (hq0 : dat.q 0 = fullShare.left) (hq1 : dat.q 1 = fullShare.right) (hq : ∀ w : Fin 7, 2 ≤ w.val → dat.q w = fullShare)
    (V : (b : Ref sig .tc) → Buf (Elt F) ((c.tc : Thread nD τ).loc b))
    (G : (w : Fin cfg0.W) → Buf (Elt F) ((cfg0.win w).arr.view.loc (c.tc : Thread nD τ)))
    (hG : ∀ w, G w = V (Pipeline.arrRef spec0 w)) :
    (Pipeline.arrBufs spec0 c V : sProp 𝕄) ⊣⊢ dat.arrays G := by
  -- the second window's array is the first's
  have h1 : ((c.tc : Thread nD τ).loc (Pipeline.arrRef spec0 1) ↦{fullShare.right} V (Pipeline.arrRef spec0 1) : sProp 𝕄)
      = ((c.tc : Thread nD τ).loc (Pipeline.arrRef spec0 0) ↦{fullShare.right} V (Pipeline.arrRef spec0 0)) := rfl
  unfold Pipeline.arrBufs Pipeline.Dat.arrays
  -- left: the six distinct arrays one by one; right: the seven windows one by one
  rw [arrRef_image, bigSep_insert (by decide), bigSep_insert (by decide), bigSep_insert (by decide), bigSep_insert (by decide),
    bigSep_insert (by decide), bigSep_singleton]
  rw [show (bigSep Finset.univ fun w : Fin cfg0.W => ((cfg0.win w).arr.view.loc (c.tc : Thread nD τ) ↦[(cfg0.win w).arr.view.set]{dat.share w} G w : sProp 𝕄)) = _ from bigSep_W0 _]
  rw [arr_at c dat 0 fullShare.left ((share_in c dat 0 rfl).trans hq0) V G hG,
    arr_at c dat 1 fullShare.right ((share_in c dat 1 rfl).trans hq1) V G hG,
    arr_at c dat 2 fullShare ((share_in c dat 2 rfl).trans (hq 2 (by decide))) V G hG,
    arr_at c dat 3 fullShare ((share_in c dat 3 rfl).trans (hq 3 (by decide))) V G hG,
    arr_at c dat 4 fullShare ((share_in c dat 4 rfl).trans (hq 4 (by decide))) V G hG,
    arr_at c dat 5 fullShare ((share_in c dat 5 rfl).trans (hq 5 (by decide))) V G hG,
    arr_at c dat 6 fullShare (share_out c dat 6 rfl) V G hG, h1]
  -- the shared array's full share is its left and its right half
  have hs : ((c.tc : Thread nD τ).loc (Pipeline.arrRef spec0 0) ↦{fullShare} V (Pipeline.arrRef spec0 0) : sProp 𝕄)
      ⊣⊢ iprop(((c.tc : Thread nD τ).loc (Pipeline.arrRef spec0 0) ↦{fullShare.left} V (Pipeline.arrRef spec0 0))
        ∗ (c.tc : Thread nD τ).loc (Pipeline.arrRef spec0 0) ↦{fullShare.right} V (Pipeline.arrRef spec0 0)) :=
    pointsTo_share (PosShare.mem_left_op_right fullShare)
  rw [BI.equiv_iff.mp ⟨hs.1, hs.2⟩]
  exact ⟨BI.sep_assoc, BI.sep_assoc'⟩

/-- ENTRY: a core's unscoped buffers at `V` are the arrays at `V` and the unscoped rest -/
theorem arrays_of_unscopedBufs (c : Dev nD) (dat : Pipeline.Dat τ (Elt F) Unit ℕ (UR sig nD τ) ℕ cfg0 c)
    (hq0 : dat.q 0 = fullShare.left) (hq1 : dat.q 1 = fullShare.right) (hq : ∀ w : Fin 7, 2 ≤ w.val → dat.q w = fullShare)
    (V : (b : Ref sig .tc) → Buf (Elt F) ((c.tc : Thread nD τ).loc b))
    (G : (w : Fin cfg0.W) → Buf (Elt F) ((cfg0.win w).arr.view.loc (c.tc : Thread nD τ)))
    (hG : ∀ w, G w = V (Pipeline.arrRef spec0 w)) :
    (unscopedBufs c V : sProp 𝕄) ⊢ iprop(dat.arrays G ∗ Pipeline.unscopedRest spec0 c V) := by
  rw [Pipeline.unscopedBufs_split₀ (P := Fin 1) cfgs 0 winFacts₀0.arr_unscoped c V]
  exact sep_mono (arrays_iff_arrBufs c dat hq0 hq1 hq V G hG).1 .rfl

/-- EXIT: the arrays at `G` and the unscoped rest at `V` are the core's unscoped buffers at any `V'` that has the
    arrays at `G` and agrees with `V` off them -/
theorem unscopedBufs_of_arrays (c : Dev nD) (dat : Pipeline.Dat τ (Elt F) Unit ℕ (UR sig nD τ) ℕ cfg0 c)
    (hq0 : dat.q 0 = fullShare.left) (hq1 : dat.q 1 = fullShare.right) (hq : ∀ w : Fin 7, 2 ≤ w.val → dat.q w = fullShare)
    (V V' : (b : Ref sig .tc) → Buf (Elt F) ((c.tc : Thread nD τ).loc b))
    (G : (w : Fin cfg0.W) → Buf (Elt F) ((cfg0.win w).arr.view.loc (c.tc : Thread nD τ)))
    (hG : ∀ w, G w = V' (Pipeline.arrRef spec0 w))
    (hrest : ∀ b, b ∉ Finset.univ.image (Pipeline.arrRef spec0) → V' b = V b) :
    iprop(dat.arrays G ∗ Pipeline.unscopedRest spec0 c V) ⊢ (unscopedBufs c V' : sProp 𝕄) := by
  rw [Pipeline.unscopedBufs_split₀ (P := Fin 1) cfgs 0 winFacts₀0.arr_unscoped c V']
  refine sep_mono (arrays_iff_arrBufs c dat hq0 hq1 hq V' G hG).2 (Entails.of_eq ?_)
  unfold Pipeline.unscopedRest
  exact bigSep_congr fun b hb => by rw [hrest b (Finset.mem_sdiff.mp hb).2]

end Cert.KernelIdeal.Hand
-- ==== Proof.KI.Region.lean ====
import proofs.«401946_j23227183137529_1_alg».proof.Proof.KI.Frame
import proofs.«401946_j23227183137529_1_alg».proof.Proof.KI.Share

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: @main's segments from the launch to the return -/

/-- What the kernel leaves in the excitation array: the library's fold of the output window's write-backs. -/
abbrev Xout (c : Dev nD) : Buf (Elt F) ((c : Thread nD τ).loc main_v18) := (dats m ρ 0 c).arrAt 6 cfg0.N

/-- At the region's exit each of its arrays holds what the pipeline leaves: an input what it held at entry, the
    output the fold of its write-backs; -/
theorem hF (c : Dev nD) (w : Fin cfg0.W) : (dats m ρ 0 c).arrAt w cfg0.N = V5 m ρ (Xout m ρ) c (Pipeline.arrRef spec0 w) :=
  match w with
  | ⟨0, _⟩ => (((dats m ρ 0 c).arrAt_in 0 rfl _).trans (A_eq m ρ c 0)).trans (W5_of_ne m ρ (Xout m ρ) c main_arg0 (by decide)).symm
  | ⟨1, _⟩ => (((dats m ρ 0 c).arrAt_in 1 rfl _).trans (A_eq m ρ c 1)).trans (W5_of_ne m ρ (Xout m ρ) c main_arg0 (by decide)).symm
  | ⟨2, _⟩ => (((dats m ρ 0 c).arrAt_in 2 rfl _).trans (A_eq m ρ c 2)).trans (W5_of_ne m ρ (Xout m ρ) c main_v10 (by decide)).symm
  | ⟨3, _⟩ => (((dats m ρ 0 c).arrAt_in 3 rfl _).trans (A_eq m ρ c 3)).trans (W5_of_ne m ρ (Xout m ρ) c main_v17 (by decide)).symm
  | ⟨4, _⟩ => (((dats m ρ 0 c).arrAt_in 4 rfl _).trans (A_eq m ρ c 4)).trans (W5_of_ne m ρ (Xout m ρ) c main_arg1 (by decide)).symm
  | ⟨5, _⟩ => (((dats m ρ 0 c).arrAt_in 5 rfl _).trans (A_eq m ρ c 5)).trans (W5_of_ne m ρ (Xout m ρ) c main_arg2 (by decide)).symm
  | ⟨6, _⟩ => (W5_out m ρ (Xout m ρ) c).symm
/-- and every other buffer what it held at entry. -/
theorem hrest (c : Dev nD) : ∀ b, b ∉ Finset.univ.image (Pipeline.arrRef spec0) → V5 m ρ (Xout m ρ) c b = V4 m ρ c b :=
  fun b hb => W5_of_ne m ρ (Xout m ρ) c b fun e => hb (Finset.mem_image.mpr ⟨6, Finset.mem_univ _, e.symm⟩)

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dats m ρ 0 c
abbrev 𝒱₀ : Variants := Variants.none
abbrev L : GSem nD τ sig → Finset Unit := fun _ => ∅
abbrev lv : GSem nD τ sig → Unit → ℕ := fun _ _ => 0
/-- What rides beside the buffers through every segment: the generator register at some state and the core's
    `owes`, at nothing. -/
abbrev R (c : Dev nD) : sProp 𝕄 := iprop((∃ r, prngReg c r) ∗ ∃ W, owes (c : Thread nD τ) (0 : CellTallies nD τ sig Unit) W)
/-- A host stretch as a segment, over every unscoped buffer from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the `owes`. -/
abbrev Tₙ (c : Dev nD) : sProp 𝕄 := iprop(StableHlo.held (c : Thread nD τ) (Pipeline.ucRefs τ sig) (W6 m ρ (Xout m ρ) c) ∗ ∃ r, prngReg c r)

/-! ## The region as a segment -/

set_option backward.isDefEq.respectTransparency.types false in
/-- The kernel region over the thread state: entered from every unscoped buffer at the entry contents, left at the
    exit contents. Its arrays are split out of the unscoped buffers — the array of event times, which two windows
    read, as its two half shares — and put back at the exit contents; the generator register goes into the class
    invariant and out; nothing is owed; the kernel has no semaphore of its own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation m ρ c).loose
  hwaits := Pipeline.hwaits_of_owed_zero _ _ _ _ L lv 0 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ (Xout m ρ) c) ∗ R c)
  X c := iprop(∃ r, prngReg c r)
  Y c := iprop(∃ r, prngReg c r)
  Z c := Pipeline.unscopedRest (Ix := Unit) (Name := ℕ) (U := UR sig nD τ) (Lvl := ℕ) spec0 c (V4 m ρ c)
  hentry c := by
    rw [Pipeline.ownSems0_none]
    have hsplit := arrays_of_unscopedBufs (F := F) c (pdats m ρ 0 c) (q0 m ρ c) (q1 m ρ c) (qrest m ρ c) (V4 m ρ c) (pdats m ρ 0 c).A (A_eq m ρ c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    exact (show _ ⊢ Pipeline.ΦA spec0 c by
      unfold Pipeline.ΦA
      iintro ⟨Hp, -, Hr⟩
      isplitl [Hr]; · iexact Hr
      iexact Hp).trans (hin m ρ c)
  hout c := by
    rw [Pipeline.ownSems0_none]
    refine (hout m ρ c).trans ?_
    unfold Pipeline.ΦA
    iintro ⟨Hr, Hp⟩
    isplitl [Hp]; · iexact Hp
    isplitr; · iempintro
    iexact Hr
  hexit c := by
    have hjoin := unscopedBufs_of_arrays (F := F) c (pdats m ρ 0 c) (q0 m ρ c) (q1 m ρ c) (qrest m ρ c)
      (V4 m ρ c) (V5 m ρ (Xout m ρ) c) ((pdats m ρ 0 c).arrAt · cfg0.N) (hF m ρ c) (hrest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's six segments in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .region (reg0 m ρ),
    .host (hseg hostOps1 hostOps1_sub hostOps1_fresh (W5 m ρ (Xout m ρ))) ]
/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main on the TensorCore terminates,
    nothing faulting, and in every final state every unscoped buffer holds what the fold through @main says:
    the launch contents, each host stretch applied, the excitation array at what the kernel left. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W6 m ρ (Xout m ρ) c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (W6 m ρ (Xout m ρ) c) ∗ R c)
        ⊢ iprop(Tₙ m ρ c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ (Xout m ρ) c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ (Xout m ρ) c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨
      (h c _ (mem_uc main_arg0 (by decide))).trans (W6_main_arg0 m ρ (Xout m ρ) c),
      (h c _ (mem_uc main_arg1 (by decide))).trans (W6_main_arg1 m ρ (Xout m ρ) c),
      (h c _ (mem_uc main_arg2 (by decide))).trans (W6_main_arg2 m ρ (Xout m ρ) c),
      (h c _ (mem_uc main_arg3 (by decide))).trans (W6_main_arg3 m ρ (Xout m ρ) c),
      (h c _ (mem_uc main_arg4 (by decide))).trans (W6_main_arg4 m ρ (Xout m ρ) c),
      (h c _ (mem_uc main_arg5 (by decide))).trans (W6_main_arg5 m ρ (Xout m ρ) c)⟩) (run_main m ρ)

end Cert.KernelIdeal.Hand

end
-- ==== Proof.KI.Pieces.lean ====
import proofs.«401946_j23227183137529_1_alg».proof.Proof.KI.Frame
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # What each case's stores leave, as the body's arithmetic

The pieces a run leaves in the accumulator (and, at a last key tile, in the output block's buffer) read back as
the payload of the body's one arithmetic store: the key tile's part added to what the accumulator held — the cleared
accumulator at a first key tile. -/

/-- At a first key tile the accumulator ends at the tile's part added to the cleared accumulator. -/
theorem accA_eq (c : Dev nD) (i : grid0.Coords) (arg2 : Memref sig .tc .vmem S1024 .f32) (harg2 : arg2.IsWhole) (arg3 : Memref sig .tc .vmem S1024 .f32) (harg3 : arg3.IsWhole) (arg4 : Memref sig .tc .vmem S1024x50 .f32) (harg4 : arg4.IsWhole) (arg5 : Memref sig .tc .vmem S1024x100 .f32) (harg5 : arg5.IsWhole) (arg6 : Memref sig .tc .vmem S1024 .i32) (harg6 : arg6.IsWhole) (arg7 : Memref sig .tc .vmem S1024 .i32) (harg7 : arg7.IsWhole) (arg8 : Memref sig .tc .vmem S1024 .f32) (harg8 : arg8.IsWhole) (arg9 : Memref sig .tc .vmem S1024 .f32) (harg9 : arg9.IsWhole) (hc0 : isFirst i) (hc1 : ¬isLast i) (x0 : Vec F S1024 .f32) (x1 : Vec F S1024 .f32) (x2 : Vec F S1024x50 .f32) (x3 : Vec F S1024x100 .f32) (x4 : Vec F S1024 .i32) (x5 : Vec F S1024 .i32) :
    accA c i arg2 harg2 arg3 harg3 arg4 harg4 arg5 harg5 arg6 harg6 arg7 harg7 arg8 harg8 arg9 harg9 hc0 hc1 x0 x1 x2 x3 x4 x5 = k0_pay1 (k0_pay3 i x0 x1) (k0_pay4 x4 x2) (iota .tc S1024x100 32 [1] iota_S1024x100_d1_w32) (k0_pay5 x5) x3 (k0_pay2 (F := F)) := by
  have hz1 : (![0] : Fin 1 → Nat) = fun _ => 0 := funext fun a => by fin_cases a <;> rfl
  have hz2 : (![0, 0] : Fin 2 → Nat) = fun _ => 0 := funext fun a => by fin_cases a <;> rfl
  unfold accA; rw [View.read_writes_eq_canon _ _ _ (coverA c i arg2 harg2 arg3 harg3 arg4 harg4 arg5 harg5 arg6 harg6 arg7 harg7 arg8 harg8 arg9 harg9 hc0 hc1 x0 x1 x2 x3 x4 x5)]; unfold runA; dsimp only; sl_unfold_words
  -- of the two whole stores the later one covers; the load between them reads what the clearing store left
  rw [View.canon_cons_unit_zero (S := S1024) hz1, View.readCov_unit_zero (S := S1024) _ hz1]
  simp only [View.readAt_eq_ld, harg2.read_unread, harg3.read_unread, harg4.read_unread, harg5.read_unread, harg6.read_unread, harg7.read_unread,
    View.ld_unit_zero (S := S1024) hz1, View.ld_unit_zero (S := S1024x50) hz2, View.ld_unit_zero (S := S1024x100) hz2]

/-- At a middle key tile it ends at the tile's part added to what it held. -/
theorem accB_eq (c : Dev nD) (i : grid0.Coords) (arg2 : Memref sig .tc .vmem S1024 .f32) (harg2 : arg2.IsWhole) (arg3 : Memref sig .tc .vmem S1024 .f32) (harg3 : arg3.IsWhole) (arg4 : Memref sig .tc .vmem S1024x50 .f32) (harg4 : arg4.IsWhole) (arg5 : Memref sig .tc .vmem S1024x100 .f32) (harg5 : arg5.IsWhole) (arg6 : Memref sig .tc .vmem S1024 .i32) (harg6 : arg6.IsWhole) (arg7 : Memref sig .tc .vmem S1024 .i32) (harg7 : arg7.IsWhole) (arg8 : Memref sig .tc .vmem S1024 .f32) (harg8 : arg8.IsWhole) (arg9 : Memref sig .tc .vmem S1024 .f32) (harg9 : arg9.IsWhole) (hc0 : ¬isFirst i) (hc1 : ¬isLast i) (x0 : Vec F S1024 .f32) (x1 : Vec F S1024 .f32) (x2 : Vec F S1024x50 .f32) (x3 : Vec F S1024x100 .f32) (x4 : Vec F S1024 .i32) (x5 : Vec F S1024 .i32) (xs : Vec F S1024 .f32) :
    accB c i arg2 harg2 arg3 harg3 arg4 harg4 arg5 harg5 arg6 harg6 arg7 harg7 arg8 harg8 arg9 harg9 hc0 hc1 x0 x1 x2 x3 x4 x5 xs = k0_pay1 (k0_pay3 i x0 x1) (k0_pay4 x4 x2) (iota .tc S1024x100 32 [1] iota_S1024x100_d1_w32) (k0_pay5 x5) x3 xs := by
  have hz1 : (![0] : Fin 1 → Nat) = fun _ => 0 := funext fun a => by fin_cases a <;> rfl
  have hz2 : (![0, 0] : Fin 2 → Nat) = fun _ => 0 := funext fun a => by fin_cases a <;> rfl
  unfold accB; rw [View.read_writes_eq_canon _ _ _ (coverB c i arg2 harg2 arg3 harg3 arg4 harg4 arg5 harg5 arg6 harg6 arg7 harg7 arg8 harg8 arg9 harg9 hc0 hc1 x0 x1 x2 x3 x4 x5 xs)]; unfold runB; dsimp only; sl_unfold_words
  -- one whole store, whose payload loads the accumulator's contents and the six input blocks whole
  rw [View.canon_unit_zero (S := S1024) hz1]
  simp only [View.readAt_eq_ld, harg2.read_unread, harg3.read_unread, harg4.read_unread, harg5.read_unread, harg6.read_unread, harg7.read_unread, harg9.read_unread,
    View.ld_unit_zero (S := S1024) hz1, View.ld_unit_zero (S := S1024x50) hz2, View.ld_unit_zero (S := S1024x100) hz2]

/-- At a last key tile likewise, -/
theorem accC_eq (c : Dev nD) (i : grid0.Coords) (arg2 : Memref sig .tc .vmem S1024 .f32) (harg2 : arg2.IsWhole) (arg3 : Memref sig .tc .vmem S1024 .f32) (harg3 : arg3.IsWhole) (arg4 : Memref sig .tc .vmem S1024x50 .f32) (harg4 : arg4.IsWhole) (arg5 : Memref sig .tc .vmem S1024x100 .f32) (harg5 : arg5.IsWhole) (arg6 : Memref sig .tc .vmem S1024 .i32) (harg6 : arg6.IsWhole) (arg7 : Memref sig .tc .vmem S1024 .i32) (harg7 : arg7.IsWhole) (arg8 : Memref sig .tc .vmem S1024 .f32) (harg8 : arg8.IsWhole) (arg9 : Memref sig .tc .vmem S1024 .f32) (harg9 : arg9.IsWhole) (hc0 : ¬isFirst i) (hc1 : isLast i) (x0 : Vec F S1024 .f32) (x1 : Vec F S1024 .f32) (x2 : Vec F S1024x50 .f32) (x3 : Vec F S1024x100 .f32) (x4 : Vec F S1024 .i32) (x5 : Vec F S1024 .i32) (xs : Vec F S1024 .f32) :
    accC c i arg2 harg2 arg3 harg3 arg4 harg4 arg5 harg5 arg6 harg6 arg7 harg7 arg8 harg8 arg9 harg9 hc0 hc1 x0 x1 x2 x3 x4 x5 xs = k0_pay1 (k0_pay3 i x0 x1) (k0_pay4 x4 x2) (iota .tc S1024x100 32 [1] iota_S1024x100_d1_w32) (k0_pay5 x5) x3 xs := by
  have hz1 : (![0] : Fin 1 → Nat) = fun _ => 0 := funext fun a => by fin_cases a <;> rfl
  have hz2 : (![0, 0] : Fin 2 → Nat) = fun _ => 0 := funext fun a => by fin_cases a <;> rfl
  unfold accC; rw [View.read_writes_eq_canon _ _ _ (coverC c i arg2 harg2 arg3 harg3 arg4 harg4 arg5 harg5 arg6 harg6 arg7 harg7 arg8 harg8 arg9 harg9 hc0 hc1 x0 x1 x2 x3 x4 x5 xs)]; unfold runC; dsimp only; sl_unfold_words
  rw [View.canon_unit_zero (S := S1024) hz1]
  simp only [View.readAt_eq_ld, harg2.read_unread, harg3.read_unread, harg4.read_unread, harg5.read_unread, harg6.read_unread, harg7.read_unread, harg9.read_unread,
    View.ld_unit_zero (S := S1024) hz1, View.ld_unit_zero (S := S1024x50) hz2, View.ld_unit_zero (S := S1024x100) hz2]

/-- and the output block's buffer ends at a copy of it. -/
theorem outC_eq (c : Dev nD) (i : grid0.Coords) (arg2 : Memref sig .tc .vmem S1024 .f32) (harg2 : arg2.IsWhole) (arg3 : Memref sig .tc .vmem S1024 .f32) (harg3 : arg3.IsWhole) (arg4 : Memref sig .tc .vmem S1024x50 .f32) (harg4 : arg4.IsWhole) (arg5 : Memref sig .tc .vmem S1024x100 .f32) (harg5 : arg5.IsWhole) (arg6 : Memref sig .tc .vmem S1024 .i32) (harg6 : arg6.IsWhole) (arg7 : Memref sig .tc .vmem S1024 .i32) (harg7 : arg7.IsWhole) (arg8 : Memref sig .tc .vmem S1024 .f32) (harg8 : arg8.IsWhole) (arg9 : Memref sig .tc .vmem S1024 .f32) (harg9 : arg9.IsWhole) (hc0 : ¬isFirst i) (hc1 : isLast i) (x0 : Vec F S1024 .f32) (x1 : Vec F S1024 .f32) (x2 : Vec F S1024x50 .f32) (x3 : Vec F S1024x100 .f32) (x4 : Vec F S1024 .i32) (x5 : Vec F S1024 .i32) (xs : Vec F S1024 .f32) :
    outC c i arg2 harg2 arg3 harg3 arg4 harg4 arg5 harg5 arg6 harg6 arg7 harg7 arg8 harg8 arg9 harg9 hc0 hc1 x0 x1 x2 x3 x4 x5 xs = k0_pay1 (k0_pay3 i x0 x1) (k0_pay4 x4 x2) (iota .tc S1024x100 32 [1] iota_S1024x100_d1_w32) (k0_pay5 x5) x3 xs := by
  have hz1 : (![0] : Fin 1 → Nat) = fun _ => 0 := funext fun a => by fin_cases a <;> rfl
  have hz2 : (![0, 0] : Fin 2 → Nat) = fun _ => 0 := funext fun a => by fin_cases a <;> rfl
  unfold outC; rw [View.read_writes_eq_canon _ _ _ (coverOutC c i arg2 harg2 arg3 harg3 arg4 harg4 arg5 harg5 arg6 harg6 arg7 harg7 arg8 harg8 arg9 harg9 hc0 hc1 x0 x1 x2 x3 x4 x5 xs)]; unfold runC; dsimp only; sl_unfold_words
  -- its one whole store's payload is a whole load of the accumulator after the arithmetic store: that store's payload
  rw [View.canon_unit_zero (S := S1024) hz1, View.readCov_unit_zero (S := S1024) _ hz1]
  simp only [View.readAt_eq_ld, harg2.read_unread, harg3.read_unread, harg4.read_unread, harg5.read_unread, harg6.read_unread, harg7.read_unread, harg9.read_unread,
    View.ld_unit_zero (S := S1024) hz1, View.ld_unit_zero (S := S1024x50) hz2, View.ld_unit_zero (S := S1024x100) hz2]

end Cert.KernelIdeal.Hand

end
-- ==== Proof.Spec.lean ====
import Idealize.ShloMosaic.PureOps.Ideal
import Idealize.ShloMosaic.PureOps.Ideal.Laws
import Idealize.ShloMosaic.Lib.ValueIdx

noncomputable section

/-! # The excitation of a Hawkes process with exponential decay, as one function of the data

Events `0 … 8191` happen at times `t`, each with a type `e j` (one of 50) and a device `d j` (one of 100).
Event `j` excites a later event `i` by the product of the device coupling `ad (d i) (d j)`, the type coupling
`al (e j) (e i)` and the decay `exp (-(t i - t j))`; events that are not strictly earlier contribute the
zero word. The excitation of event `i` is the sum of these terms over all `j`.

Everything is an extended real. The two float literals the programs share are kept as the words they are. -/

namespace Cert.Spec

open Idealize.ShloMosaic

/-- The word of the float literal `-1`. -/
abbrev negOneW : EReal := Ideal.ofBits .f32 0xBF800000#32
/-- The word of the float literal `0`. -/
abbrev zeroW : EReal := Ideal.ofBits .f32 0x00000000#32

theorem zeroW_eq : zeroW = 0 := Ideal.ofBits_zero_f32

/-- The causal decay: `exp (-1 · (t i - t j))` for a strictly earlier `j`, the zero word otherwise — both
    selects of the source written out (the inner one guards the difference, the outer one the exponential). -/
def decay (t : Fin 8192 → EReal) (i j : Fin 8192) : EReal :=
  if j.val < i.val then Ideal.exp (negOneW * (t i - t j)) else zeroW

/-- What event `j` adds to the excitation of event `i`. -/
def term (t : Fin 8192 → EReal) (al : Fin 50 → Fin 50 → EReal) (ad : Fin 100 → Fin 100 → EReal)
    (e : Fin 8192 → Fin 50) (d : Fin 8192 → Fin 100) (i j : Fin 8192) : EReal :=
  (ad (d i) (d j) * al (e j) (e i)) * decay t i j

/-- The excitation of event `i`. -/
def excite (t : Fin 8192 → EReal) (al : Fin 50 → Fin 50 → EReal) (ad : Fin 100 → Fin 100 → EReal)
    (e : Fin 8192 → Fin 50) (d : Fin 8192 → Fin 100) (i : Fin 8192) : EReal :=
  ∑ j : Fin 8192, term t al ad e d i j

/-- Event number `1024 · k + q`: element `q` of tile `k` of 8 tiles of 1024. -/
def tileIdx (k : Fin 8) (q : Fin 1024) : Fin 8192 := ⟨1024 * k.val + q.val, by omega⟩

/-- The part of the excitation of event `i` that comes from the events of key tile `k`. -/
def tilePart (t : Fin 8192 → EReal) (al : Fin 50 → Fin 50 → EReal) (ad : Fin 100 → Fin 100 → EReal)
    (e : Fin 8192 → Fin 50) (d : Fin 8192 → Fin 100) (i : Fin 8192) (k : Fin 8) : EReal :=
  ∑ q : Fin 1024, term t al ad e d i (tileIdx k q)

/-- Eight tiles of 1024 are the 8192 events, each once. -/
def tileEquiv : Fin 8 × Fin 1024 ≃ Fin 8192 where
  toFun p := tileIdx p.1 p.2
  invFun j := (⟨j.val / 1024, by omega⟩, ⟨j.val % 1024, Nat.mod_lt _ (by decide)⟩)
  left_inv p := by
    obtain ⟨k, q⟩ := p
    ext
    · show (1024 * k.val + q.val) / 1024 = k.val; omega
    · show (1024 * k.val + q.val) % 1024 = q.val; omega
  right_inv j := by
    ext; show 1024 * (j.val / 1024) + j.val % 1024 = j.val; omega

/-- The excitation is the sum of its eight tile parts. -/
theorem excite_eq_sum_tiles (t : Fin 8192 → EReal) (al : Fin 50 → Fin 50 → EReal) (ad : Fin 100 → Fin 100 → EReal)
    (e : Fin 8192 → Fin 50) (d : Fin 8192 → Fin 100) (i : Fin 8192) :
    excite t al ad e d i = ∑ k : Fin 8, tilePart t al ad e d i k := by
  unfold excite tilePart
  rw [← Finset.sum_product', Finset.univ_product_univ]
  exact (Equiv.sum_comp tileEquiv (fun j => term t al ad e d i j)).symm

/-- The accumulator after the key tiles `0 … n - 1`: cleared to the zero word at the first, then each tile's part,
    itself a sum started from the zero word, added to what is there. -/
def accAfter (t : Fin 8192 → EReal) (al : Fin 50 → Fin 50 → EReal) (ad : Fin 100 → Fin 100 → EReal)
    (e : Fin 8192 → Fin 50) (d : Fin 8192 → Fin 100) (i : Fin 8192) : (n : ℕ) → n ≤ 8 → EReal
  | 0, _ => zeroW
  | n + 1, h => accAfter t al ad e d i n (Nat.le_of_succ_le h) + (zeroW + tilePart t al ad e d i ⟨n, h⟩)

/-- Cleared, then the parts added one after the other, the accumulator holds the sum of the parts so far. -/
theorem accAfter_eq (t : Fin 8192 → EReal) (al : Fin 50 → Fin 50 → EReal) (ad : Fin 100 → Fin 100 → EReal)
    (e : Fin 8192 → Fin 50) (d : Fin 8192 → Fin 100) (i : Fin 8192) :
    ∀ (n : ℕ) (h : n ≤ 8), accAfter t al ad e d i n h = ∑ k : Fin n, tilePart t al ad e d i ⟨k.val, by omega⟩
  | 0, _ => by simp [accAfter, zeroW_eq]
  | n + 1, h => by
    rw [accAfter, accAfter_eq t al ad e d i n (Nat.le_of_succ_le h), zeroW_eq, zero_add, Fin.sum_univ_castSucc]
    rfl

/-- After all eight key tiles the accumulator holds the excitation. -/
theorem accAfter_eight (t : Fin 8192 → EReal) (al : Fin 50 → Fin 50 → EReal) (ad : Fin 100 → Fin 100 → EReal)
    (e : Fin 8192 → Fin 50) (d : Fin 8192 → Fin 100) (i : Fin 8192) :
    accAfter t al ad e d i 8 (Nat.le_refl 8) = excite t al ad e d i := by
  rw [accAfter_eq, excite_eq_sum_tiles]

end Cert.Spec

end
-- ==== Proof.LibLayoutColumn.lean ====
/-
  Layout operations on a column, read at an index: the forms a "sum the rows, keep the axis" computation meets.

  A vector of length `a` viewed as an `[a, 1]` column, a column broadcast across `b` lanes, a column placed under a
  leading unit axis, an array with two leading unit axes flattened, and the all-unit shapes a reduction to one element
  passes through.  Each reads the operand at the index with the same row-major position (a cast) or at the index with
  the unit axes at zero (a broadcast).  Last, a sum over the indices of a `[1, a, 1]` array is the sum over its one
  free coordinate.  Every statement holds at any extents.
-/
import Idealize.ShloMosaic.Lib.ValueIdx
import Idealize.ShloMosaic.Lib.Pipeline.Value

noncomputable section

open scoped BigOperators

namespace Idealize.ShloMosaic.ValueIdx

open Idealize.ShloMosaic

variable {α : Type}

/-- A `[1, 1, a]` array cast to `[a]` reads, at `i`, the operand at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-- An `[a]` array cast to an `[a, 1]` column reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to `[1, a, 1]` reads, at `(u, p, w)`, the operand at `(p, 0)`. -/
theorem shapeCast_a1_1a1_apply {a : ℕ} (x : (⟨2, ![a, 1]⟩ : Shape).Idx → α)
    (h : (⟨2, ![a, 1]⟩ : Shape).ShapeCasts ⟨3, ![1, a, 1]⟩) (u : Fin 1) (p : Fin a) (w : Fin 1) :
    shapeCast ⟨3, ![1, a, 1]⟩ x h (ix3 u p w) = x (ix2 p (0 : Fin 1)) :=
  shapeCast_apply x h _ _ (by
    have hu : u.val = 0 := by omega
    have hw : w.val = 0 := by omega
    rw [Shape.rowMajor_val_three, Shape.rowMajor_val_two]
    show p.val * 1 + 0 = (u.val * a + p.val) * 1 + w.val
    rw [hu, hw, Nat.zero_mul, Nat.zero_add])

/-- A one-element array cast to `[1, 1, 1]` reads its one element. -/
theorem shapeCast_1_111_apply (x : (⟨1, ![1]⟩ : Shape).Idx → α)
    (h : (⟨1, ![1]⟩ : Shape).ShapeCasts ⟨3, ![1, 1, 1]⟩) (u v w : Fin 1) :
    shapeCast ⟨3, ![1, 1, 1]⟩ x h (ix3 u v w) = x (ix1 (0 : Fin 1)) :=
  shapeCast_apply x h _ _ (by
    have hu : u.val = 0 := by omega
    have hv : v.val = 0 := by omega
    have hw : w.val = 0 := by omega
    rw [Shape.rowMajor_val_three, Shape.rowMajor_val_one]
    show 0 = (u.val * 1 + v.val) * 1 + w.val
    rw [hu, hv, hw])

/-- A `[1, 1]` array cast to `[1, 1, 1]` reads its one element. -/
theorem shapeCast_11_111_apply (x : (⟨2, ![1, 1]⟩ : Shape).Idx → α)
    (h : (⟨2, ![1, 1]⟩ : Shape).ShapeCasts ⟨3, ![1, 1, 1]⟩) (u v w : Fin 1) :
    shapeCast ⟨3, ![1, 1, 1]⟩ x h (ix3 u v w) = x (ix2 (0 : Fin 1) (0 : Fin 1)) :=
  shapeCast_apply x h _ _ (by
    have hu : u.val = 0 := by omega
    have hv : v.val = 0 := by omega
    have hw : w.val = 0 := by omega
    rw [Shape.rowMajor_val_three, Shape.rowMajor_val_two]
    show 0 * 1 + 0 = (u.val * 1 + v.val) * 1 + w.val
    rw [hu, hv, hw])

/-- An `[a, 1]` column broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, 1]` array broadcast to `[1, 1, b]` reads its one element in every lane. -/
theorem broadcastTo_111_11b_apply {b : ℕ} (v : (⟨3, ![1, 1, 1]⟩ : Shape).Idx → α)
    (h : (⟨3, ![1, 1, 1]⟩ : Shape).Broadcasts ⟨3, ![1, 1, b]⟩) (u w : Fin 1) (l : Fin b) :
    broadcastTo ⟨3, ![1, 1, b]⟩ v h (ix3 u w l) = v (ix3 (0 : Fin 1) (0 : Fin 1) (0 : Fin 1)) := by
  refine broadcastTo_apply v h (ix3 u w l) (ix3 (0 : Fin 1) (0 : Fin 1) (0 : Fin 1)) fun ax => ?_
  match ax with
  | ⟨0, _⟩ => rfl
  | ⟨1, _⟩ => rfl
  | ⟨2, _⟩ => rfl

/-- The indices of a `[1, a, 1]` array are its one free coordinate … -/
def idxEquiv1a1 {a : ℕ} : (⟨3, ![1, a, 1]⟩ : Shape).Idx ≃ Fin a where
  toFun i := i 1
  invFun p := ix3 (0 : Fin 1) p (0 : Fin 1)
  left_inv i := by
    funext ax
    match ax with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)
  right_inv _ := rfl

/-- … so a sum over them is the sum over that coordinate. -/
theorem sum_idx_1a1 {M : Type*} [AddCommMonoid M] {a : ℕ} (f : (⟨3, ![1, a, 1]⟩ : Shape).Idx → M) :
    ∑ i, f i = ∑ p : Fin a, f (ix3 (0 : Fin 1) p (0 : Fin 1)) := by
  rw [← Equiv.sum_comp (idxEquiv1a1 (a := a)).symm f]
  rfl

end Idealize.ShloMosaic.ValueIdx

end
-- ==== Proof.KI.Tile.lean ====
/-
  One grid step of the excitation kernel, read at a position of its query tile.

  The step works on a query tile (1024 events i = 1024·qi + p) against a key tile (1024 events j = 1024·kj + q). From the
  blocks it loads it builds the causal mask (event i strictly later than event j, a signed comparison of two words that
  stay below 8192), the decay factor under that mask, and two one-hot matrices — one of the key events' types, one of
  their devices. A product of a row with a one-hot column picks one entry of the row (x · 0 = 0 and x · 1 = x for every
  extended real), so the two matrix products into zero accumulators read the gathered couplings at the key event's type
  and device. The products of the two couplings and the decay, summed over the key tile from the zero word, are added
  to the accumulator: the zero word plus the key tile's part of the excitation, as the specification writes it.
-/
import proofs.«401946_j23227183137529_1_alg».proof.Proof.Gen.KernelIdeal.Skeleton
import proofs.«401946_j23227183137529_1_alg».proof.Proof.Spec
import proofs.«401946_j23227183137529_1_alg».proof.Proof.LibLayoutColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx

/-! ## A plain matrix product into the zero accumulator, read at an index -/

section MM
variable {m k n : ℕ}

/-- The dimension numbers of a plain product: rows by contraction, contraction by columns. -/
abbrev mmDims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

variable (w : DotDims.WF ⟨2, ![m, k]⟩ ⟨2, ![k, n]⟩ ⟨2, ![m, n]⟩ [1] [0] [0] [1] [] [])

/-- One axis is contracted. -/
theorem mm_rank : 0 < (mmDims w).contr.rank := by rw [DotDims.rank_contr]; exact Nat.one_pos

/-- The left operand is read on the result's row … -/
theorem mm_lhs_0 (i : (⟨2, ![m, n]⟩ : Shape).Idx) (q : (mmDims w).contr.Idx) :
    ((mmDims w).lhsIdx i q 0).val = (i 0).val := by
  unfold DotDims.lhsIdx
  rw [dif_neg (show ¬(0 : Fin 2) ∈ (mmDims w).lhsBatch from List.not_mem_nil),
    dif_pos (show (0 : Fin 2) ∈ (mmDims w).lhsNonContracting from List.mem_singleton.mpr rfl)]
  rfl

/-- … and at the contraction position along its columns; -/
theorem mm_lhs_1 (i : (⟨2, ![m, n]⟩ : Shape).Idx) (q : (mmDims w).contr.Idx) :
    ((mmDims w).lhsIdx i q 1).val = (q ⟨0, mm_rank w⟩).val :=
  (mmDims w).lhsIdx_val_of_single rfl i q

/-- the right operand at the contraction position along its rows … -/
theorem mm_rhs_0 (i : (⟨2, ![m, n]⟩ : Shape).Idx) (q : (mmDims w).contr.Idx) :
    ((mmDims w).rhsIdx i q 0).val = (q ⟨0, mm_rank w⟩).val :=
  (mmDims w).rhsIdx_val_of_single rfl i q

/-- … and on the result's column. -/
theorem mm_rhs_1 (i : (⟨2, ![m, n]⟩ : Shape).Idx) (q : (mmDims w).contr.Idx) :
    ((mmDims w).rhsIdx i q 1).val = (i 1).val := by
  unfold DotDims.rhsIdx
  rw [dif_neg (show ¬(1 : Fin 2) ∈ (mmDims w).rhsBatch from List.not_mem_nil),
    dif_pos (show (1 : Fin 2) ∈ (mmDims w).rhsNonContracting from List.mem_singleton.mpr rfl)]
  rfl

/-- So the product into the zero accumulator, read at (a, b), is the sum over the contracted coordinate of the
    products of the entries of row a and column b. -/
theorem matmul_zero_ix2 {φ₁ φ₂ : FTy} (prec : Option ContractPrecision)
    (A : FVec Ideal ⟨2, ![m, k]⟩ φ₁) (B : FVec Ideal ⟨2, ![k, n]⟩ φ₂) (a : Fin m) (b : Fin n) :
    matmul (mmDims w) prec A B (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply, ← Equiv.sum_comp (contrEquiv1 (mmDims w) k rfl rfl).symm]
  refine Finset.sum_congr rfl fun c _ => ?_
  have hc := contrEquiv1_symm_val (mmDims w) k rfl rfl c
  have el : (mmDims w).lhsIdx (ix2 a b) ((contrEquiv1 (mmDims w) k rfl rfl).symm c) = ix2 a c := funext fun ax => Fin.ext (by
    match ax with
    | ⟨0, _⟩ => exact mm_lhs_0 w _ _
    | ⟨1, _⟩ => exact (mm_lhs_1 w _ _).trans hc)
  have er : (mmDims w).rhsIdx (ix2 a b) ((contrEquiv1 (mmDims w) k rfl rfl).symm c) = ix2 c b := funext fun ax => Fin.ext (by
    match ax with
    | ⟨0, _⟩ => exact (mm_rhs_0 w _ _).trans hc
    | ⟨1, _⟩ => exact mm_rhs_1 w _ _)
  rw [el, er]

end MM

/-! ## One-hot rows -/

/-- The entry of a one-hot row as an extended real: the comparison bit, widened and converted, is 1 where the two
    words are equal and 0 where they are not. -/
theorem hot_entry (w v : BitVec 32) :
    FloatOps.sitofp (F := Ideal) .f32 ((IntOp.cmpi .eq w v).setWidth 32) = if w = v then (1 : EReal) else 0 := by
  show (((((IntOp.cmpi .eq w v).setWidth 32).toInt : ℤ) : ℝ) : EReal) = _
  by_cases h : w = v
  · have e : IntOp.cmpi .eq w v = 1#1 := by
      show BitVec.ofBool (w == v) = 1#1
      rw [beq_iff_eq.mpr h]; rfl
    rw [if_pos h, e]
    have : ((1#1 : BitVec 1).setWidth 32).toInt = 1 := by decide
    rw [this]; norm_num
  · have e : IntOp.cmpi .eq w v = 0#1 := by
      show BitVec.ofBool (w == v) = 0#1
      rw [beq_eq_false_iff_ne.mpr h]; rfl
    rw [if_neg h, e]
    have : ((0#1 : BitVec 1).setWidth 32).toInt = 0 := by decide
    rw [this]; norm_num

/-- Two words of naturals below 2 ^ 32 are equal only if the naturals are. -/
theorem ofNat32_inj {a b : ℕ} (ha : a < 2 ^ 32) (hb : b < 2 ^ 32) (h : BitVec.ofNat 32 a = BitVec.ofNat 32 b) : a = b := by
  have := congrArg BitVec.toNat h
  rw [BitVec.toNat_ofNat, BitVec.toNat_ofNat] at this
  omega

/-- A row against a one-hot column picks one entry of the row: the other products are products with 0, which are 0 for
    every extended real. -/
theorem pick_sum {K : ℕ} (hK : K ≤ 2 ^ 32) (f : Fin K → EReal) (w : BitVec 32) (k₀ : Fin K) (hw : w = BitVec.ofNat 32 k₀.val) :
    ∑ k : Fin K, f k * (if w = BitVec.ofNat 32 k.val then (1 : EReal) else 0) = f k₀ := by
  rw [Finset.sum_eq_single k₀]
  · rw [if_pos hw, mul_one]
  · intro k _ hk
    have : ¬ w = BitVec.ofNat 32 k.val := fun h =>
      hk (Fin.ext (ofNat32_inj (by have := k.isLt; omega) (by have := k₀.isLt; omega) (h.symm.trans hw)))
    rw [if_neg this, mul_zero]
  · intro h; exact absurd (Finset.mem_univ _) h

section HotMatrix
variable {N : ℕ}

/-- The transposed one-hot matrix of a vector of words against the column numbers, read at (column, position): 1 where
    the word at the position is the column's number. -/
theorem hot_at (y : IVec ⟨1, ![1024]⟩ 32)
    (h1 : (⟨1, ![1024]⟩ : Shape).ShapeCasts ⟨2, ![1024, 1]⟩) (h2 : (⟨2, ![1024, 1]⟩ : Shape).Broadcasts ⟨2, ![1024, N]⟩)
    (h3 : (⟨2, ![1024, N]⟩ : Shape).Iotas .tc 32 [1]) (h4 : 1 < 32) (h5 : FTy.bits .bf16 < FTy.bits .f32)
    (h6 : (⟨2, ![1024, N]⟩ : Shape).Transposes [1, 0] ⟨2, ![N, 1024]⟩) (c : Fin N) (q : Fin 1024) :
    transpose ⟨2, ![N, 1024]⟩ [1, 0]
        (truncf .bf16 (sitofp (F := Ideal) .f32 (extui 32 (cmpi .eq (broadcastTo ⟨2, ![1024, N]⟩ (shapeCast ⟨2, ![1024, 1]⟩ y h1) h2)
          (iota .tc ⟨2, ![1024, N]⟩ 32 [1] h3)) h4)) h5) h6 (ix2 c q)
      = if y (ix1 q) = BitVec.ofNat 32 c.val then (1 : EReal) else 0 := by
  rw [transpose_ix2_apply]
  show FloatOps.sitofp (F := Ideal) .f32 ((IntOp.cmpi .eq (broadcastTo _ _ h2 (ix2 q c)) (iota .tc _ 32 [1] h3 (ix2 q c))).setWidth 32) = _
  rw [hot_entry, broadcastTo_a1_ab_apply, shapeCast_a_a1_apply, iota_single_apply]
  rfl

end HotMatrix

/-- The type coupling gathered by the first one-hot product: the row of the query event at the type of the key event. -/
theorem pay4_at (x4 : Vec Ideal S1024 .i32) (x2 : Vec Ideal S1024x50 .f32) (p q : Fin 1024) (k₀ : Fin 50)
    (hw : x4 (ix1 q) = BitVec.ofNat 32 k₀.val) :
    k0_pay4 (F := Ideal) x4 x2 (ix2 p q) = x2 (ix2 p k₀) := by
  unfold k0_pay4
  refine (matmul_zero_ix2 (m := 1024) (k := 50) (n := 1024) dot_S1024x50_S50x1024_S1024x1024_1_0_0_1_n_n_wf none _ _ p q).trans ?_
  refine Eq.trans (Finset.sum_congr rfl fun c _ => ?_) (pick_sum (by norm_num) (fun c => x2 (ix2 p c)) (x4 (ix1 q)) k₀ hw)
  rw [hot_at]
  show shapeCast S1024x50 x2 shapeCasts_S1024x50_S1024x50 (ix2 p c) * _ = _
  rw [shapeCast_self]

/-! ## The causal mask and the decay -/

/-- The word `1024 · a + b` built from a tile number and a position inside the tile, read as a signed integer:
    the numbers stay below 8192, so nothing wraps. -/
theorem tileWord_toInt (a b : ℕ) (ha : a < 8) (hb : b < 1024) :
    (IntOp.addi (Scalar.muli (BitVec.ofNat 32 a) 1024#32) (BitVec.ofNat 32 b)).toInt = ((1024 * a + b : ℕ) : ℤ) := by
  have e : IntOp.addi (Scalar.muli (BitVec.ofNat 32 a) 1024#32) (BitVec.ofNat 32 b) = BitVec.ofNat 32 (1024 * a + b) := by
    unfold IntOp.addi Scalar.muli IntOp.muli
    apply BitVec.eq_of_toNat_eq
    simp only [BitVec.toNat_add, BitVec.toNat_mul, BitVec.toNat_ofNat]
    omega
  rw [e, BitVec.toInt_eq_toNat_of_lt (by rw [BitVec.toNat_ofNat]; omega), BitVec.toNat_ofNat]
  congr 1
  omega

/-- The causal mask's bit: the signed comparison of the two event numbers. -/
theorem mask_bit (a b c d : ℕ) (ha : a < 8) (hb : b < 1024) (hc : c < 8) (hd : d < 1024) :
    IntOp.cmpi .sgt (IntOp.addi (Scalar.muli (BitVec.ofNat 32 a) 1024#32) (BitVec.ofNat 32 b))
        (IntOp.addi (Scalar.muli (BitVec.ofNat 32 c) 1024#32) (BitVec.ofNat 32 d))
      = if 1024 * c + d < 1024 * a + b then 1#1 else 0#1 := by
  show BitVec.ofBool (decide (_ < _)) = _
  rw [tileWord_toInt a b ha hb, tileWord_toInt c d hc hd]
  by_cases h : 1024 * c + d < 1024 * a + b
  · rw [if_pos h, decide_eq_true (by exact_mod_cast h)]; rfl
  · rw [if_neg h, decide_eq_false (by exact_mod_cast h)]; rfl

/-- The causal mask at a pair of positions of the two tiles. -/
theorem mask_at (i : grid0.Coords) (p q : Fin 1024) :
    cmpi .sgt (addi (broadcast S1024x1024 (Scalar.muli (BitVec.ofNat 32 (i 0).val) 1024#32)) (iota .tc S1024x1024 32 [0] iota_S1024x1024_d0_w32))
        (addi (broadcast S1024x1024 (Scalar.muli (BitVec.ofNat 32 (i 1).val) 1024#32)) (iota .tc S1024x1024 32 [1] iota_S1024x1024_d1_w32)) (ix2 p q)
      = if 1024 * (i 1).val + q.val < 1024 * (i 0).val + p.val then 1#1 else 0#1 := by
  show IntOp.cmpi .sgt (IntOp.addi _ (iota .tc S1024x1024 32 [0] _ (ix2 p q))) (IntOp.addi _ (iota .tc S1024x1024 32 [1] _ (ix2 p q))) = _
  rw [iota_single_apply, iota_single_apply]
  exact mask_bit _ _ _ _ (i 0).isLt p.isLt (i 1).isLt q.isLt

/-- A vector of the query tile spread along the rows reads its entry at the row. -/
theorem rows_at (x : Vec Ideal S1024 .f32) (p q : Fin 1024) :
    broadcastTo S1024x1024 (shapeCast S1024x1 x shapeCasts_S1024_S1024x1) broadcasts_S1024x1_S1024x1024 (ix2 p q) = x (ix1 p) := by
  rw [broadcastTo_a1_ab_apply, shapeCast_a_a1_apply]

/-- A vector of the key tile spread along the columns reads its entry at the column. -/
theorem cols_at (x : Vec Ideal S1024 .f32) (p q : Fin 1024) :
    broadcastTo S1024x1024 (shapeCast S1x1024 x shapeCasts_S1024_S1x1024) broadcasts_S1x1024_S1024x1024 (ix2 p q) = x (ix1 q) := by
  rw [broadcastTo_1b_ab_apply, shapeCast_a_1a_apply]

/-- The decay factor of the kernel at a pair of positions: the exponential where the key event is strictly earlier,
    the zero word elsewhere. -/
theorem decay_at (i : grid0.Coords) (x0 x1 : Vec Ideal S1024 .f32) (p q : Fin 1024) :
    k0_pay3 (F := Ideal) i x0 x1 (ix2 p q)
      = if 1024 * (i 1).val + q.val < 1024 * (i 0).val + p.val then Ideal.exp (Cert.Spec.negOneW * (x0 (ix1 p) - x1 (ix1 q)))
        else Cert.Spec.zeroW := by
  unfold k0_pay3
  simp only [select_apply]
  rw [mask_at]
  by_cases h : 1024 * (i 1).val + q.val < 1024 * (i 0).val + p.val
  · rw [if_pos h, if_pos h, select_one]
    show Ideal.exp (Ideal.ofBits .f32 0xBF800000#32 * Scalar.select _ _ _) = _
    rw [mask_at, if_pos h, select_one]
    show Ideal.exp (_ * (_ - _)) = _
    rw [rows_at, cols_at]
  · rw [if_neg h, if_neg h, select_zero]
    rfl

/-! ## The step's payload and the cleared accumulator -/

/-- The device coupling gathered by the second one-hot product: the row of the query event at the device of the key
    event. -/
theorem topo_at (x5 : Vec Ideal S1024 .i32) (x3 : Vec Ideal S1024x100 .f32) (p q : Fin 1024) (n₀ : Fin 100)
    (hw : x5 (ix1 q) = BitVec.ofNat 32 n₀.val) :
    matmul dot_S1024x100_S100x1024_S1024x1024_1_0_0_1_n_n none
        (truncf .bf16 (shapeCast S1024x100 x3 shapeCasts_S1024x100_S1024x100) bitsLt_bf16_f32)
        (transpose S100x1024 [1, 0]
          (truncf .bf16 (sitofp (F := Ideal) .f32 (extui 32 (cmpi .eq (k0_pay5 (F := Ideal) x5)
            (iota .tc S1024x100 32 [1] iota_S1024x100_d1_w32)) natLt_1_32)) bitsLt_bf16_f32)
          transposes_S1024x100_p1_0_S100x1024)
        (constant (F := Ideal) S1024x1024 .f32 0x00000000#32) (ix2 p q)
      = x3 (ix2 p n₀) := by
  unfold k0_pay5
  refine (matmul_zero_ix2 (m := 1024) (k := 100) (n := 1024) dot_S1024x100_S100x1024_S1024x1024_1_0_0_1_n_n_wf none _ _ p q).trans ?_
  refine Eq.trans (Finset.sum_congr rfl fun c _ => ?_) (pick_sum (by norm_num) (fun c => x3 (ix2 p c)) (x5 (ix1 q)) n₀ hw)
  rw [hot_at]
  show shapeCast S1024x100 x3 shapeCasts_S1024x100_S1024x100 (ix2 p c) * _ = _
  rw [shapeCast_self]

/-- The reduced index with the lane put back is the pair (row, lane). -/
theorem lift_ix (p q : Fin 1024) : reduces_S1024x1024_S1024.lift (ix1 p) q = ix2 p q :=
  funext fun a => match a with | ⟨0, _⟩ => Fin.ext rfl | ⟨1, _⟩ => Fin.ext rfl

/-- One grid step adds to the accumulator, at each query event of its tile, the zero word plus the key tile's part of
    the excitation. -/
theorem tile_acc (i : grid0.Coords) (qi kj : Fin 8) (hq : (i 0).val = qi.val) (hk : (i 1).val = kj.val)
    (x0 x1 : Vec Ideal S1024 .f32) (x2 : Vec Ideal S1024x50 .f32) (x3 : Vec Ideal S1024x100 .f32)
    (x4 x5 : Vec Ideal S1024 .i32) (xs : Vec Ideal S1024 .f32)
    (t : Fin 8192 → EReal) (al : Fin 50 → Fin 50 → EReal) (ad : Fin 100 → Fin 100 → EReal)
    (e : Fin 8192 → Fin 50) (d : Fin 8192 → Fin 100)
    (h0 : ∀ p : Fin 1024, x0 (ix1 p) = t (Cert.Spec.tileIdx qi p))
    (h1 : ∀ q : Fin 1024, x1 (ix1 q) = t (Cert.Spec.tileIdx kj q))
    (h2 : ∀ (p : Fin 1024) (k : Fin 50), x2 (ix2 p k) = al k (e (Cert.Spec.tileIdx qi p)))
    (h3 : ∀ (p : Fin 1024) (n : Fin 100), x3 (ix2 p n) = ad (d (Cert.Spec.tileIdx qi p)) n)
    (h4 : ∀ q : Fin 1024, x4 (ix1 q) = BitVec.ofNat 32 (e (Cert.Spec.tileIdx kj q)).val)
    (h5 : ∀ q : Fin 1024, x5 (ix1 q) = BitVec.ofNat 32 (d (Cert.Spec.tileIdx kj q)).val)
    (p : Fin 1024) :
    k0_pay1 (F := Ideal) (k0_pay3 i x0 x1) (k0_pay4 x4 x2) (iota .tc S1024x100 32 [1] iota_S1024x100_d1_w32) (k0_pay5 x5) x3 xs
        (ix1 p)
      = xs (ix1 p) + (Cert.Spec.zeroW + Cert.Spec.tilePart t al ad e d (Cert.Spec.tileIdx qi p) kj) := by
  unfold k0_pay1
  rw [shapeCast_self, Cert.Spec.zeroW_eq, zero_add]
  show xs (ix1 p) + multiReduction (F := Ideal) .add [1] S1024 _ _ reduces_S1024x1024_S1024 _ _ (ix1 p) = _
  refine congrArg (xs (ix1 p) + ·) ?_
  refine (Ideal.multiReduction_add_single _ _ reduces_S1024x1024_S1024 _ _ (ix1 p)).trans ?_
  unfold Cert.Spec.tilePart
  refine Finset.sum_congr rfl fun (q : Fin 1024) _ => ?_
  rw [lift_ix p q]
  show (matmul _ none _ _ _ (ix2 p q) * k0_pay4 (F := Ideal) x4 x2 (ix2 p q)) * k0_pay3 (F := Ideal) i x0 x1 (ix2 p q) = _
  rw [topo_at x5 x3 p q _ (h5 q), pay4_at x4 x2 p q _ (h4 q), decay_at, h3, h2, h0, h1, hq, hk]
  rfl

/-- The cleared accumulator holds the zero word at every position. -/
theorem cleared (p : Fin 1024) : k0_pay2 (F := Ideal) (ix1 p) = Cert.Spec.zeroW := by
  unfold k0_pay2
  rw [shapeCast_self]
  rfl

end Cert.KernelIdeal.Hand

end
-- ==== Proof.KI.Value.lean ====
import proofs.«401946_j23227183137529_1_alg».proof.Proof.KI.Pieces
import proofs.«401946_j23227183137529_1_alg».proof.Proof.KI.Tile
import proofs.«401946_j23227183137529_1_alg».proof.Proof.Spec
import Idealize.ShloMosaic.Lib.Pipeline.Value
import Idealize.ShloMosaic.Lib.ValueIdx

set_option maxRecDepth 16384

noncomputable section

/-! # The excitation kernel's output array, as one function of the data

The grid is 8 × 8, row-major: point n works on the query tile n / 8 (1024 events) against the key tile n % 8. What each
window's block holds is read off its array at the block index times the block's size plus the coordinate inside the
block. With the five arrays holding the event times, the gathered coupling rows and the events' types and devices,
one step adds to the accumulator, at each event of the query tile, the zero word plus the key tile's part of that
event's excitation; the accumulator is cleared at the first key tile. By induction along a row of the grid the
accumulator after the key tile k holds the specification's accumulator after k + 1 tiles; after the last one that is
the excitation, which is copied to the output block and written back. The eight blocks written back cover the output
array, so the array ends holding the excitation of every event. -/

namespace Cert.KernelIdeal.Hand

open Cert.KernelIdeal Cert.KernelIdeal.Gen Idealize.ShloMosaic Idealize.ShloMosaic.ValueIdx
open Idealize.ShloMosaic.Pipeline (Dat)

variable (m : (ℓ : Loc nD τ sig) → Buf (Elt Ideal) ℓ) (ρ : Dev nD → PrngReg) (c : Dev nD)

/-! ## The grid point as a pair of tiles

Point n of the 8 × 8 row-major grid is the query tile n / 8 against the key tile n % 8. -/

theorem N64 : cfg0.N = 64 := N_0

/-- The query tile of grid point n. -/
abbrev qTile (n : ℕ) (hn : n < cfg0.N) : Fin 8 := ⟨n / 8, by have : cfg0.N = 64 := N_0; omega⟩
/-- The key tile of grid point n. -/
abbrev kTile (n : ℕ) : Fin 8 := ⟨n % 8, Nat.mod_lt _ (by decide)⟩

/-- The two grid coordinates of a point, decided over the grid. -/
theorem coords_0 : ∀ t : Fin cfg0.N, (grid0.coords t 0).val = t.val / 8 :=
  (by decide +kernel : ∀ t : Fin grid0.N, (grid0.coords t 0).val = t.val / 8)
theorem coords_1 : ∀ t : Fin cfg0.N, (grid0.coords t 1).val = t.val % 8 :=
  (by decide +kernel : ∀ t : Fin grid0.N, (grid0.coords t 1).val = t.val % 8)

/-! ## The printed index maps, decided once over the grid -/

theorem idx0_0 : ∀ t : Fin cfg0.N, win0_0.index t (0 : Fin 1) = t.val / 8 :=
  (by decide +kernel : ∀ t : Fin grid0.N, win0_0.index t (0 : Fin 1) = t.val / 8)
theorem idx1_0 : ∀ t : Fin cfg0.N, win0_1.index t (0 : Fin 1) = t.val % 8 :=
  (by decide +kernel : ∀ t : Fin grid0.N, win0_1.index t (0 : Fin 1) = t.val % 8)
theorem idx2_0 : ∀ t : Fin cfg0.N, win0_2.index t (0 : Fin 2) = t.val / 8 :=
  (by decide +kernel : ∀ t : Fin grid0.N, win0_2.index t (0 : Fin 2) = t.val / 8)
theorem idx2_1 : ∀ t : Fin cfg0.N, win0_2.index t (1 : Fin 2) = 0 :=
  (by decide +kernel : ∀ t : Fin grid0.N, win0_2.index t (1 : Fin 2) = 0)
theorem idx3_0 : ∀ t : Fin cfg0.N, win0_3.index t (0 : Fin 2) = t.val / 8 :=
  (by decide +kernel : ∀ t : Fin grid0.N, win0_3.index t (0 : Fin 2) = t.val / 8)
theorem idx3_1 : ∀ t : Fin cfg0.N, win0_3.index t (1 : Fin 2) = 0 :=
  (by decide +kernel : ∀ t : Fin grid0.N, win0_3.index t (1 : Fin 2) = 0)
theorem idx4_0 : ∀ t : Fin cfg0.N, win0_4.index t (0 : Fin 1) = t.val % 8 :=
  (by decide +kernel : ∀ t : Fin grid0.N, win0_4.index t (0 : Fin 1) = t.val % 8)
theorem idx5_0 : ∀ t : Fin cfg0.N, win0_5.index t (0 : Fin 1) = t.val % 8 :=
  (by decide +kernel : ∀ t : Fin grid0.N, win0_5.index t (0 : Fin 1) = t.val % 8)
theorem idx6_0 : ∀ t : Fin cfg0.N, win0_6.index t (0 : Fin 1) = t.val / 8 :=
  (by decide +kernel : ∀ t : Fin grid0.N, win0_6.index t (0 : Fin 1) = t.val / 8)

/-! ## The block reads

An element of a block sits in its array, on each axis, at the block index times the block's size plus its own
coordinate. The event times are read twice, once by the query tile and once by the key tile; the two coupling rows are
whole rows of the query tile; the types and devices are read by the key tile. -/

/-- The query tile's event times. -/
theorem blk0_at (t : Fin cfg0.N) (p : Fin 1024) :
    iblk m ρ c 0 t (ix1 p) = V4 m ρ c main_arg0 (ix1 (Cert.Spec.tileIdx (qTile t.val t.isLt) p)) := by
  unfold iblk
  rw [View.read_apply]
  show V4 m ρ c main_arg0 _ = V4 m ρ c main_arg0 _
  congr 1
  funext a
  apply Fin.ext
  match a with
  | ⟨0, _⟩ =>
    show win0_0.index t (0 : Fin 1) * 1024 + 1 * p.val = 1024 * (t.val / 8) + p.val
    rw [idx0_0]; omega

/-- The key tile's event times. -/
theorem blk1_at (t : Fin cfg0.N) (q : Fin 1024) :
    iblk m ρ c 1 t (ix1 q) = V4 m ρ c main_arg0 (ix1 (Cert.Spec.tileIdx (kTile t.val) q)) := by
  unfold iblk
  rw [View.read_apply]
  show V4 m ρ c main_arg0 _ = V4 m ρ c main_arg0 _
  congr 1
  funext a
  apply Fin.ext
  match a with
  | ⟨0, _⟩ =>
    show win0_1.index t (0 : Fin 1) * 1024 + 1 * q.val = 1024 * (t.val % 8) + q.val
    rw [idx1_0]; omega

/-- The query tile's rows of the type couplings. -/
theorem blk2_at (t : Fin cfg0.N) (p : Fin 1024) (k : Fin 50) :
    iblk m ρ c 2 t (ix2 p k) = V4 m ρ c main_v10 (ix2 (Cert.Spec.tileIdx (qTile t.val t.isLt) p) k) := by
  unfold iblk
  rw [View.read_apply]
  show V4 m ρ c main_v10 _ = V4 m ρ c main_v10 _
  congr 1
  funext a
  apply Fin.ext
  match a with
  | ⟨0, _⟩ =>
    show win0_2.index t (0 : Fin 2) * 1024 + 1 * p.val = 1024 * (t.val / 8) + p.val
    rw [idx2_0]; omega
  | ⟨1, _⟩ =>
    show win0_2.index t (1 : Fin 2) * 50 + 1 * k.val = k.val
    rw [idx2_1]; omega

/-- The query tile's rows of the device couplings. -/
theorem blk3_at (t : Fin cfg0.N) (p : Fin 1024) (n : Fin 100) :
    iblk m ρ c 3 t (ix2 p n) = V4 m ρ c main_v17 (ix2 (Cert.Spec.tileIdx (qTile t.val t.isLt) p) n) := by
  unfold iblk
  rw [View.read_apply]
  show V4 m ρ c main_v17 _ = V4 m ρ c main_v17 _
  congr 1
  funext a
  apply Fin.ext
  match a with
  | ⟨0, _⟩ =>
    show win0_3.index t (0 : Fin 2) * 1024 + 1 * p.val = 1024 * (t.val / 8) + p.val
    rw [idx3_0]; omega
  | ⟨1, _⟩ =>
    show win0_3.index t (1 : Fin 2) * 100 + 1 * n.val = n.val
    rw [idx3_1]; omega

/-- The key tile's event types. -/
theorem blk4_at (t : Fin cfg0.N) (q : Fin 1024) :
    iblk m ρ c 4 t (ix1 q) = V4 m ρ c main_arg1 (ix1 (Cert.Spec.tileIdx (kTile t.val) q)) := by
  unfold iblk
  rw [View.read_apply]
  show V4 m ρ c main_arg1 _ = V4 m ρ c main_arg1 _
  congr 1
  funext a
  apply Fin.ext
  match a with
  | ⟨0, _⟩ =>
    show win0_4.index t (0 : Fin 1) * 1024 + 1 * q.val = 1024 * (t.val % 8) + q.val
    rw [idx4_0]; omega

/-- The key tile's event devices. -/
theorem blk5_at (t : Fin cfg0.N) (q : Fin 1024) :
    iblk m ρ c 5 t (ix1 q) = V4 m ρ c main_arg2 (ix1 (Cert.Spec.tileIdx (kTile t.val) q)) := by
  unfold iblk
  rw [View.read_apply]
  show V4 m ρ c main_arg2 _ = V4 m ρ c main_arg2 _
  congr 1
  funext a
  apply Fin.ext
  match a with
  | ⟨0, _⟩ =>
    show win0_5.index t (0 : Fin 1) * 1024 + 1 * q.val = 1024 * (t.val % 8) + q.val
    rw [idx5_0]; omega

/-! ## The accumulator after each grid point -/

section Accum

/-- The blocks of a grid point, each at its literal type: the query tile's event times, the key tile's event times, -/
abbrev bq (s : Fin cfg0.N) : Vec Ideal S1024 .f32 := iblk m ρ c 0 s
abbrev bk (s : Fin cfg0.N) : Vec Ideal S1024 .f32 := iblk m ρ c 1 s
/-- the query tile's rows of the type couplings and of the device couplings, -/
abbrev bal (s : Fin cfg0.N) : Vec Ideal S1024x50 .f32 := iblk m ρ c 2 s
abbrev bad (s : Fin cfg0.N) : Vec Ideal S1024x100 .f32 := iblk m ρ c 3 s
/-- the key tile's event types and event devices. -/
abbrev be (s : Fin cfg0.N) : Vec Ideal S1024 .i32 := iblk m ρ c 4 s
abbrev bd (s : Fin cfg0.N) : Vec Ideal S1024 .i32 := iblk m ρ c 5 s

/-- One grid step's arithmetic over the blocks of point s, on an accumulator xs. -/
abbrev stepOf (s : Fin cfg0.N) (xs : Vec Ideal S1024 .f32) : Vec Ideal S1024 .f32 :=
  k0_pay1 (F := Ideal) (k0_pay3 (grid0.coords s) (bq m ρ c s) (bk m ρ c s)) (k0_pay4 (be m ρ c s) (bal m ρ c s))
    (iota .tc S1024x100 32 [1] iota_S1024x100_d1_w32) (k0_pay5 (bd m ρ c s)) (bad m ρ c s) xs

/-- The accumulation does not depend on how its position is written. -/
theorem outsAt_congr {a b : ℕ} (hab : a = b) (ha : a < cfg0.N) (hb : b < cfg0.N) :
    outsAt m ρ c a ha = outsAt m ρ c b hb := by
  subst hab; rfl

/-- At a first key tile the accumulator ends at the step over the cleared accumulator. -/
theorem accOf_A (s : Fin cfg0.N) (h0 : s.val % 8 = 0) (h1 : ¬s.val % 8 = 7) :
    (outsAt m ρ c s.val s.isLt).2 = stepOf m ρ c s (k0_pay2 (F := Ideal)) := by
  have e1 := congrArg Prod.snd (outsAt_A m ρ c s h0 h1)
  have e2 := accA_eq (F := Ideal) c (grid0.coords s) (ms0 s) (hs0 s) (ms1 s) (hs1 s) (ms2 s) (hs2 s) (ms3 s) (hs3 s) (ms4 s) (hs4 s) (ms5 s) (hs5 s)
    (ms6 s) (hs6 s) accM (Memref.isWhole_whole _) ((isFirst_iff s).mpr h0) (fun h => h1 ((isLast_iff s).mp h))
    (bq m ρ c s) (bk m ρ c s) (bal m ρ c s) (bad m ρ c s) (be m ρ c s) (bd m ρ c s)
  dsimp only at e1
  exact e1.trans e2

/-- At a middle key tile it ends at the step over what the point before left. -/
theorem accOf_B (s : Fin cfg0.N) (h0 : ¬s.val % 8 = 0) (h1 : ¬s.val % 8 = 7) :
    (outsAt m ρ c s.val s.isLt).2
      = stepOf m ρ c s (outsAt m ρ c (s.val - 1) (Nat.lt_of_le_of_lt (Nat.sub_le _ _) s.isLt)).2 := by
  have e1 := congrArg Prod.snd (outsAt_B m ρ c s h0 h1)
  have e2 := accB_eq (F := Ideal) c (grid0.coords s) (ms0 s) (hs0 s) (ms1 s) (hs1 s) (ms2 s) (hs2 s) (ms3 s) (hs3 s) (ms4 s) (hs4 s) (ms5 s) (hs5 s)
    (ms6 s) (hs6 s) accM (Memref.isWhole_whole _) (fun h => h0 ((isFirst_iff s).mp h)) (fun h => h1 ((isLast_iff s).mp h))
    (bq m ρ c s) (bk m ρ c s) (bal m ρ c s) (bad m ρ c s) (be m ρ c s) (bd m ρ c s)
    (outsAt m ρ c (s.val - 1) (Nat.lt_of_le_of_lt (Nat.sub_le _ _) s.isLt)).2
  dsimp only at e1
  exact e1.trans e2

/-- At a last key tile likewise, -/
theorem accOf_C (s : Fin cfg0.N) (h0 : ¬s.val % 8 = 0) (h1 : s.val % 8 = 7) :
    (outsAt m ρ c s.val s.isLt).2
      = stepOf m ρ c s (outsAt m ρ c (s.val - 1) (Nat.lt_of_le_of_lt (Nat.sub_le _ _) s.isLt)).2 := by
  have e1 := congrArg Prod.snd (outsAt_C m ρ c s h0 h1)
  have e2 := accC_eq (F := Ideal) c (grid0.coords s) (ms0 s) (hs0 s) (ms1 s) (hs1 s) (ms2 s) (hs2 s) (ms3 s) (hs3 s) (ms4 s) (hs4 s) (ms5 s) (hs5 s)
    (ms6 s) (hs6 s) accM (Memref.isWhole_whole _) (fun h => h0 ((isFirst_iff s).mp h)) ((isLast_iff s).mpr h1)
    (bq m ρ c s) (bk m ρ c s) (bal m ρ c s) (bad m ρ c s) (be m ρ c s) (bd m ρ c s)
    (outsAt m ρ c (s.val - 1) (Nat.lt_of_le_of_lt (Nat.sub_le _ _) s.isLt)).2
  dsimp only at e1
  exact e1.trans e2

/-- and the output block's buffer ends at the same. -/
theorem outOf_C (s : Fin cfg0.N) (h0 : ¬s.val % 8 = 0) (h1 : s.val % 8 = 7) :
    (outsAt m ρ c s.val s.isLt).1
      = stepOf m ρ c s (outsAt m ρ c (s.val - 1) (Nat.lt_of_le_of_lt (Nat.sub_le _ _) s.isLt)).2 := by
  have e1 := congrArg Prod.fst (outsAt_C m ρ c s h0 h1)
  have e2 := outC_eq (F := Ideal) c (grid0.coords s) (ms0 s) (hs0 s) (ms1 s) (hs1 s) (ms2 s) (hs2 s) (ms3 s) (hs3 s) (ms4 s) (hs4 s) (ms5 s) (hs5 s)
    (ms6 s) (hs6 s) accM (Memref.isWhole_whole _) (fun h => h0 ((isFirst_iff s).mp h)) ((isLast_iff s).mpr h1)
    (bq m ρ c s) (bk m ρ c s) (bal m ρ c s) (bad m ρ c s) (be m ρ c s) (bd m ρ c s)
    (outsAt m ρ c (s.val - 1) (Nat.lt_of_le_of_lt (Nat.sub_le _ _) s.isLt)).2
  dsimp only at e1
  exact e1.trans e2

variable (t : Fin 8192 → EReal) (al : Fin 50 → Fin 50 → EReal) (ad : Fin 100 → Fin 100 → EReal)
  (e : Fin 8192 → Fin 50) (d : Fin 8192 → Fin 100)

/-- The step at a position of the query tile: the key tile's part of the excitation of that event, started from the
    zero word, added to what the accumulator held there. -/
theorem step_at
    (ht : ∀ j : Fin 8192, V4 m ρ c main_arg0 (ix1 j) = t j)
    (hal : ∀ (i : Fin 8192) (k : Fin 50), V4 m ρ c main_v10 (ix2 i k) = al k (e i))
    (had : ∀ (i : Fin 8192) (n : Fin 100), V4 m ρ c main_v17 (ix2 i n) = ad (d i) n)
    (he : ∀ j : Fin 8192, V4 m ρ c main_arg1 (ix1 j) = BitVec.ofNat 32 (e j).val)
    (hd : ∀ j : Fin 8192, V4 m ρ c main_arg2 (ix1 j) = BitVec.ofNat 32 (d j).val)
    (s : Fin cfg0.N) (xs : Vec Ideal S1024 .f32) (p : Fin 1024) :
    stepOf m ρ c s xs (ix1 p)
      = xs (ix1 p) + (Cert.Spec.zeroW
          + Cert.Spec.tilePart t al ad e d (Cert.Spec.tileIdx (qTile s.val s.isLt) p) (kTile s.val)) :=
  tile_acc (grid0.coords s) (qTile s.val s.isLt) (kTile s.val) (coords_0 s) (coords_1 s)
    (bq m ρ c s) (bk m ρ c s) (bal m ρ c s) (bad m ρ c s) (be m ρ c s) (bd m ρ c s) xs t al ad e d
    (fun p => (blk0_at m ρ c s p).trans (ht _))
    (fun q => (blk1_at m ρ c s q).trans (ht _))
    (fun p k => (blk2_at m ρ c s p k).trans (hal _ _))
    (fun p n => (blk3_at m ρ c s p n).trans (had _ _))
    (fun q => (blk4_at m ρ c s q).trans (he _))
    (fun q => (blk5_at m ρ c s q).trans (hd _))
    p

/-- THE INDUCTION: at the point of query tile q and key tile k the accumulator holds, at each event of the query tile,
    the accumulator of the specification after the key tiles 0 … k. -/
theorem acc_aux
    (ht : ∀ j : Fin 8192, V4 m ρ c main_arg0 (ix1 j) = t j)
    (hal : ∀ (i : Fin 8192) (k : Fin 50), V4 m ρ c main_v10 (ix2 i k) = al k (e i))
    (had : ∀ (i : Fin 8192) (n : Fin 100), V4 m ρ c main_v17 (ix2 i n) = ad (d i) n)
    (he : ∀ j : Fin 8192, V4 m ρ c main_arg1 (ix1 j) = BitVec.ofNat 32 (e j).val)
    (hd : ∀ j : Fin 8192, V4 m ρ c main_arg2 (ix1 j) = BitVec.ofNat 32 (d j).val)
    (q : Fin 8) (p : Fin 1024) :
    ∀ (k : ℕ) (hk : k + 1 ≤ 8) (n : ℕ) (hn : n < cfg0.N), n = 8 * q.val + k →
      (outsAt m ρ c n hn).2 (ix1 p) = Cert.Spec.accAfter t al ad e d (Cert.Spec.tileIdx q p) (k + 1) hk := by
  intro k
  induction k with
  | zero =>
    intro hk n hn hnk
    have h0 : n % 8 = 0 := by omega
    have h1 : ¬n % 8 = 7 := by omega
    have eq : qTile n hn = q := Fin.ext (by show n / 8 = q.val; omega)
    have ek : kTile n = ⟨0, hk⟩ := Fin.ext (by show n % 8 = 0; omega)
    refine (congrFun (accOf_A m ρ c ⟨n, hn⟩ h0 h1) (ix1 p)).trans ?_
    refine (step_at m ρ c t al ad e d ht hal had he hd ⟨n, hn⟩ _ p).trans ?_
    show _ + (Cert.Spec.zeroW + Cert.Spec.tilePart t al ad e d (Cert.Spec.tileIdx (qTile n hn) p) (kTile n)) = _
    rw [cleared, eq, ek]
    rfl
  | succ k ih =>
    intro hk n hn hnk
    have h0 : ¬n % 8 = 0 := by omega
    have eq : qTile n hn = q := Fin.ext (by show n / 8 = q.val; omega)
    have ek : kTile n = ⟨k + 1, hk⟩ := Fin.ext (by show n % 8 = k + 1; omega)
    have hp := ih (by omega) (n - 1) (Nat.lt_of_le_of_lt (Nat.sub_le _ _) hn) (by omega)
    by_cases h1 : n % 8 = 7
    · refine (congrFun (accOf_C m ρ c ⟨n, hn⟩ h0 h1) (ix1 p)).trans ?_
      refine (step_at m ρ c t al ad e d ht hal had he hd ⟨n, hn⟩ _ p).trans ?_
      show _ + (Cert.Spec.zeroW + Cert.Spec.tilePart t al ad e d (Cert.Spec.tileIdx (qTile n hn) p) (kTile n)) = _
      rw [eq, ek]
      exact congrArg (· + _) hp
    · refine (congrFun (accOf_B m ρ c ⟨n, hn⟩ h0 h1) (ix1 p)).trans ?_
      refine (step_at m ρ c t al ad e d ht hal had he hd ⟨n, hn⟩ _ p).trans ?_
      show _ + (Cert.Spec.zeroW + Cert.Spec.tilePart t al ad e d (Cert.Spec.tileIdx (qTile n hn) p) (kTile n)) = _
      rw [eq, ek]
      exact congrArg (· + _) hp

/-- THE ACCUMULATOR after the body at position n: at each event of the query tile n / 8, the accumulator of the
    specification after the key tiles 0 … n % 8. -/
theorem acc_at
    (ht : ∀ j : Fin 8192, V4 m ρ c main_arg0 (ix1 j) = t j)
    (hal : ∀ (i : Fin 8192) (k : Fin 50), V4 m ρ c main_v10 (ix2 i k) = al k (e i))
    (had : ∀ (i : Fin 8192) (n : Fin 100), V4 m ρ c main_v17 (ix2 i n) = ad (d i) n)
    (he : ∀ j : Fin 8192, V4 m ρ c main_arg1 (ix1 j) = BitVec.ofNat 32 (e j).val)
    (hd : ∀ j : Fin 8192, V4 m ρ c main_arg2 (ix1 j) = BitVec.ofNat 32 (d j).val)
    (n : ℕ) (hn : n < cfg0.N) (p : Fin 1024) :
    (outsAt m ρ c n hn).2 (ix1 p)
      = Cert.Spec.accAfter t al ad e d (Cert.Spec.tileIdx (qTile n hn) p) (n % 8 + 1)
          (Nat.succ_le_of_lt (Nat.mod_lt _ (by decide))) :=
  acc_aux m ρ c t al ad e d ht hal had he hd (qTile n hn) p (n % 8) _ n hn (by show n = 8 * (n / 8) + n % 8; omega)

/-- The accumulator of the specification does not depend on how the number of tiles is written. -/
theorem accAfter_congr (i : Fin 8192) {a b : ℕ} (hab : a = b) (ha : a ≤ 8) (hb : b ≤ 8) :
    Cert.Spec.accAfter t al ad e d i a ha = Cert.Spec.accAfter t al ad e d i b hb := by
  subst hab; rfl

/-- THE OUTPUT BLOCK'S BUFFER after a last key tile: the excitation of each event of the query tile. -/
theorem out_at
    (ht : ∀ j : Fin 8192, V4 m ρ c main_arg0 (ix1 j) = t j)
    (hal : ∀ (i : Fin 8192) (k : Fin 50), V4 m ρ c main_v10 (ix2 i k) = al k (e i))
    (had : ∀ (i : Fin 8192) (n : Fin 100), V4 m ρ c main_v17 (ix2 i n) = ad (d i) n)
    (he : ∀ j : Fin 8192, V4 m ρ c main_arg1 (ix1 j) = BitVec.ofNat 32 (e j).val)
    (hd : ∀ j : Fin 8192, V4 m ρ c main_arg2 (ix1 j) = BitVec.ofNat 32 (d j).val)
    (n : ℕ) (hn : n < cfg0.N) (h7 : n % 8 = 7) (p : Fin 1024) :
    (outsAt m ρ c n hn).1 (ix1 p) = Cert.Spec.excite t al ad e d (Cert.Spec.tileIdx (qTile n hn) p) := by
  have h0 : ¬n % 8 = 0 := by omega
  have e12 : (outsAt m ρ c n hn).1 = (outsAt m ρ c n hn).2 :=
    (outOf_C m ρ c ⟨n, hn⟩ h0 h7).trans (accOf_C m ρ c ⟨n, hn⟩ h0 h7).symm
  rw [e12, acc_at m ρ c t al ad e d ht hal had he hd n hn p,
    accAfter_congr t al ad e d _ (show n % 8 + 1 = 8 by omega) _ (Nat.le_refl 8), Cert.Spec.accAfter_eight]

/-! ## From the blocks to the array -/

/-- The excitation as contents of the output array. -/
abbrev exciteArr : S8192.Idx → EReal := fun j => Cert.Spec.excite t al ad e d (j 0)

/-- WHAT A LAST KEY TILE WRITES BACK is its query tile's block of the excitation. -/
theorem flushed_eq
    (ht : ∀ j : Fin 8192, V4 m ρ c main_arg0 (ix1 j) = t j)
    (hal : ∀ (i : Fin 8192) (k : Fin 50), V4 m ρ c main_v10 (ix2 i k) = al k (e i))
    (had : ∀ (i : Fin 8192) (n : Fin 100), V4 m ρ c main_v17 (ix2 i n) = ad (d i) n)
    (he : ∀ j : Fin 8192, V4 m ρ c main_arg1 (ix1 j) = BitVec.ofNat 32 (e j).val)
    (hd : ∀ j : Fin 8192, V4 m ρ c main_arg2 (ix1 j) = BitVec.ofNat 32 (d j).val)
    (s : Fin cfg0.N) (hf : (cfg0.win 6).flush s = true) :
    (dats m ρ 0 c).flushed 6 s = ((cfg0.win 6).blk s).view.read (Elt Ideal) (exciteArr t al ad e d) := by
  have h7 : s.val % 8 = 7 := (flush0_6 s).mp hf
  show (cfg0.win 6).cut (grid0.coords s) ((dats m ρ 0 c).after 6 s) = _
  rw [after6]
  funext j
  obtain ⟨p, rfl⟩ : ∃ p : Fin 1024, j = ix1 p := ⟨j 0, eq_ix1 j⟩
  rw [View.read_apply]
  show (outsAt m ρ c s.val s.isLt).1 (ix1 p)
    = Cert.Spec.excite t al ad e d ((((cfg0.win 6).blk s).view.emb (ix1 p)) 0)
  rw [out_at m ρ c t al ad e d ht hal had he hd s.val s.isLt h7 p]
  congr 1
  apply Fin.ext
  show 1024 * (s.val / 8) + p.val = win0_6.index s (0 : Fin 1) * 1024 + 1 * p.val
  rw [idx6_0]; omega

/-- An event is in the block a point writes back iff it is in that block's range. -/
theorem mem_blk6 (s : Fin cfg0.N) (i : S8192.Idx) :
    i ∈ ((cfg0.win 6).blk s).view.set ↔ ∀ a : Fin 1, win0_6.index s a * S1024.size a ≤ (i a).val
      ∧ (i a).val < win0_6.index s a * S1024.size a + S1024.size a := by
  show i ∈ ((View.whole main_v18).slice (win0_6.rect s)).set ↔ _
  rw [View.set_slice_whole, Rect.mem_set_unit]
  exact Iff.rfl

/-- THE OUTPUT ARRAY after the run holds the excitation of every event: the last key tile of query tile i / 1024
    writes event i's block back, and the eight such points cover the array. -/
theorem excite_array
    (ht : ∀ j : Fin 8192, V4 m ρ c main_arg0 (ix1 j) = t j)
    (hal : ∀ (i : Fin 8192) (k : Fin 50), V4 m ρ c main_v10 (ix2 i k) = al k (e i))
    (had : ∀ (i : Fin 8192) (n : Fin 100), V4 m ρ c main_v17 (ix2 i n) = ad (d i) n)
    (he : ∀ j : Fin 8192, V4 m ρ c main_arg1 (ix1 j) = BitVec.ofNat 32 (e j).val)
    (hd : ∀ j : Fin 8192, V4 m ρ c main_arg2 (ix1 j) = BitVec.ofNat 32 (d j).val)
    (i : Fin 8192) :
    (dats m ρ 0 c).arrAt 6 cfg0.N (ix1 i) = Cert.Spec.excite t al ad e d i := by
  have hN : cfg0.N = 64 := N_0
  have hcov : ∀ j : S8192.Idx, ∃ s : Fin cfg0.N, (cfg0.win 6).flush s = true ∧ j ∈ ((cfg0.win 6).blk s).view.set := by
    intro j
    have hj : (j 0).val < 8192 := (j 0).isLt
    refine ⟨⟨8 * ((j 0).val / 1024) + 7, by omega⟩, (flush0_6 _).mpr (by show (8 * ((j 0).val / 1024) + 7) % 8 = 7; omega), ?_⟩
    rw [mem_blk6]
    intro a
    match a with
    | ⟨0, _⟩ =>
      show win0_6.index _ (0 : Fin 1) * 1024 ≤ (j 0).val ∧ (j 0).val < win0_6.index _ (0 : Fin 1) * 1024 + 1024
      rw [idx6_0]
      show (8 * ((j 0).val / 1024) + 7) / 8 * 1024 ≤ (j 0).val ∧ (j 0).val < (8 * ((j 0).val / 1024) + 7) / 8 * 1024 + 1024
      omega
  exact congrFun ((dats m ρ 0 c).arrAt_eq_of_cover 6 (exciteArr t al ad e d)
    (flushed_eq m ρ c t al ad e d ht hal had he hd) hcov) (ix1 i)

end Accum

end Cert.KernelIdeal.Hand

end
-- ==== Proof.Ref.Tail.lean ====
/- The part of the reference program after its excitation sum, as one function.

   The reference ends: the intensity lam_i = mu[e_i] + E_i; the log-likelihood sum S = sum_i log (lam_i + eps); the
   compensator C = (sum_k mu_k) * T + sum_i (sum_v adj[v, u_i]) * (sum_k alpha[e_i, k]) * (1 - exp (-(T - t_i))), with
   T the last time; and the loss -(S - C). All of it reads the excitation E, the three inputs (times, event types,
   devices) and the three softplus tables mu, alpha, adj, and nothing else: it is one function of those seven values.
   A program whose operations after its own excitation are these same ones computes that function of its own seven
   values, so two such programs agree as soon as their excitations and their tables do. -/
import proofs.«401946_j23227183137529_1_alg».proof.Proof.RefRead

noncomputable section

namespace Cert.RefSide

open Cert.ReferenceIdeal Cert.ReferenceIdeal.Gen Idealize.ShloMosaic Idealize.ShloMosaic.TcCoe Idealize.SL.Sem Idealize.ShloMosaic.StableHlo

section Generic

variable {F : FTy → Type} [FloatOps F]

/-- The operations after the excitation sum, composed, at any float model: E stands where the reference reads its
    excitation, and mu, al, ad where it reads its three softplus tables. One line is one operation. -/
def tailF (E : (⟨S8192, .f32⟩ : BufTy).Contents (Elt F)) (x0 : (⟨S8192, .f32⟩ : BufTy).Contents (Elt F))
    (x1 x2 : (⟨S8192, .i32⟩ : BufTy).Contents (Elt F))
    (mu : (⟨S50, .f32⟩ : BufTy).Contents (Elt F)) (al : (⟨S50x50, .f32⟩ : BufTy).Contents (Elt F))
    (ad : (⟨S100x100, .f32⟩ : BufTy).Contents (Elt F)) : (⟨S_, .f32⟩ : BufTy).Contents (Elt F) :=
  -- mu[e_i]: the event type wrapped (e < 0 goes to e + 50) as a column of start indices, then the gather
  let v47 : (⟨S8192, .i32⟩ : BufTy).Contents (Elt F) := broadcastInDim S8192 ![] bcast_S_S8192 (constantI S_ 32 0#32)
  let v48 : (⟨S8192, .i1⟩ : BufTy).Contents (Elt F) := cmpi .slt x1 v47
  let v49 : (⟨S8192, .i32⟩ : BufTy).Contents (Elt F) := broadcastInDim S8192 ![] bcast_S_S8192 (constantI S_ 32 50#32)
  let v50 : (⟨S8192, .i32⟩ : BufTy).Contents (Elt F) := addi x1 v49
  let v51 : (⟨S8192, .i32⟩ : BufTy).Contents (Elt F) := select v48 v50 x1
  let v52 : (⟨S8192x1, .i32⟩ : BufTy).Contents (Elt F) := broadcastInDim S8192x1 ![0] bcast_S8192_S8192x1_0 v51
  let v53 : (⟨S8192, .f32⟩ : BufTy).Contents (Elt F) := Host.gather gather_S50_S8192x1_S8192_n_0_n_n_0_1_1 mu v52
  -- the intensity lam = mu[e] + E, then the sum of log (lam + eps)
  let v54 : (⟨S8192, .f32⟩ : BufTy).Contents (Elt F) := addf v53 E
  let v55 : (⟨S8192, .f32⟩ : BufTy).Contents (Elt F) := broadcastInDim S8192 ![] bcast_S_S8192 (constant (F := F) S_ .f32 0x358637BD#32)
  let v56 : (⟨S8192, .f32⟩ : BufTy).Contents (Elt F) := addf v54 v55
  let v57 : (⟨S8192, .f32⟩ : BufTy).Contents (Elt F) := Host.log v56
  let v58 : (⟨S_, .f32⟩ : BufTy).Contents (Elt F) := Host.reduceAdd v57 (constant (F := F) S_ .f32 0x00000000#32) reducesTo_S8192_S_d0 h_S_
  -- T, the last time; (sum_k mu_k) * T
  let v59 : (⟨S1, .f32⟩ : BufTy).Contents (Elt F) := extractStridedSlice S1 ![8191] x0 slices_S8192_S1_8191
  let v60 : (⟨S_, .f32⟩ : BufTy).Contents (Elt F) := shapeCast _ v59 shapeCasts_S1_S_
  let v61 : (⟨S_, .f32⟩ : BufTy).Contents (Elt F) := Host.reduceAdd mu (constant (F := F) S_ .f32 0x00000000#32) reducesTo_S50_S_d0 h_S_
  let v62 : (⟨S_, .f32⟩ : BufTy).Contents (Elt F) := mulf v61 v60
  -- the time integral 1 * (1 - exp (-1 * (T - t_i)))
  let v63 : (⟨S8192, .f32⟩ : BufTy).Contents (Elt F) := broadcastInDim S8192 ![] bcast_S_S8192 v60
  let v64 : (⟨S8192, .f32⟩ : BufTy).Contents (Elt F) := subf v63 x0
  let v65 : (⟨S8192, .f32⟩ : BufTy).Contents (Elt F) := broadcastInDim S8192 ![] bcast_S_S8192 (constant (F := F) S_ .f32 0xBF800000#32)
  let v66 : (⟨S8192, .f32⟩ : BufTy).Contents (Elt F) := mulf v65 v64
  let v67 : (⟨S8192, .f32⟩ : BufTy).Contents (Elt F) := Host.exp v66
  let v68 : (⟨S8192, .f32⟩ : BufTy).Contents (Elt F) := broadcastInDim S8192 ![] bcast_S_S8192 (constant (F := F) S_ .f32 0x3F800000#32)
  let v69 : (⟨S8192, .f32⟩ : BufTy).Contents (Elt F) := subf v68 v67
  let v70 : (⟨S8192, .f32⟩ : BufTy).Contents (Elt F) := broadcastInDim S8192 ![] bcast_S_S8192 (constant (F := F) S_ .f32 0x3F800000#32)
  let v71 : (⟨S8192, .f32⟩ : BufTy).Contents (Elt F) := mulf v70 v69
  -- sum_k alpha[e_i, k]: the row sums of alpha, gathered at the wrapped event types
  let v72 : (⟨S50, .f32⟩ : BufTy).Contents (Elt F) := Host.reduceAdd al (constant (F := F) S_ .f32 0x00000000#32) reducesTo_S50x50_S50_d1 h_S_
  let v73 : (⟨S8192, .i32⟩ : BufTy).Contents (Elt F) := broadcastInDim S8192 ![] bcast_S_S8192 (constantI S_ 32 0#32)
  let v74 : (⟨S8192, .i1⟩ : BufTy).Contents (Elt F) := cmpi .slt x1 v73
  let v75 : (⟨S8192, .i32⟩ : BufTy).Contents (Elt F) := broadcastInDim S8192 ![] bcast_S_S8192 (constantI S_ 32 50#32)
  let v76 : (⟨S8192, .i32⟩ : BufTy).Contents (Elt F) := addi x1 v75
  let v77 : (⟨S8192, .i32⟩ : BufTy).Contents (Elt F) := select v74 v76 x1
  let v78 : (⟨S8192x1, .i32⟩ : BufTy).Contents (Elt F) := broadcastInDim S8192x1 ![0] bcast_S8192_S8192x1_0 v77
  let v79 : (⟨S8192, .f32⟩ : BufTy).Contents (Elt F) := Host.gather gather_S50_S8192x1_S8192_n_0_n_n_0_1_1 v72 v78
  -- sum_v adj[v, u_i]: the column sums of adj, gathered at the wrapped devices (u < 0 goes to u + 100)
  let v80 : (⟨S100, .f32⟩ : BufTy).Contents (Elt F) := Host.reduceAdd ad (constant (F := F) S_ .f32 0x00000000#32) reducesTo_S100x100_S100_d0 h_S_
  let v81 : (⟨S8192, .i32⟩ : BufTy).Contents (Elt F) := broadcastInDim S8192 ![] bcast_S_S8192 (constantI S_ 32 0#32)
  let v82 : (⟨S8192, .i1⟩ : BufTy).Contents (Elt F) := cmpi .slt x2 v81
  let v83 : (⟨S8192, .i32⟩ : BufTy).Contents (Elt F) := broadcastInDim S8192 ![] bcast_S_S8192 (constantI S_ 32 100#32)
  let v84 : (⟨S8192, .i32⟩ : BufTy).Contents (Elt F) := addi x2 v83
  let v85 : (⟨S8192, .i32⟩ : BufTy).Contents (Elt F) := select v82 v84 x2
  let v86 : (⟨S8192x1, .i32⟩ : BufTy).Contents (Elt F) := broadcastInDim S8192x1 ![0] bcast_S8192_S8192x1_0 v85
  let v87 : (⟨S8192, .f32⟩ : BufTy).Contents (Elt F) := Host.gather gather_S100_S8192x1_S8192_n_0_n_n_0_1_1 v80 v86
  -- the second term of the compensator, the compensator, the loss
  let v88 : (⟨S8192, .f32⟩ : BufTy).Contents (Elt F) := mulf v87 v79
  let v89 : (⟨S8192, .f32⟩ : BufTy).Contents (Elt F) := mulf v88 v71
  let v90 : (⟨S_, .f32⟩ : BufTy).Contents (Elt F) := Host.reduceAdd v89 (constant (F := F) S_ .f32 0x00000000#32) reducesTo_S8192_S_d0 h_S_
  let v91 : (⟨S_, .f32⟩ : BufTy).Contents (Elt F) := addf v62 v90
  let v92 : (⟨S_, .f32⟩ : BufTy).Contents (Elt F) := subf v58 v91
  Host.negf v92

/-- The reference's result is that function of its own excitation and tables: its last forty-seven stages are,
    one by one, the lines above. -/
theorem ref_tailF (x0 : (⟨S8192, .f32⟩ : BufTy).Contents (Elt F)) (x1 x2 : (⟨S8192, .i32⟩ : BufTy).Contents (Elt F))
    (x3 : (⟨S50, .f32⟩ : BufTy).Contents (Elt F)) (x4 : (⟨S50x50, .f32⟩ : BufTy).Contents (Elt F)) (x5 : (⟨S100x100, .f32⟩ : BufTy).Contents (Elt F)) :
    ReadP.val_main_v93 (F := F) x0 x1 x2 x3 x4 x5
      = tailF (ReadP.val_main_v46 (F := F) x0 x1 x2 x4 x5) x0 x1 x2
          (ReadP.val_main_v0 (F := F) x3) (ReadP.val_main_v1 (F := F) x4) (ReadP.val_main_v2 (F := F) x5) := by
  unfold ReadP.val_main_v93 ReadP.val_main_v92 ReadP.val_main_v91 ReadP.val_main_v90 ReadP.val_main_v89 ReadP.val_main_v88
    ReadP.val_main_v87 ReadP.val_main_v86 ReadP.val_main_v85 ReadP.val_main_v84 ReadP.val_main_v83 ReadP.val_main_v82 ReadP.val_main_v81
    ReadP.val_main_v80 ReadP.val_main_v79 ReadP.val_main_v78 ReadP.val_main_v77 ReadP.val_main_v76 ReadP.val_main_v75 ReadP.val_main_v74
    ReadP.val_main_v73 ReadP.val_main_v72 ReadP.val_main_v71 ReadP.val_main_v70 ReadP.val_main_v69 ReadP.val_main_v68 ReadP.val_main_v67
    ReadP.val_main_v66 ReadP.val_main_v65 ReadP.val_main_v64 ReadP.val_main_v63 ReadP.val_main_v62 ReadP.val_main_v61 ReadP.val_main_v60
    ReadP.val_main_v59 ReadP.val_main_v58 ReadP.val_main_v57 ReadP.val_main_v56 ReadP.val_main_v55 ReadP.val_main_v54 ReadP.val_main_v53
    ReadP.val_main_v52 ReadP.val_main_v51 ReadP.val_main_v50 ReadP.val_main_v49 ReadP.val_main_v48 ReadP.val_main_v47
    ReadP.val_main_c_11 ReadP.val_main_c_12 ReadP.val_main_cst_13 ReadP.val_main_cst_14 ReadP.val_main_cst_15 ReadP.val_main_cst_16
    ReadP.val_main_cst_17 ReadP.val_main_cst_18 ReadP.val_main_cst_19 ReadP.val_main_c_20 ReadP.val_main_c_21 ReadP.val_main_cst_22
    ReadP.val_main_c_23 ReadP.val_main_c_24 ReadP.val_main_cst_25 tailF
  rfl

end Generic

/-- The same function at the extended reals, where the idealized programs are read. -/
def tail (E : (⟨S8192, .f32⟩ : BufTy).Contents (Elt Ideal)) (x0 : (⟨S8192, .f32⟩ : BufTy).Contents (Elt Ideal))
    (x1 x2 : (⟨S8192, .i32⟩ : BufTy).Contents (Elt Ideal))
    (mu : (⟨S50, .f32⟩ : BufTy).Contents (Elt Ideal)) (al : (⟨S50x50, .f32⟩ : BufTy).Contents (Elt Ideal))
    (ad : (⟨S100x100, .f32⟩ : BufTy).Contents (Elt Ideal)) : (⟨S_, .f32⟩ : BufTy).Contents (Elt Ideal) :=
  tailF (F := Ideal) E x0 x1 x2 mu al ad

/-- The reference's result is the tail of its own excitation and its own three tables. -/
theorem ref_tail (x0 : (⟨S8192, .f32⟩ : BufTy).Contents (Elt Ideal)) (x1 x2 : (⟨S8192, .i32⟩ : BufTy).Contents (Elt Ideal))
    (x3 : (⟨S50, .f32⟩ : BufTy).Contents (Elt Ideal)) (x4 : (⟨S50x50, .f32⟩ : BufTy).Contents (Elt Ideal))
    (x5 : (⟨S100x100, .f32⟩ : BufTy).Contents (Elt Ideal)) :
    ReadP.val_main_v93 (F := Ideal) x0 x1 x2 x3 x4 x5
      = tail (ReadP.val_main_v46 (F := Ideal) x0 x1 x2 x4 x5) x0 x1 x2
          (ReadP.val_main_v0 (F := Ideal) x3) (ReadP.val_main_v1 (F := Ideal) x4) (ReadP.val_main_v2 (F := Ideal) x5) :=
  ref_tailF (F := Ideal) x0 x1 x2 x3 x4 x5

/-- The tail depends on the excitation and on the tables only through their values. -/
theorem tail_congr {E E' : (⟨S8192, .f32⟩ : BufTy).Contents (Elt Ideal)} (h : E = E')
    (x0 : (⟨S8192, .f32⟩ : BufTy).Contents (Elt Ideal)) (x1 x2 : (⟨S8192, .i32⟩ : BufTy).Contents (Elt Ideal))
    (mu : (⟨S50, .f32⟩ : BufTy).Contents (Elt Ideal)) (al : (⟨S50x50, .f32⟩ : BufTy).Contents (Elt Ideal))
    (ad : (⟨S100x100, .f32⟩ : BufTy).Contents (Elt Ideal)) :
    tail E x0 x1 x2 mu al ad = tail E' x0 x1 x2 mu al ad := by rw [h]

end Cert.RefSide

end
-- ==== Proof.LibGatherRows.lean ====
/-
  A row gather read at an entry.

  jnp's `table[idx]` (or `jnp.take(table, idx, axis=0)`) over a rank-2 table [N, C] and a vector of E positions
  prints as a `stablehlo.gather` whose start indices are the [E, 1] column of positions, whose operand axis 0 is
  collapsed and start-indexed, whose operand axis 1 is the one offset axis (slice sizes [1, C]), with no batching
  axes and the index vector on axis 1.  Result entry (e, o) is the table's entry (r, o) where r is position e's
  start index read as a signed integer and clamped into [0, N − 1]: a negative index reads row 0, one past the
  end reads the last row.  So the result's row e is a whole row of the table, chosen by position e alone.
-/
import Idealize.ShloMosaic.PureOps.ShapeOps
import Idealize.ShloMosaic.Lib.ValueIdx

namespace Cert.Lib

open Idealize.ShloMosaic Idealize.ShloMosaic.ValueIdx

/-- The dimension numbers of a row gather: operand [N, C], start indices [E, 1], result [E, C]. Their
    conditions `wf` are decided on a program's literal shapes. -/
abbrev rowGatherDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (e, o): the table at (r, o), r the start index of position e read signed and clamped
    into [0, N − 1]. -/
theorem gather_rows_apply {α : Type} {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (o : Fin C) :
    Host.gather (rowGatherDims N C E wf) x idx (ix2 e o)
      = x (ix2 (⟨min (idx (ix2 e (0 : Fin 1))).toInt.toNat (N - 1), by omega⟩ : Fin N) o) := by
  unfold Host.gather
  congr 1
  funext a
  refine Fin.ext ?_
  match a with
  | ⟨0, _⟩ =>
    show (rowGatherDims N C E wf).start (ix2 e o) idx 0 + (rowGatherDims N C E wf).batchCoord (ix2 e o) 0
      + (rowGatherDims N C E wf).offCoord (ix2 e o) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C E wf).startIndexMap from List.mem_singleton.mpr rfl)]
    have hsi : (rowGatherDims N C E wf).siIdx (ix2 e o) ⟨List.idxOf (0 : Fin 2) (rowGatherDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N C E wf).start (ix2 e o) idx 1 + (rowGatherDims N C E wf).batchCoord (ix2 e o) 1
      + (rowGatherDims N C E wf).offCoord (ix2 e o) 1 = o.val
    rw [GatherDims.batchCoord_eq_zero _ _ _ List.not_mem_nil]
    unfold GatherDims.start
    rw [dif_neg (show ¬ (1 : Fin 2) ∈ (rowGatherDims N C E wf).startIndexMap from
      fun h => absurd (List.mem_singleton.mp h) (by decide : (1 : Fin 2) ≠ 0))]
    unfold GatherDims.offCoord
    rw [dif_pos (show (1 : Fin 2) ∈ (rowGatherDims N C E wf).sKept from
      (GatherDims.mem_sKept _ _).mpr ⟨fun h => absurd (List.mem_singleton.mp h) (by decide : (1 : Fin 2) ≠ 0), List.not_mem_nil⟩)]
    simp only [Nat.zero_add, Nat.add_zero]
    rfl

end Cert.Lib
-- ==== Proof.KI.Host.lean ====
/- The kernel program's host operations, read as values.

   Before its one kernel call the program computes the three softplus tables mu, alpha, adj exactly as the reference
   does (the same fourteen operations each), then the two operands the call reads row by row: the rows of the
   TRANSPOSE of alpha gathered at the event types (row i is column e_i of alpha: entry (i, k) is alpha[k, e_i]) and the
   rows of adj gathered at the devices (entry (i, n) is adj[d_i, n]). A gather clamps its start index into the table
   and the index wrap x < 0 goes to x + rows keeps a word that is a row number, so with in-range event types and
   devices these are plain reads of the tables.
   After the call it applies to the call's result, the inputs and the tables the same forty-seven operations with
   which the reference ends: its result is the reference's tail of those values.
   Every statement is about the operations run from ANY contents W of the buffers, so it can be used at whatever the
   kernel call leaves. Each is proved at any float model and then read at the extended reals. -/
import proofs.«401946_j23227183137529_1_alg».proof.Proof.Gen.KernelIdeal.Launch
import proofs.«401946_j23227183137529_1_alg».proof.Proof.Ref.Tail
import proofs.«401946_j23227183137529_1_alg».proof.Proof.LibGatherRows
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.TcCoe Idealize.ShloMosaic.ValueIdx
/-- A 32-bit word below 2^31, read as a signed integer, is the number itself. -/
theorem toInt_ofNat_small (m : Nat) (hm : m < 2 ^ 31) : (BitVec.ofNat 32 m).toInt = (m : Int) := by
  have h1 : (BitVec.ofNat 32 m).toNat = m := by
    rw [BitVec.toNat_ofNat]; exact Nat.mod_eq_of_lt (by omega)
  rw [BitVec.toInt_eq_toNat_of_lt (by rw [h1]; omega), h1]

/-- Such a word is not below zero. -/
theorem cmpi_slt_zero_small (m : Nat) (hm : m < 2 ^ 31) : IntOp.cmpi .slt (BitVec.ofNat 32 m) 0#32 = 0#1 := by
  show BitVec.ofBool ((BitVec.ofNat 32 m).slt 0#32) = 0#1
  have h : (BitVec.ofNat 32 m).slt 0#32 = false := by
    rw [BitVec.slt_eq_decide, toInt_ofNat_small m hm]
    exact decide_eq_false (by simp)
  rw [h]; rfl

/-- The wrap of a possibly negative index (x < 0 goes to x + n), spread as a column of start indices: where the
    index is a word below 2^31 the wrap keeps it, so the column's entry in that row is the word. -/
theorem wrap_col_apply (n : BitVec 32) (x : IVec S8192 32) (i : Fin 8192) (m : Nat) (hm : m < 2 ^ 31)
    (hx : x (ix1 i) = BitVec.ofNat 32 m) :
    broadcastInDim S8192x1 ![0] bcast_S8192_S8192x1_0
        (select (cmpi .slt x (broadcastInDim S8192 ![] bcast_S_S8192 (constantI S_ 32 0#32)))
          (addi x (broadcastInDim S8192 ![] bcast_S_S8192 (constantI S_ 32 n))) x) (ix2 i (0 : Fin 1))
      = BitVec.ofNat 32 m := by
  rw [broadcastInDim_apply _ bcast_S8192_S8192x1_0 _ (ix2 i (0 : Fin 1)) (ix1 i) (fun a => match a with | ⟨0, _⟩ => rfl)]
  show Scalar.select (IntOp.cmpi .slt (x (ix1 i)) 0#32) (IntOp.addi (x (ix1 i)) n) (x (ix1 i)) = _
  rw [hx, cmpi_slt_zero_small m hm]
  rfl

/-- A row gather whose start index in row e is the word of a row number m reads row m of the table: the clamp
    into the table's rows leaves m where it is. -/
theorem gather_rows_at {α : Type} {N C E : Nat} (hN : 0 < N) (hN' : N ≤ 2 ^ 31)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ 32) (e : Fin E) (o : Fin C) (m : Fin N)
    (h : idx (ix2 e (0 : Fin 1)) = BitVec.ofNat 32 m.val) :
    Host.gather (Cert.Lib.rowGatherDims N C E wf) x idx (ix2 e o) = x (ix2 m o) := by
  have hm := m.isLt
  have hr : (⟨min (idx (ix2 e (0 : Fin 1))).toInt.toNat (N - 1), by omega⟩ : Fin N) = m := by
    apply Fin.ext
    show min (idx (ix2 e (0 : Fin 1))).toInt.toNat (N - 1) = m.val
    rw [h, toInt_ofNat_small _ (by omega), Int.toNat_natCast]
    omega
  exact (Cert.Lib.gather_rows_apply hN wf x idx e o).trans (congrArg (fun r => x (ix2 r o)) hr)

section Generic

variable {F : FTy → Type} [FloatOps F]

/-- The contents after the host operations before the kernel call (the three softplus calls, then the transpose,
    the two index wraps and the two row gathers), from any contents. -/
abbrev pre4F (W : Valuation τ sig (Elt F)) : Valuation τ sig (Elt F) :=
  StableHlo.after hostOps0_3 (StableHlo.after hostOps0_2 (StableHlo.after hostOps0_1 (StableHlo.after hostOps0 W)))

/-- The first softplus call leaves in its result what the reference's first softplus stage is of the same argument:
    the two programs' calls are the same fourteen operations. -/
theorem pre_v0F (W : Valuation τ sig (Elt F)) :
    pre4F W (Proc.devRef .tc main_v0) = Cert.ReferenceIdeal.ReadP.val_main_v0 (F := F) (W (Proc.devRef .tc main_arg3)) := by
  unfold pre4F
  after_results_simp
  simp only [StableHlo.TRef.ofBuf, StableHlo.TRef.toBuf, cast_eq]
  rfl

/-- The same for the second softplus call (the alpha table). -/
theorem pre_v1F (W : Valuation τ sig (Elt F)) :
    pre4F W (Proc.devRef .tc main_v1) = Cert.ReferenceIdeal.ReadP.val_main_v1 (F := F) (W (Proc.devRef .tc main_arg4)) := by
  unfold pre4F
  after_results_simp
  simp only [StableHlo.TRef.ofBuf, StableHlo.TRef.toBuf, cast_eq]
  rfl

/-- The same for the third softplus call (the adj table). -/
theorem pre_v2F (W : Valuation τ sig (Elt F)) :
    pre4F W (Proc.devRef .tc main_v2) = Cert.ReferenceIdeal.ReadP.val_main_v2 (F := F) (W (Proc.devRef .tc main_arg5)) := by
  unfold pre4F
  after_results_simp
  simp only [StableHlo.TRef.ofBuf, StableHlo.TRef.toBuf, cast_eq]
  rfl

/-- The gathered rows of the transposed alpha table: with in-range event types, row i is column e_i of alpha. -/
theorem pre_v10F (W : Valuation τ sig (Elt F)) (e : Fin 8192 → Fin 50)
    (he : ∀ j : Fin 8192, W (Proc.devRef .tc main_arg1) (ix1 j) = BitVec.ofNat 32 (e j).val) (i : Fin 8192) (k : Fin 50) :
    pre4F W (Proc.devRef .tc main_v10) (ix2 i k)
      = Cert.ReferenceIdeal.ReadP.val_main_v1 (F := F) (W (Proc.devRef .tc main_arg4)) (ix2 k (e i)) := by
  have h10 : pre4F W (Proc.devRef .tc main_v10)
      = Host.gather gather_S50x50_S8192x1_S8192x50_1_0_n_n_0_1_150
          (transpose S50x50 [1, 0] (Cert.ReferenceIdeal.ReadP.val_main_v1 (F := F) (W (Proc.devRef .tc main_arg4))) transposes_S50x50_S50x50_1_0)
          (broadcastInDim S8192x1 ![0] bcast_S8192_S8192x1_0
            (select (cmpi .slt (W (Proc.devRef .tc main_arg1)) (broadcastInDim S8192 ![] bcast_S_S8192 (constantI S_ 32 0#32)))
              (addi (W (Proc.devRef .tc main_arg1)) (broadcastInDim S8192 ![] bcast_S_S8192 (constantI S_ 32 50#32)))
              (W (Proc.devRef .tc main_arg1)))) := by
    unfold pre4F
    after_results_simp
    simp only [StableHlo.TRef.ofBuf, StableHlo.TRef.toBuf, cast_eq]
    rfl
  rw [h10]
  exact (gather_rows_at (N := 50) (C := 50) (E := 8192) (by decide) (by decide) gather_S50x50_S8192x1_S8192x50_1_0_n_n_0_1_150_wf _ _ i k (e i)
      (wrap_col_apply 50#32 (W (Proc.devRef .tc main_arg1)) i (e i).val (by have := (e i).isLt; omega) (he i))).trans
    (transpose_ix2_apply _ transposes_S50x50_S50x50_1_0 (e i) k)

/-- The gathered rows of the adj table: with in-range devices, row i is row d_i of adj. -/
theorem pre_v17F (W : Valuation τ sig (Elt F)) (d : Fin 8192 → Fin 100)
    (hd : ∀ j : Fin 8192, W (Proc.devRef .tc main_arg2) (ix1 j) = BitVec.ofNat 32 (d j).val) (i : Fin 8192) (n : Fin 100) :
    pre4F W (Proc.devRef .tc main_v17) (ix2 i n)
      = Cert.ReferenceIdeal.ReadP.val_main_v2 (F := F) (W (Proc.devRef .tc main_arg5)) (ix2 (d i) n) := by
  have h17 : pre4F W (Proc.devRef .tc main_v17)
      = Host.gather gather_S100x100_S8192x1_S8192x100_1_0_n_n_0_1_1100
          (Cert.ReferenceIdeal.ReadP.val_main_v2 (F := F) (W (Proc.devRef .tc main_arg5)))
          (broadcastInDim S8192x1 ![0] bcast_S8192_S8192x1_0
            (select (cmpi .slt (W (Proc.devRef .tc main_arg2)) (broadcastInDim S8192 ![] bcast_S_S8192 (constantI S_ 32 0#32)))
              (addi (W (Proc.devRef .tc main_arg2)) (broadcastInDim S8192 ![] bcast_S_S8192 (constantI S_ 32 100#32)))
              (W (Proc.devRef .tc main_arg2)))) := by
    unfold pre4F
    after_results_simp
    simp only [StableHlo.TRef.ofBuf, StableHlo.TRef.toBuf, cast_eq]
    rfl
  rw [h17]
  exact gather_rows_at (N := 100) (C := 100) (E := 8192) (by decide) (by decide) gather_S100x100_S8192x1_S8192x100_1_0_n_n_0_1_1100_wf _ _ i n (d i)
      (wrap_col_apply 100#32 (W (Proc.devRef .tc main_arg2)) i (d i).val (by have := (d i).isLt; omega) (hd i))

-- sixty-two operations folded in one pass: the fold's reference comparisons and its depth pass the defaults
set_option maxRecDepth 16384 in
set_option maxHeartbeats 20000000 in
/-- The host operations after the kernel call compute the reference's tail of the excitation buffer, the three
    inputs and the three softplus tables, as those stand before them: they are, one by one, the tail's lines. -/
theorem tail_v65F (W : Valuation τ sig (Elt F)) :
    StableHlo.after hostOps1 W (Proc.devRef .tc main_v65)
      = Cert.RefSide.tailF (F := F) (W (Proc.devRef .tc main_v18)) (W (Proc.devRef .tc main_arg0)) (W (Proc.devRef .tc main_arg1))
          (W (Proc.devRef .tc main_arg2)) (W (Proc.devRef .tc main_v0)) (W (Proc.devRef .tc main_v1)) (W (Proc.devRef .tc main_v2)) := by
  after_results_simp
  rfl

end Generic

/-! ## At the extended reals -/

/-- The contents after the host operations before the kernel call, at the extended reals. -/
abbrev pre4 (W : Valuation τ sig (Elt Ideal)) : Valuation τ sig (Elt Ideal) := pre4F (F := Ideal) W

theorem pre_v0 (W : Valuation τ sig (Elt Ideal)) :
    pre4 W (Proc.devRef .tc main_v0) = Cert.ReferenceIdeal.ReadP.val_main_v0 (F := Ideal) (W (Proc.devRef .tc main_arg3)) := pre_v0F W

theorem pre_v1 (W : Valuation τ sig (Elt Ideal)) :
    pre4 W (Proc.devRef .tc main_v1) = Cert.ReferenceIdeal.ReadP.val_main_v1 (F := Ideal) (W (Proc.devRef .tc main_arg4)) := pre_v1F W

theorem pre_v2 (W : Valuation τ sig (Elt Ideal)) :
    pre4 W (Proc.devRef .tc main_v2) = Cert.ReferenceIdeal.ReadP.val_main_v2 (F := Ideal) (W (Proc.devRef .tc main_arg5)) := pre_v2F W

theorem pre_v10 (W : Valuation τ sig (Elt Ideal)) (e : Fin 8192 → Fin 50)
    (he : ∀ j : Fin 8192, W (Proc.devRef .tc main_arg1) (ix1 j) = BitVec.ofNat 32 (e j).val) (i : Fin 8192) (k : Fin 50) :
    pre4 W (Proc.devRef .tc main_v10) (ix2 i k)
      = Cert.ReferenceIdeal.ReadP.val_main_v1 (F := Ideal) (W (Proc.devRef .tc main_arg4)) (ix2 k (e i)) := pre_v10F W e he i k

theorem pre_v17 (W : Valuation τ sig (Elt Ideal)) (d : Fin 8192 → Fin 100)
    (hd : ∀ j : Fin 8192, W (Proc.devRef .tc main_arg2) (ix1 j) = BitVec.ofNat 32 (d j).val) (i : Fin 8192) (n : Fin 100) :
    pre4 W (Proc.devRef .tc main_v17) (ix2 i n)
      = Cert.ReferenceIdeal.ReadP.val_main_v2 (F := Ideal) (W (Proc.devRef .tc main_arg5)) (ix2 (d i) n) := pre_v17F W d hd i n

theorem tail_v65 (W : Valuation τ sig (Elt Ideal)) :
    StableHlo.after hostOps1 W (Proc.devRef .tc main_v65)
      = Cert.RefSide.tail (W (Proc.devRef .tc main_v18)) (W (Proc.devRef .tc main_arg0)) (W (Proc.devRef .tc main_arg1))
          (W (Proc.devRef .tc main_arg2)) (W (Proc.devRef .tc main_v0)) (W (Proc.devRef .tc main_v1)) (W (Proc.devRef .tc main_v2)) := tail_v65F W

end Cert.KernelIdeal.Hand

end
-- ==== Proof.LibGatherCols.lean ====
/-
  A column gather read at an index.

  jnp's `x[:, idx]` over a rank-2 array `x : [R, N]` at a vector `idx` of `E` column numbers prints as a
  `stablehlo.gather` whose start indices are the [E, 1] column of those numbers: the result's axis 0 is the one
  offset axis (offset_dims = [0]) and runs over the whole first axis of the operand (slice sizes [R, 1]), the
  operand's axis 1 is collapsed (collapsed_slice_dims = [1]) and is the one axis a start index names
  (start_index_map = [1]), and the index vector lies along axis 1 of the start indices (index_vector_dim = 1).
  Result element (b, e) is therefore the operand at row b and at the column start index e names, that index read as a
  signed integer and clamped into [0, N - 1], as StableHLO clamps every start index so that the slice fits.
-/
import Idealize.ShloMosaic.Lib.ValueIdx

noncomputable section

namespace Cert.Lib

open Idealize.ShloMosaic Idealize.ShloMosaic.ValueIdx

/-- THE COLUMN GATHER AT (b, e). For an operand [R, N], start indices [E, 1] and a result [R, E], with the printed
    dimension numbers (`hoff` … `hivd`, each by `rfl` on a program's record; the slice sizes are not asked for: the
    collapsed axis has slice size 1 by the record's own conditions, and on axis 0 the slice starts at 0 whatever its
    size), the gather reads the operand at row `b` and at column `min (idx[e, 0] read signed) (N - 1)`. -/
theorem gather_cols {α : Type} {R N E w : Nat} (d : GatherDims ⟨2, ![R, N]⟩ ⟨2, ![E, 1]⟩ ⟨2, ![R, E]⟩)
    (hoff : d.offsetDims = [0]) (hcoll : d.collapsedSliceDims = [1]) (hob : d.operandBatchingDims = [])
    (hsim : d.startIndexMap = [1]) (hivd : d.indexVectorDim = 1)
    (x : (⟨2, ![R, N]⟩ : Shape).Idx → α) (idx : IVec ⟨2, ![E, 1]⟩ w) (b : Fin R) (e : Fin E) (hN : 0 < N) :
    Host.gather d x idx (ix2 b e)
      = x (ix2 b ⟨min (idx (ix2 e (0 : Fin 1))).toInt.toNat (N - 1), by omega⟩) := by
  unfold Host.gather
  congr 1
  funext a
  apply Fin.ext
  have hb : ∀ a : Fin 2, a ∉ d.operandBatchingDims := fun a => by rw [hob]; exact List.not_mem_nil
  have h01 : (0 : Fin 2) ≠ 1 := fun h => Nat.zero_ne_one (congrArg Fin.val h)
  match a with
  | ⟨0, _⟩ =>
    -- axis 0: no start index names it, it is not a batching axis, and it is the one kept axis, read by offset axis 0
    have hm : (0 : Fin 2) ∉ d.startIndexMap := by rw [hsim]; exact fun h => h01 (List.mem_singleton.mp h)
    have hk : (0 : Fin 2) ∈ d.sKept := by
      rw [GatherDims.mem_sKept, hcoll]; exact ⟨fun h => h01 (List.mem_singleton.mp h), hb 0⟩
    have hod : ∀ (k : Nat) (h : k < d.offsetDims.length), d.offsetDims[k] = (0 : Fin 2) := fun k h => by
      rw [List.getElem_of_eq hoff h]; exact List.getElem_singleton _
    show d.start (ix2 b e) idx 0 + d.batchCoord (ix2 b e) 0 + d.offCoord (ix2 b e) 0 = b.val
    unfold GatherDims.start GatherDims.offCoord
    rw [dif_neg hm, dif_pos hk, GatherDims.batchCoord_eq_zero _ _ _ (hb 0), hod]
    simp only [Nat.zero_add]
  | ⟨1, _⟩ =>
    -- axis 1: collapsed (slice size 1, no offset), not batching, and the one axis the start index names
    have hm : (1 : Fin 2) ∈ d.startIndexMap := by rw [hsim]; exact List.mem_singleton.mpr rfl
    have hc : (1 : Fin 2) ∈ d.collapsedSliceDims := by rw [hcoll]; exact List.mem_singleton.mpr rfl
    have hk : (1 : Fin 2) ∉ d.sKept := fun h => ((GatherDims.mem_sKept _ _).mp h).1 hc
    have hsl : d.sliceSizes 1 = 1 := d.slice_collapsed 1 hc
    have hbd : ∀ (k : Nat) (h : k < d.batchDims.length), d.batchDims[k] = (1 : Fin 2) := fun k h => by
      have h1 : d.batchDims = [1] := by
        show Shape.kept _ d.offsetDims = [1]
        rw [hoff]; rfl
      rw [List.getElem_of_eq h1 h]; exact List.getElem_singleton _
    show d.start (ix2 b e) idx 1 + d.batchCoord (ix2 b e) 1 + d.offCoord (ix2 b e) 1 = min (idx (ix2 e (0 : Fin 1))).toInt.toNat (N - 1)
    unfold GatherDims.start
    rw [dif_pos hm, GatherDims.batchCoord_eq_zero _ _ _ (hb 1), GatherDims.offCoord_eq_zero _ _ _ hk]
    simp only [Nat.add_zero]
    show min (idx _).toInt.toNat (N - d.sliceSizes 1) = _
    rw [hsl]
    congr 3
    congr 1
    funext c
    match c with
    | ⟨0, _⟩ =>
      -- the start indices' axis 0 is read at the result's one batch axis, axis 1
      unfold GatherDims.siIdx
      rw [dif_neg (by rw [hivd]; exact Nat.zero_ne_one)]
      unfold GatherDims.siCoord
      apply Fin.ext
      simp only [Fin.val_cast]
      rw [hbd]
    | ⟨1, _⟩ =>
      -- the index vector's axis: component 0 of the start index, the position of axis 1 in the start index map
      unfold GatherDims.siIdx
      rw [dif_pos (by rw [hivd])]
      apply Fin.ext
      show List.idxOf (1 : Fin 2) d.startIndexMap = 0
      rw [hsim]; exact List.idxOf_cons_self

end Cert.Lib

end
-- ==== Proof.Ref.LibGather2.lean ====
/-
  Words that index: the three facts about 32-bit index words that reading a table gathered by rows and then by
  columns, and a strictly-lower-triangular mask, at an entry needs.

  * The source replaces a negative index `i` by `i + n` before it gathers (`select (i < 0) (i + n) i`). The word
    of a number below 2 ^ 31 is not negative read signed, so the select keeps the word.
  * A gather clamps a start index, read signed, into `[0, N - 1]`. The word of a number below `N` is its own clamp.
  * The mask of the strictly lower triangle compares `row + (-1) ≥ column` signed. For row and column numbers
    below 2 ^ 31 that is "the column is strictly left of the row"; at row 0 the sum is the word of -1, which is
    below every column.
-/
import Idealize.ShloMosaic.Lib.ValueIdx
import Idealize.ShloMosaic.Lib.DynamicIndex
import proofs.«401946_j23227183137529_1_alg».proof.Proof.LibGatherRows
import proofs.«401946_j23227183137529_1_alg».proof.Proof.LibGatherCols

namespace Cert.Lib

open Idealize.ShloMosaic Idealize.ShloMosaic.ValueIdx

/-- The word of a number below 2 ^ 31, as a natural number, is that number. -/
theorem toNat_ofNat_of_lt {k : Nat} (hk : k < 2 ^ 31) : (BitVec.ofNat 32 k).toNat = k := by
  rw [BitVec.toNat_ofNat]; exact Nat.mod_eq_of_lt (by omega)

/-- THE NEGATIVE-INDEX WRAP KEEPS A NON-NEGATIVE INDEX: `select (w < 0) a w = w` at the word `w` of a number
    below 2 ^ 31, whatever the other branch `a` is. -/
theorem select_wrap_ofNat {k : Nat} (hk : k < 2 ^ 31) (a : BitVec 32) :
    Scalar.select (IntOp.cmpi .slt (BitVec.ofNat 32 k) 0#32) a (BitVec.ofNat 32 k) = BitVec.ofNat 32 k := by
  have hlt : (BitVec.ofNat 32 k).slt 0#32 = false := by
    simp only [BitVec.slt, BitVec.toInt_zero, decide_eq_false_iff_not, Int.not_lt]
    rw [toInt_ofNat_of_lt hk]; omega
  show (if BitVec.ofBool ((BitVec.ofNat 32 k).slt 0#32) = 1 then a else BitVec.ofNat 32 k) = _
  rw [hlt]
  rfl

/-- THE CLAMP KEEPS AN INDEX IN RANGE: the word of `k < N`, read signed and clamped into `[0, N - 1]`, is `k`. -/
theorem clamp_ofNat {k N : Nat} (hk : k < N) (hN : N ≤ 2 ^ 31) :
    min (BitVec.ofNat 32 k).toInt.toNat (N - 1) = k := by
  rw [toInt_ofNat_of_lt (by omega)]
  omega

/-- THE STRICTLY-LOWER-TRIANGULAR MASK: `i + (-1) ≥ j` signed, on the words of a row number `i` and a column
    number `j` below 2 ^ 31, holds exactly when `j < i`. -/
theorem tril_mask_word {i j : Nat} (hi : i < 2 ^ 31) (hj : j < 2 ^ 31) :
    IntOp.cmpi .sge (IntOp.addi (BitVec.ofNat 32 i) 4294967295#32) (BitVec.ofNat 32 j)
      = if j < i then 1#1 else 0#1 := by
  have hsum : (IntOp.addi (BitVec.ofNat 32 i) 4294967295#32).toInt = (i : Int) - 1 := by
    show (BitVec.ofNat 32 i + 4294967295#32).toInt = _
    have hc : (4294967295#32).toNat = 4294967295 := rfl
    rw [BitVec.toInt_eq_toNat_cond, BitVec.toNat_add, toNat_ofNat_of_lt hi, hc]
    split <;> omega
  show BitVec.ofBool ((BitVec.ofNat 32 j).sle (IntOp.addi (BitVec.ofNat 32 i) 4294967295#32)) = _
  by_cases h : j < i
  · rw [if_pos h]
    have hs : (BitVec.ofNat 32 j).sle (IntOp.addi (BitVec.ofNat 32 i) 4294967295#32) = true := by
      rw [BitVec.sle_iff_toInt_le, hsum, toInt_ofNat_of_lt hj]; omega
    rw [hs]; rfl
  · rw [if_neg h]
    have hs : (BitVec.ofNat 32 j).sle (IntOp.addi (BitVec.ofNat 32 i) 4294967295#32) = false := by
      refine Bool.eq_false_iff.mpr fun hh => ?_
      rw [BitVec.sle_iff_toInt_le, hsum, toInt_ofNat_of_lt hj] at hh; omega
    rw [hs]; rfl

/-- A ROW GATHER AT AN IN-RANGE INDEX WORD: where position `e`'s start index is the word of a row number `r` of the
    table, the result's entry (e, o) is the table's entry (r, o): the clamp does nothing. -/
theorem gather_rows_ofNat {α : Type} {N C E : Nat} (hN : N ≤ 2 ^ 31)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ 32) (e : Fin E) (o : Fin C) (r : Fin N)
    (h : idx (ix2 e (0 : Fin 1)) = BitVec.ofNat 32 r.val) :
    Host.gather (rowGatherDims N C E wf) x idx (ix2 e o) = x (ix2 r o) := by
  rw [gather_rows_apply (Nat.lt_of_le_of_lt (Nat.zero_le _) r.isLt) wf x idx e o]
  congr 2
  exact Fin.ext (by show min (idx (ix2 e (0 : Fin 1))).toInt.toNat (N - 1) = r.val; rw [h]; exact clamp_ofNat r.isLt hN)

/-- A COLUMN GATHER AT AN IN-RANGE INDEX WORD: where position `e`'s start index is the word of a column number `c`
    of the operand, the result's entry (b, e) is the operand's entry (b, c). -/
theorem gather_cols_ofNat {α : Type} {R N E : Nat} (hN : N ≤ 2 ^ 31)
    (d : GatherDims ⟨2, ![R, N]⟩ ⟨2, ![E, 1]⟩ ⟨2, ![R, E]⟩)
    (hoff : d.offsetDims = [0]) (hcoll : d.collapsedSliceDims = [1]) (hob : d.operandBatchingDims = [])
    (hsim : d.startIndexMap = [1]) (hivd : d.indexVectorDim = 1)
    (x : (⟨2, ![R, N]⟩ : Shape).Idx → α) (idx : IVec ⟨2, ![E, 1]⟩ 32) (b : Fin R) (e : Fin E) (c : Fin N)
    (h : idx (ix2 e (0 : Fin 1)) = BitVec.ofNat 32 c.val) :
    Host.gather d x idx (ix2 b e) = x (ix2 b c) := by
  rw [gather_cols d hoff hcoll hob hsim hivd x idx b e (Nat.lt_of_le_of_lt (Nat.zero_le _) c.isLt)]
  congr 2
  exact Fin.ext (by show min (idx (ix2 e (0 : Fin 1))).toInt.toNat (N - 1) = c.val; rw [h]; exact clamp_ofNat c.isLt hN)

end Cert.Lib
-- ==== Proof.Ref.Excite.lean ====
/-
  The reference's excitation, read at an event.

  The reference forms three 8192 × 8192 arrays and sums their product along each row:

  * the decay: the strictly-lower-triangular mask (row + (-1) ≥ column, signed, on the words of the row and
    column numbers) selects the time difference t i - t j or the zero word, the exponential of -1 times that is
    taken, and the same mask selects that exponential or the zero word;
  * the device coupling: the 100 × 100 table's rows gathered by the device indices, then the columns of the
    result gathered by the same indices: entry (i, j) is the table at (device of i, device of j);
  * the type coupling: the 50 × 50 table's rows and then columns gathered by the event types, transposed:
    entry (i, j) is the table at (type of j, type of i).

  The index vectors pass through the replacement of a negative index k by k + n first, and a gather clamps its
  start indices into range. Where every index word is the word of a number in range, neither does anything, so
  each gather reads exactly the row or column the index names. Each factor is read at explicit coordinates
  (i, j); the row sum of the products is then the specification's sum of terms, behind the zero word the sum
  starts from.
-/
import proofs.«401946_j23227183137529_1_alg».proof.Proof.RefRead
import proofs.«401946_j23227183137529_1_alg».proof.Proof.Spec
import proofs.«401946_j23227183137529_1_alg».proof.Proof.Ref.LibGather2
import Idealize.ShloMosaic.Lib.ValueIdx
import Idealize.ShloMosaic.Lib.Pipeline.Value
import Idealize.ShloMosaic.PureOps.Ideal.Laws

noncomputable section

namespace Cert.RefSide

open Cert.ReferenceIdeal Cert.ReferenceIdeal.Gen Idealize.ShloMosaic Idealize.ShloMosaic.ValueIdx Cert.Lib

/-- The mask of the strictly lower triangle at (i, j): set exactly when column j is left of row i. -/
theorem mask_at (i j : Fin 8192) :
    ReadP.val_main_v4 (F := Ideal) (ix2 i j) = if j.val < i.val then 1#1 else 0#1 := by
  rw [ReadP.val_main_v4_apply, ReadP.val_main_call3_v4_apply, ReadP.val_main_call3_v2_apply,
    ReadP.val_main_call3_v0_apply, ReadP.val_main_call3_v1_apply, ReadP.val_main_call3_c_apply,
    ReadP.val_main_call3_v3_apply, ReadP.val_main_v3_apply, ReadP.val_main_c_apply,
    ReadP.val_main_call3_v5_apply, ReadP.val_main_call3_c_0_apply]
  show Scalar.select (IntOp.cmpi .sge (IntOp.addi (BitVec.ofNat 32 i.val) 4294967295#32) (BitVec.ofNat 32 j.val))
    1#1 0#1 = _
  rw [tril_mask_word (by omega) (by omega)]
  split
  · exact select_one _ _
  · exact select_zero _ _

/-- THE DECAY FACTOR AT (i, j): for an earlier event j the exponential of minus the time difference (the inner
    select keeps the difference there), for every other j the zero word (the outer select discards the
    exponential there, whatever the inner one fed it). -/
theorem decay_at (x0 : (⟨S8192, .f32⟩ : BufTy).Contents (Elt Ideal)) (i j : Fin 8192) :
    ReadP.val_main_v14 (F := Ideal) x0 (ix2 i j) = Cert.Spec.decay (fun j => x0 (ix1 j)) i j := by
  have h7 : ReadP.idx_main_v5 (ReadP.idx_main_v7 (ix2 i j)) = ix1 i :=
    funext fun a => match a with | ⟨0, _⟩ => rfl
  have h8 : ReadP.idx_main_v6 (ReadP.idx_main_v8 (ix2 i j)) = ix1 j :=
    funext fun a => match a with | ⟨0, _⟩ => rfl
  rw [ReadP.val_main_v14_apply, mask_at, ReadP.val_main_v13_apply, ReadP.val_main_v12_apply,
    ReadP.val_main_v11_apply, ReadP.val_main_cst_0_apply, ReadP.val_main_v10_apply, mask_at,
    ReadP.val_main_v9_apply, ReadP.val_main_v7_apply, ReadP.val_main_v5_apply, h7,
    ReadP.val_main_v8_apply, ReadP.val_main_v6_apply, h8,
    ReadP.val_main_call4_v1_apply, ReadP.val_main_call4_v0_apply, ReadP.val_main_cst_apply,
    ReadP.val_main_call5_v1_apply, ReadP.val_main_call5_v0_apply, ReadP.val_main_cst_1_apply]
  unfold Cert.Spec.decay
  by_cases h : j.val < i.val
  · rw [if_pos h, if_pos h, select_one, select_one]; rfl
  · rw [if_neg h, if_neg h, select_zero]; rfl

section Indices
variable (x1 x2 : (⟨S8192, .i32⟩ : BufTy).Contents (Elt Ideal))
  (e : Fin 8192 → Fin 50) (d : Fin 8192 → Fin 100)
  (he : ∀ j : Fin 8192, x1 (ix1 j) = BitVec.ofNat 32 (e j).val)
  (hd : ∀ j : Fin 8192, x2 (ix1 j) = BitVec.ofNat 32 (d j).val)
include he hd

omit he in
/-- The device indices after the negative-index wrap, as the column the row gather of the device table takes:
    the device word itself. -/
theorem dev_col_rows (j : Fin 8192) :
    ReadP.val_main_v20 (F := Ideal) x2 (ix2 j (0 : Fin 1)) = BitVec.ofNat 32 (d j).val := by
  rw [ReadP.val_main_v20_apply, show ReadP.idx_main_v20 (ix2 j (0 : Fin 1)) = ix1 j from
      funext fun a => match a with | ⟨0, _⟩ => rfl,
    ReadP.val_main_v19_apply, ReadP.val_main_v16_apply, ReadP.val_main_v15_apply, ReadP.val_main_c_2_apply, hd j]
  exact select_wrap_ofNat (by have := (d j).isLt; omega) _

omit he in
/-- The same column, as the column gather takes it. -/
theorem dev_col_cols (j : Fin 8192) :
    ReadP.val_main_v27 (F := Ideal) x2 (ix2 j (0 : Fin 1)) = BitVec.ofNat 32 (d j).val := by
  rw [ReadP.val_main_v27_apply, show ReadP.idx_main_v27 (ix2 j (0 : Fin 1)) = ix1 j from
      funext fun a => match a with | ⟨0, _⟩ => rfl,
    ReadP.val_main_v26_apply, ReadP.val_main_v23_apply, ReadP.val_main_v22_apply, ReadP.val_main_c_4_apply, hd j]
  exact select_wrap_ofNat (by have := (d j).isLt; omega) _

omit hd in
/-- The event types after the wrap, as the column the row gather of the type table takes. -/
theorem ev_col_rows (j : Fin 8192) :
    ReadP.val_main_v34 (F := Ideal) x1 (ix2 j (0 : Fin 1)) = BitVec.ofNat 32 (e j).val := by
  rw [ReadP.val_main_v34_apply, show ReadP.idx_main_v34 (ix2 j (0 : Fin 1)) = ix1 j from
      funext fun a => match a with | ⟨0, _⟩ => rfl,
    ReadP.val_main_v33_apply, ReadP.val_main_v30_apply, ReadP.val_main_v29_apply, ReadP.val_main_c_6_apply, he j]
  exact select_wrap_ofNat (by have := (e j).isLt; omega) _

omit hd in
/-- The same column, as the column gather takes it. -/
theorem ev_col_cols (j : Fin 8192) :
    ReadP.val_main_v41 (F := Ideal) x1 (ix2 j (0 : Fin 1)) = BitVec.ofNat 32 (e j).val := by
  rw [ReadP.val_main_v41_apply, show ReadP.idx_main_v41 (ix2 j (0 : Fin 1)) = ix1 j from
      funext fun a => match a with | ⟨0, _⟩ => rfl,
    ReadP.val_main_v40_apply, ReadP.val_main_v37_apply, ReadP.val_main_v36_apply, ReadP.val_main_c_8_apply, he j]
  exact select_wrap_ofNat (by have := (e j).isLt; omega) _

omit he in
/-- THE DEVICE COUPLING AT (i, j): the table's rows gathered by device, then its columns gathered by device, is
    the table at (device of i, device of j). -/
theorem topo_at (x5 : (⟨S100x100, .f32⟩ : BufTy).Contents (Elt Ideal)) (i j : Fin 8192) :
    ReadP.val_main_v28 (F := Ideal) x2 x5 (ix2 i j) = ReadP.val_main_v2 (F := Ideal) x5 (ix2 (d i) (d j)) := by
  have hc : ReadP.val_main_v28 (F := Ideal) x2 x5 (ix2 i j) = ReadP.val_main_v21 (F := Ideal) x2 x5 (ix2 i (d j)) :=
    gather_cols_ofNat (by decide) gather_S8192x100_S8192x1_S8192x8192_0_1_n_n_1_1_81921 rfl rfl rfl rfl rfl
      (ReadP.val_main_v21 (F := Ideal) x2 x5) (ReadP.val_main_v27 (F := Ideal) x2) i j (d j) (dev_col_cols x2 d hd j)
  have hr : ReadP.val_main_v21 (F := Ideal) x2 x5 (ix2 i (d j)) = ReadP.val_main_v2 (F := Ideal) x5 (ix2 (d i) (d j)) :=
    gather_rows_ofNat (by decide) gather_S100x100_S8192x1_S8192x100_1_0_n_n_0_1_1100_wf
      (ReadP.val_main_v2 (F := Ideal) x5) (ReadP.val_main_v20 (F := Ideal) x2) i (d j) (d i) (dev_col_rows x2 d hd i)
  exact hc.trans hr

omit hd in
/-- THE TYPE COUPLING AT (i, j): rows gathered by type, columns gathered by type, then transposed, is the table
    at (type of j, type of i). -/
theorem event_at (x4 : (⟨S50x50, .f32⟩ : BufTy).Contents (Elt Ideal)) (i j : Fin 8192) :
    ReadP.val_main_v43 (F := Ideal) x1 x4 (ix2 i j) = ReadP.val_main_v1 (F := Ideal) x4 (ix2 (e j) (e i)) := by
  have ht : ReadP.idx_main_v43 (ix2 i j) = ix2 j i :=
    funext fun a => match a with | ⟨0, _⟩ => rfl | ⟨1, _⟩ => rfl
  have hc : ReadP.val_main_v42 (F := Ideal) x1 x4 (ix2 j i) = ReadP.val_main_v35 (F := Ideal) x1 x4 (ix2 j (e i)) :=
    gather_cols_ofNat (by decide) gather_S8192x50_S8192x1_S8192x8192_0_1_n_n_1_1_81921 rfl rfl rfl rfl rfl
      (ReadP.val_main_v35 (F := Ideal) x1 x4) (ReadP.val_main_v41 (F := Ideal) x1) j i (e i) (ev_col_cols x1 e he i)
  have hr : ReadP.val_main_v35 (F := Ideal) x1 x4 (ix2 j (e i)) = ReadP.val_main_v1 (F := Ideal) x4 (ix2 (e j) (e i)) :=
    gather_rows_ofNat (by decide) gather_S50x50_S8192x1_S8192x50_1_0_n_n_0_1_150_wf
      (ReadP.val_main_v1 (F := Ideal) x4) (ReadP.val_main_v34 (F := Ideal) x1) j (e i) (e j) (ev_col_rows x1 e he j)
  rw [ReadP.val_main_v43_apply, ht]
  exact hc.trans hr

end Indices

/-- THE REFERENCE'S EXCITATION IS THE SPECIFICATION'S: the float sum over axis 1, started from the zero word, of
    (device coupling · type coupling) · decay at (i, j) is the zero word plus the sum of the terms of event i. -/
theorem ref_excite (x0 : (⟨S8192, .f32⟩ : BufTy).Contents (Elt Ideal)) (x1 x2 : (⟨S8192, .i32⟩ : BufTy).Contents (Elt Ideal))
    (x4 : (⟨S50x50, .f32⟩ : BufTy).Contents (Elt Ideal)) (x5 : (⟨S100x100, .f32⟩ : BufTy).Contents (Elt Ideal))
    (e : Fin 8192 → Fin 50) (d : Fin 8192 → Fin 100)
    (he : ∀ j : Fin 8192, x1 (ValueIdx.ix1 j) = BitVec.ofNat 32 (e j).val)
    (hd : ∀ j : Fin 8192, x2 (ValueIdx.ix1 j) = BitVec.ofNat 32 (d j).val)
    (i : Fin 8192) :
    ReadP.val_main_v46 (F := Ideal) x0 x1 x2 x4 x5 (ValueIdx.ix1 i)
      = Cert.Spec.zeroW + Cert.Spec.excite (fun j => x0 (ValueIdx.ix1 j))
          (fun a b => ReadP.val_main_v1 (F := Ideal) x4 (ValueIdx.ix2 a b))
          (fun a b => ReadP.val_main_v2 (F := Ideal) x5 (ValueIdx.ix2 a b)) e d i := by
  rw [ReadP.val_main_v46_apply, ReadP.val_main_cst_10_apply]
  unfold Cert.Spec.excite
  refine congrArg (Cert.Spec.zeroW + ·) (Finset.sum_congr rfl fun j _ => ?_)
  have hidx : ReadP.idx_main_v46 (ix1 i) j = ix2 i j :=
    funext fun a => match a with | ⟨0, _⟩ => rfl | ⟨1, _⟩ => rfl
  rw [hidx, ReadP.val_main_v45_apply, ReadP.val_main_v44_apply, topo_at x2 d hd x5 i j, event_at x1 e he x4 i j,
    decay_at x0 i j]
  rfl

end Cert.RefSide

end
-- ==== Proof.PreRange.lean ====
/-
  The precondition's integer conjuncts, decoded. The printed precondition is a conjunction (a chain of one-bit
  `and`s) of eight `all`-reductions; the last four say that every entry of the first integer array reads signed
  in [0, 50) and every entry of the second in [0, 100). From "the precondition is all ones" this module concludes
  that every entry's unsigned value is below 50, respectively below 100.
-/
import proofs.«401946_j23227183137529_1_alg».proof.Pre_finite_inputs
import proofs.«401946_j23227183137529_1_alg».proof.Proof.Gen.Pre_finite_inputs
import Idealize.ShloMosaic.Lib.ReduceAll
import Idealize.ShloMosaic.Lib.StableHlo.Predicate
import Idealize.ShloMosaic.Lib.ValueIdx

namespace Cert.PreRange

open Idealize.ShloMosaic

/-- The scalar shape has one index. -/
instance : Subsingleton Cert.Pre_finite_inputs.S_.Idx := ⟨fun a b => funext fun d => d.elim0⟩

/-- A 32-bit word that tests signed-nonnegative and signed-below a literal `n` (itself below 2³¹) has its top bit
    clear, so it reads the same unsigned, and its unsigned value is below `n`. -/
theorem toNat_lt_of_cmp (x : BitVec 32) (n : Nat) (hn : n < 2 ^ 31)
    (hge : IntOp.cmpi .sge x 0#32 = 1#1) (hlt : IntOp.cmpi .slt x (BitVec.ofNat 32 n) = 1#1) : x.toNat < n := by
  rw [IntOp.cmpi_sge, show (0#32 : BitVec 32).toInt = 0 from by decide, BitVec.toInt_pos_iff] at hge
  rw [IntOp.cmpi_slt, BitVec.toInt_eq_toNat_of_lt hge, StableHlo.Predicate.toInt_ofNat_small n hn] at hlt
  exact_mod_cast hlt

theorem ranges {F : FTy → Type} [FloatOps F] [Cert.Pre_finite_inputs.Facts]
    (a0 : FVec F Cert.Pre_finite_inputs.S8192 .f32) (a1 a2 : IVec Cert.Pre_finite_inputs.S8192 32)
    (a3 : FVec F Cert.Pre_finite_inputs.S50 .f32) (a4 : FVec F Cert.Pre_finite_inputs.S50x50 .f32)
    (a5 : FVec F Cert.Pre_finite_inputs.S100x100 .f32)
    (h : Cert.Pre_finite_inputs.fn (F := F) a0 a1 a2 a3 a4 a5 = fun _ => 1#1) :
    (∀ j : Cert.Pre_finite_inputs.S8192.Idx, (a1 j).toNat < 50) ∧
      (∀ j : Cert.Pre_finite_inputs.S8192.Idx, (a2 j).toNat < 100) := by
  have h0 := congrFun h ValueIdx.ix0
  simp only [Cert.Pre_finite_inputs.fn, Cert.Pre_finite_inputs.fn_part1, Cert.Pre_finite_inputs.fn_part2, andi,
    IntOp.andi_eq_one] at h0
  obtain ⟨⟨⟨⟨_, hge1⟩, hlt1⟩, hge2⟩, hlt2⟩ := h0
  -- each `all`-reduction that is one had a one at every element
  have e1 := Host.reduce_andi_all _ _ _ _ _ hge1
  have e2 := Host.reduce_andi_all _ _ _ _ _ hlt1
  have e3 := Host.reduce_andi_all _ _ _ _ _ hge2
  have e4 := Host.reduce_andi_all _ _ _ _ _ hlt2
  -- at an element the compare is the word compare against the broadcast literal
  exact ⟨fun j => toNat_lt_of_cmp (a1 j) 50 (by norm_num) (e1 j) (e2 j),
    fun j => toNat_lt_of_cmp (a2 j) 100 (by norm_num) (e3 j) (e4 j)⟩

end Cert.PreRange
-- ==== Proof.KI.Final.lean ====
import proofs.«401946_j23227183137529_1_alg».proof.Proof.KI.Region
import proofs.«401946_j23227183137529_1_alg».proof.Proof.KI.Value
import proofs.«401946_j23227183137529_1_alg».proof.Proof.KI.Host
import proofs.«401946_j23227183137529_1_alg».proof.Proof.Ref.Excite
import proofs.«401946_j23227183137529_1_alg».proof.Proof.Ref.Tail
import proofs.«401946_j23227183137529_1_alg».proof.Proof.PreRange
import proofs.«401946_j23227183137529_1_alg».proof.Proof.Gen.Pre_finite_inputs

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (ρ : Dev nD → PrngReg)

/-! # The idealized kernel program's result is the reference's function of the same arguments -/

/-- No host stretch before the region writes an argument. -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := StableHlo.after_of_forall_not_mem (b := Proc.devRef .tc main_arg0) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := StableHlo.after_of_forall_not_mem (b := Proc.devRef .tc main_arg1) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := StableHlo.after_of_forall_not_mem (b := Proc.devRef .tc main_arg1) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_forall_not_mem (b := Proc.devRef .tc main_arg2) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := StableHlo.after_of_forall_not_mem (b := Proc.devRef .tc main_arg2) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_forall_not_mem (b := Proc.devRef .tc main_arg3) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg3) := StableHlo.after_of_forall_not_mem (b := Proc.devRef .tc main_arg3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := StableHlo.after_of_forall_not_mem (b := Proc.devRef .tc main_arg4) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := StableHlo.after_of_forall_not_mem (b := Proc.devRef .tc main_arg4) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := StableHlo.after_of_forall_not_mem (b := Proc.devRef .tc main_arg5) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg5) := StableHlo.after_of_forall_not_mem (b := Proc.devRef .tc main_arg5) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := StableHlo.after_of_forall_not_mem (b := Proc.devRef .tc main_arg5) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-- The reference's result as a function of the six argument arrays. -/
abbrev refResult (c : Dev nD) : Buf (Elt Ideal) ((c.tc : Thread nD τ).loc main_v65) :=
  Cert.ReferenceIdeal.ReadP.val_main_v93 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) (m ((c.tc : Thread nD τ).loc main_arg5))

section
variable [Cert.Pre_finite_inputs.Facts]

/-- Under the precondition the excitation array the kernel leaves is the reference's excitation stage: index by index
    both are the sum over all earlier events of device coupling × type coupling × decay — the kernel's accumulated tile by
    tile over the one-hot products, the reference's summed at once over the gathered tables. -/
theorem excitation_eq (c : Dev nD)
    (hpre : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = (fun _ => 1#1)) :
    Xout m ρ c = Cert.ReferenceIdeal.ReadP.val_main_v46 (F := Ideal) (m ((c.tc : Thread nD τ).loc main_arg0)) (m ((c.tc : Thread nD τ).loc main_arg1))
      (m ((c.tc : Thread nD τ).loc main_arg2)) (m ((c.tc : Thread nD τ).loc main_arg4)) (m ((c.tc : Thread nD τ).loc main_arg5)) := by
  obtain ⟨hr1, hr2⟩ := Cert.PreRange.ranges _ _ _ _ _ _ hpre
  -- the event types and devices as numbers in range
  let e : Fin 8192 → Fin 50 := fun j => ⟨(m ((c.tc : Thread nD τ).loc main_arg1) (ix1 j)).toNat, hr1 (ix1 j)⟩
  let d : Fin 8192 → Fin 100 := fun j => ⟨(m ((c.tc : Thread nD τ).loc main_arg2) (ix1 j)).toNat, hr2 (ix1 j)⟩
  have he : ∀ j : Fin 8192, m ((c.tc : Thread nD τ).loc main_arg1) (ix1 j) = BitVec.ofNat 32 (e j).val := fun j => by
    show _ = BitVec.ofNat 32 (m ((c.tc : Thread nD τ).loc main_arg1) (ix1 j)).toNat
    rw [BitVec.ofNat_toNat, BitVec.setWidth_eq]
  have hd : ∀ j : Fin 8192, m ((c.tc : Thread nD τ).loc main_arg2) (ix1 j) = BitVec.ofNat 32 (d j).val := fun j => by
    show _ = BitVec.ofNat 32 (m ((c.tc : Thread nD τ).loc main_arg2) (ix1 j)).toNat
    rw [BitVec.ofNat_toNat, BitVec.setWidth_eq]
  have key : ∀ j : Fin 8192, Xout m ρ c (ix1 j) = Cert.ReferenceIdeal.ReadP.val_main_v46 (F := Ideal) (m ((c.tc : Thread nD τ).loc main_arg0)) (m ((c.tc : Thread nD τ).loc main_arg1))
      (m ((c.tc : Thread nD τ).loc main_arg2)) (m ((c.tc : Thread nD τ).loc main_arg4)) (m ((c.tc : Thread nD τ).loc main_arg5)) (ix1 j) := fun j => by
    rw [Cert.RefSide.ref_excite _ _ _ _ _ e d he hd j, Cert.Spec.zeroW_eq, zero_add]
    exact excite_array m ρ c _ _ _ e d
      (fun j => congrFun (W4_main_arg0 m ρ c) (ix1 j))
      (fun i k => pre_v10 (W0 m ρ c) e he i k)
      (fun i n => pre_v17 (W0 m ρ c) d hd i n)
      (fun j => (congrFun (W4_main_arg1 m ρ c) (ix1 j)).trans (he j))
      (fun j => (congrFun (W4_main_arg2 m ρ c) (ix1 j)).trans (hd j))
      j
  funext i
  have hi : i = ix1 (i 0) := eq_ix1 i
  exact (congrArg (Xout m ρ c) hi).trans ((key (i 0)).trans (congrArg _ hi.symm))

/-- THE KERNEL PROGRAM'S RUN with its result named: under the precondition every weakly fair execution terminates with the
    result at the reference's function of the arguments, and the arguments unchanged. -/
theorem run_result
    (hpre : ∀ c : Dev nD, Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = (fun _ => 1#1)) :
    θ_run defs (onTc (τ := τ) (main (F := Ideal))) ⟨m, fun _ => 0, ρ⟩ (fun r => ∀ c : Dev nD,
      r.2.mem ((c.tc : Thread nD τ).loc main_v65) = refResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨by
      rw [h c _ (mem_uc main_v65 (by decide))]
      show StableHlo.after hostOps1 (W5 m ρ (Xout m ρ) c) (Proc.devRef .tc main_v65) = _
      rw [tail_v65, W5_out, W5_of_ne m ρ _ c main_arg0 (by decide), W5_of_ne m ρ _ c main_arg1 (by decide), W5_of_ne m ρ _ c main_arg2 (by decide),
        W5_of_ne m ρ _ c main_v0 (by decide), W5_of_ne m ρ _ c main_v1 (by decide), W5_of_ne m ρ _ c main_v2 (by decide),
        W4_main_arg0, W4_main_arg1, W4_main_arg2]
      rw [show W4 m ρ c (Proc.devRef .tc main_v0) = _ from pre_v0 (W0 m ρ c), show W4 m ρ c (Proc.devRef .tc main_v1) = _ from pre_v1 (W0 m ρ c),
        show W4 m ρ c (Proc.devRef .tc main_v2) = _ from pre_v2 (W0 m ρ c)]
      rw [excitation_eq m ρ c (hpre c)]
      exact (Cert.RefSide.ref_tail _ _ _ _ _ _).symm,
      (h c _ (mem_uc main_arg0 (by decide))).trans (W6_main_arg0 m ρ (Xout m ρ) c),
      (h c _ (mem_uc main_arg1 (by decide))).trans (W6_main_arg1 m ρ (Xout m ρ) c),
      (h c _ (mem_uc main_arg2 (by decide))).trans (W6_main_arg2 m ρ (Xout m ρ) c),
      (h c _ (mem_uc main_arg3 (by decide))).trans (W6_main_arg3 m ρ (Xout m ρ) c),
      (h c _ (mem_uc main_arg4 (by decide))).trans (W6_main_arg4 m ρ (Xout m ρ) c),
      (h c _ (mem_uc main_arg5 (by decide))).trans (W6_main_arg5 m ρ (Xout m ρ) c)⟩) (run_main m ρ)

end

end Cert.KernelIdeal.Hand

end
-- ==== Proof.Ref.Run.lean ====
/- The reference program's run, over its stages.

   The reference is one straight line of 173 operations. After them its result buffer holds the last stage's value of
   the six arguments, and no argument buffer has changed. The line is run in four stretches, each from the contents
   the one before leaves: the three softplus calls (the tables mu, alpha, adj); the causal mask and the decay
   exp(-(t_i - t_j)) for j < i; the two gathered factors adj[u_i, u_j] and alpha[e_j, e_i] with the excitation sum over j;
   and the tail (intensity, log-likelihood sum, compensator, loss). A stretch's result is its operations' composed term
   over the buffers it reads, and that term is the stage: each stage is one operation over earlier stages.
   The mask compares iota + (-1) with iota over 8192 x 8192 indices: nothing here evaluates it, the two sides are the
   same operations on the same operands. -/
import proofs.«401946_j23227183137529_1_alg».proof.Proof.RefRun
import proofs.«401946_j23227183137529_1_alg».proof.Proof.RefRead
import proofs.«401946_j23227183137529_1_alg».proof.Proof.Ref.Tail
import Idealize.ShloMosaic.Lib.StableHlo.Run
import Idealize.ShloMosaic.Lib.Pipeline.Frame

-- one declaration at a time: the stretches' folds each hold their whole term while they run
set_option Elab.async false

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- A line of operations run as its first n, then the rest. -/
theorem after_take_drop (n : Nat) (l : List (HloOp τ sig (Elt F))) (V : Valuation τ sig (Elt F)) :
    after l V = after (l.drop n) (after (l.take n) V) := by
  rw [← StableHlo.after_append, List.take_append_drop]

/-! ## Typed references

An inlined callee's operations carry their values to and from the buffers along the equation between the buffer's
type and the value's. At a literal reference that equation is a computation and the carrying is the identity; the
lemmas below say so in the three forms the stretches need, so that no comparison of two programs' terms ever has to
look through one. -/

/-- Contents carried to a typed reference's buffer and back are the contents. -/
theorem ofBuf_toBuf {T : BufTy} (x : TRef sig T) (v : T.Contents (Elt F)) : x.ofBuf (x.toBuf v) = v := by
  obtain ⟨r, h, _, _⟩ := x
  subst h
  rfl

/-- A typed reference's buffer holds w as soon as the value carried there is w read back. -/
theorem toBuf_eq {T : BufTy} (x : TRef sig T) {v : T.Contents (Elt F)} {w : x.ref.ty.Contents (Elt F)}
    (h : v = x.ofBuf w) : x.toBuf v = w := by
  obtain ⟨r, h', _, _⟩ := x
  subst h'
  exact h

-- at the literal references of the mask and decay stretch, on any contents
theorem ofBuf_v3 (w : (⟨S8192x8192, .i1⟩ : BufTy).Contents (Elt F)) : (TRef.of (T := ⟨S8192x8192, .i1⟩) main_v3).ofBuf (Val := Elt F) w = w := rfl
theorem ofBuf_v9 (w : (⟨S8192x8192, .f32⟩ : BufTy).Contents (Elt F)) : (TRef.of (T := ⟨S8192x8192, .f32⟩) main_v9).ofBuf (Val := Elt F) w = w := rfl
theorem toBuf_v10 (w : (⟨S8192x8192, .f32⟩ : BufTy).Contents (Elt F)) : (TRef.of (T := ⟨S8192x8192, .f32⟩) main_v10).toBuf (Val := Elt F) w = w := rfl
theorem ofBuf_v13 (w : (⟨S8192x8192, .f32⟩ : BufTy).Contents (Elt F)) : (TRef.of (T := ⟨S8192x8192, .f32⟩) main_v13).ofBuf (Val := Elt F) w = w := rfl
theorem ofBuf_v14 (w : (⟨S8192x8192, .f32⟩ : BufTy).Contents (Elt F)) : (TRef.of (T := ⟨S8192x8192, .f32⟩) main_v14).ofBuf (Val := Elt F) w = w := rfl
theorem ofBuf_cst (w : (⟨S_, .f32⟩ : BufTy).Contents (Elt F)) : (TRef.of (T := ⟨S_, .f32⟩) main_cst).ofBuf (Val := Elt F) w = w := rfl

/-! ## The three softplus calls (the first forty-two operations) -/

set_option maxRecDepth 16384 in
set_option maxHeartbeats 40000000 in
theorem p_v0 (V : Valuation τ sig (Elt F)) : after ((ValueP.ops (F := F)).take 42) V (Proc.devRef .tc main_v0) = ReadP.val_main_v0 (F := F) (V (Proc.devRef .tc main_arg3)) := by
  simp only [ValueP.ops, List.take_succ_cons, List.take_zero, List.drop_succ_cons, List.drop_zero]
  after_results_simp
  simp only [TRef.ofBuf, TRef.toBuf, cast_eq]
  rfl

set_option maxRecDepth 16384 in
set_option maxHeartbeats 40000000 in
theorem p_v1 (V : Valuation τ sig (Elt F)) : after ((ValueP.ops (F := F)).take 42) V (Proc.devRef .tc main_v1) = ReadP.val_main_v1 (F := F) (V (Proc.devRef .tc main_arg4)) := by
  simp only [ValueP.ops, List.take_succ_cons, List.take_zero, List.drop_succ_cons, List.drop_zero]
  after_results_simp
  simp only [TRef.ofBuf, TRef.toBuf, cast_eq]
  rfl

set_option maxRecDepth 16384 in
set_option maxHeartbeats 40000000 in
theorem p_v2 (V : Valuation τ sig (Elt F)) : after ((ValueP.ops (F := F)).take 42) V (Proc.devRef .tc main_v2) = ReadP.val_main_v2 (F := F) (V (Proc.devRef .tc main_arg5)) := by
  simp only [ValueP.ops, List.take_succ_cons, List.take_zero, List.drop_succ_cons, List.drop_zero]
  after_results_simp
  simp only [TRef.ofBuf, TRef.toBuf, cast_eq]
  rfl

set_option maxRecDepth 16384 in
set_option maxHeartbeats 40000000 in
theorem p_arg0 (V : Valuation τ sig (Elt F)) : after ((ValueP.ops (F := F)).take 42) V (Proc.devRef .tc main_arg0) = V (Proc.devRef .tc main_arg0) := by
  simp only [ValueP.ops, List.take_succ_cons, List.take_zero, List.drop_succ_cons, List.drop_zero]
  after_results_simp

set_option maxRecDepth 16384 in
set_option maxHeartbeats 40000000 in
theorem p_arg1 (V : Valuation τ sig (Elt F)) : after ((ValueP.ops (F := F)).take 42) V (Proc.devRef .tc main_arg1) = V (Proc.devRef .tc main_arg1) := by
  simp only [ValueP.ops, List.take_succ_cons, List.take_zero, List.drop_succ_cons, List.drop_zero]
  after_results_simp

set_option maxRecDepth 16384 in
set_option maxHeartbeats 40000000 in
theorem p_arg2 (V : Valuation τ sig (Elt F)) : after ((ValueP.ops (F := F)).take 42) V (Proc.devRef .tc main_arg2) = V (Proc.devRef .tc main_arg2) := by
  simp only [ValueP.ops, List.take_succ_cons, List.take_zero, List.drop_succ_cons, List.drop_zero]
  after_results_simp

/-! ## The causal mask and the decay (the next twenty-eight operations) -/

set_option maxRecDepth 16384 in
set_option maxHeartbeats 40000000 in
/-- The masked decay exp(-(t_i - t_j)) for j < i, zero elsewhere: the stage of the times alone. The mask compares
    iota + (-1) with iota; the two sides are compared only after every typed reference is gone, operation by operation,
    never by evaluating that sum. -/
theorem q1_v14 (V : Valuation τ sig (Elt F)) : after (((ValueP.ops (F := F)).drop 42).take 28) V (Proc.devRef .tc main_v14) = ReadP.val_main_v14 (F := F) (V (Proc.devRef .tc main_arg0)) := by
  simp only [ValueP.ops, List.take_succ_cons, List.take_zero, List.drop_succ_cons, List.drop_zero]
  after_results_simp
  simp only [ofBuf_toBuf]
  refine toBuf_eq _ ?_
  rw [ofBuf_v14, ofBuf_v3, ofBuf_v13, toBuf_v10, ofBuf_v9, ofBuf_cst]
  rfl

set_option maxRecDepth 16384 in
set_option maxHeartbeats 40000000 in
theorem q1_arg0 (V : Valuation τ sig (Elt F)) : after (((ValueP.ops (F := F)).drop 42).take 28) V (Proc.devRef .tc main_arg0) = V (Proc.devRef .tc main_arg0) := by
  simp only [ValueP.ops, List.take_succ_cons, List.take_zero, List.drop_succ_cons, List.drop_zero]
  after_results_simp

set_option maxRecDepth 16384 in
set_option maxHeartbeats 40000000 in
theorem q1_arg1 (V : Valuation τ sig (Elt F)) : after (((ValueP.ops (F := F)).drop 42).take 28) V (Proc.devRef .tc main_arg1) = V (Proc.devRef .tc main_arg1) := by
  simp only [ValueP.ops, List.take_succ_cons, List.take_zero, List.drop_succ_cons, List.drop_zero]
  after_results_simp

set_option maxRecDepth 16384 in
set_option maxHeartbeats 40000000 in
theorem q1_arg2 (V : Valuation τ sig (Elt F)) : after (((ValueP.ops (F := F)).drop 42).take 28) V (Proc.devRef .tc main_arg2) = V (Proc.devRef .tc main_arg2) := by
  simp only [ValueP.ops, List.take_succ_cons, List.take_zero, List.drop_succ_cons, List.drop_zero]
  after_results_simp

set_option maxRecDepth 16384 in
set_option maxHeartbeats 40000000 in
theorem q1_v0 (V : Valuation τ sig (Elt F)) : after (((ValueP.ops (F := F)).drop 42).take 28) V (Proc.devRef .tc main_v0) = V (Proc.devRef .tc main_v0) := by
  simp only [ValueP.ops, List.take_succ_cons, List.take_zero, List.drop_succ_cons, List.drop_zero]
  after_results_simp

set_option maxRecDepth 16384 in
set_option maxHeartbeats 40000000 in
theorem q1_v1 (V : Valuation τ sig (Elt F)) : after (((ValueP.ops (F := F)).drop 42).take 28) V (Proc.devRef .tc main_v1) = V (Proc.devRef .tc main_v1) := by
  simp only [ValueP.ops, List.take_succ_cons, List.take_zero, List.drop_succ_cons, List.drop_zero]
  after_results_simp

set_option maxRecDepth 16384 in
set_option maxHeartbeats 40000000 in
theorem q1_v2 (V : Valuation τ sig (Elt F)) : after (((ValueP.ops (F := F)).drop 42).take 28) V (Proc.devRef .tc main_v2) = V (Proc.devRef .tc main_v2) := by
  simp only [ValueP.ops, List.take_succ_cons, List.take_zero, List.drop_succ_cons, List.drop_zero]
  after_results_simp

/-! ## The two gathered factors and the excitation sum (the next forty-one operations) -/

set_option maxRecDepth 16384 in
set_option maxHeartbeats 40000000 in
/-- From contents holding the masked decay and the alpha and adj tables, the excitation buffer ends at the
    reference's excitation stage. -/
theorem q2_v46 (V : Valuation τ sig (Elt F)) (x0 : (⟨S8192, .f32⟩ : BufTy).Contents (Elt F)) (x4 : (⟨S50x50, .f32⟩ : BufTy).Contents (Elt F))
    (x5 : (⟨S100x100, .f32⟩ : BufTy).Contents (Elt F))
    (h14 : V (Proc.devRef .tc main_v14) = ReadP.val_main_v14 (F := F) x0)
    (h1 : V (Proc.devRef .tc main_v1) = ReadP.val_main_v1 (F := F) x4) (h2 : V (Proc.devRef .tc main_v2) = ReadP.val_main_v2 (F := F) x5) :
    after ((((ValueP.ops (F := F)).drop 42).drop 28).take 41) V (Proc.devRef .tc main_v46)
      = ReadP.val_main_v46 (F := F) x0 (V (Proc.devRef .tc main_arg1)) (V (Proc.devRef .tc main_arg2)) x4 x5 := by
  simp only [ValueP.ops, List.take_succ_cons, List.take_zero, List.drop_succ_cons, List.drop_zero]
  after_results_simp
  rw [h14, h1, h2]
  rfl

set_option maxRecDepth 16384 in
set_option maxHeartbeats 40000000 in
theorem q2_arg0 (V : Valuation τ sig (Elt F)) : after ((((ValueP.ops (F := F)).drop 42).drop 28).take 41) V (Proc.devRef .tc main_arg0) = V (Proc.devRef .tc main_arg0) := by
  simp only [ValueP.ops, List.take_succ_cons, List.take_zero, List.drop_succ_cons, List.drop_zero]
  after_results_simp

set_option maxRecDepth 16384 in
set_option maxHeartbeats 40000000 in
theorem q2_arg1 (V : Valuation τ sig (Elt F)) : after ((((ValueP.ops (F := F)).drop 42).drop 28).take 41) V (Proc.devRef .tc main_arg1) = V (Proc.devRef .tc main_arg1) := by
  simp only [ValueP.ops, List.take_succ_cons, List.take_zero, List.drop_succ_cons, List.drop_zero]
  after_results_simp

set_option maxRecDepth 16384 in
set_option maxHeartbeats 40000000 in
theorem q2_arg2 (V : Valuation τ sig (Elt F)) : after ((((ValueP.ops (F := F)).drop 42).drop 28).take 41) V (Proc.devRef .tc main_arg2) = V (Proc.devRef .tc main_arg2) := by
  simp only [ValueP.ops, List.take_succ_cons, List.take_zero, List.drop_succ_cons, List.drop_zero]
  after_results_simp

set_option maxRecDepth 16384 in
set_option maxHeartbeats 40000000 in
theorem q2_v0 (V : Valuation τ sig (Elt F)) : after ((((ValueP.ops (F := F)).drop 42).drop 28).take 41) V (Proc.devRef .tc main_v0) = V (Proc.devRef .tc main_v0) := by
  simp only [ValueP.ops, List.take_succ_cons, List.take_zero, List.drop_succ_cons, List.drop_zero]
  after_results_simp

set_option maxRecDepth 16384 in
set_option maxHeartbeats 40000000 in
theorem q2_v1 (V : Valuation τ sig (Elt F)) : after ((((ValueP.ops (F := F)).drop 42).drop 28).take 41) V (Proc.devRef .tc main_v1) = V (Proc.devRef .tc main_v1) := by
  simp only [ValueP.ops, List.take_succ_cons, List.take_zero, List.drop_succ_cons, List.drop_zero]
  after_results_simp

set_option maxRecDepth 16384 in
set_option maxHeartbeats 40000000 in
theorem q2_v2 (V : Valuation τ sig (Elt F)) : after ((((ValueP.ops (F := F)).drop 42).drop 28).take 41) V (Proc.devRef .tc main_v2) = V (Proc.devRef .tc main_v2) := by
  simp only [ValueP.ops, List.take_succ_cons, List.take_zero, List.drop_succ_cons, List.drop_zero]
  after_results_simp

/-! ## The tail (the last sixty-two operations) -/

set_option maxRecDepth 16384 in
set_option maxHeartbeats 40000000 in
theorem r_v93 (V : Valuation τ sig (Elt F)) : after ((((ValueP.ops (F := F)).drop 42).drop 28).drop 41) V (Proc.devRef .tc main_v93)
      = tailF (F := F) (V (Proc.devRef .tc main_v46)) (V (Proc.devRef .tc main_arg0)) (V (Proc.devRef .tc main_arg1)) (V (Proc.devRef .tc main_arg2))
          (V (Proc.devRef .tc main_v0)) (V (Proc.devRef .tc main_v1)) (V (Proc.devRef .tc main_v2)) := by
  simp only [ValueP.ops, List.take_succ_cons, List.take_zero, List.drop_succ_cons, List.drop_zero]
  after_results_simp
  rfl

/-! ## The whole line -/

/-- The reference's result buffer, after all its operations from any contents, holds its last stage of the six
    arguments: the four stretches in turn, each from what the one before leaves. -/
theorem after_ops_v93 (W : Valuation τ sig (Elt F)) : after (ValueP.ops (F := F)) W (Proc.devRef .tc main_v93)
      = ReadP.val_main_v93 (F := F) (W (Proc.devRef .tc main_arg0)) (W (Proc.devRef .tc main_arg1)) (W (Proc.devRef .tc main_arg2))
          (W (Proc.devRef .tc main_arg3)) (W (Proc.devRef .tc main_arg4)) (W (Proc.devRef .tc main_arg5)) := by
  rw [after_take_drop 42 (ValueP.ops (F := F)) W, after_take_drop 28 ((ValueP.ops (F := F)).drop 42) _, after_take_drop 41 (((ValueP.ops (F := F)).drop 42).drop 28) _, r_v93]
  rw [q2_v46 _ (W (Proc.devRef .tc main_arg0)) (W (Proc.devRef .tc main_arg4)) (W (Proc.devRef .tc main_arg5))
      (by rw [q1_v14, p_arg0]) (by rw [q1_v1, p_v1]) (by rw [q1_v2, p_v2])]
  rw [q2_arg0, q2_arg1, q2_arg2, q2_v0, q2_v1, q2_v2, q1_arg0, q1_arg1, q1_arg2, q1_v0, q1_v1, q1_v2,
    p_arg0, p_arg1, p_arg2, p_v0, p_v1, p_v2, ref_tailF]

set_option maxRecDepth 8192 in
set_option maxHeartbeats 40000000 in
/-- THE REFERENCE'S RUN: from any memory with zero counters every weakly fair execution of @main terminates with the
    result at the last stage's value of the arguments, and the arguments unchanged. -/
theorem ref_run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v93) = Cert.ReferenceIdeal.ReadP.val_main_v93 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v93).trans (after_ops_v93 _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq Cert.ReferenceIdeal.ValueP.scopedRefs_eq Cert.ReferenceIdeal.ValueP.scopedSems_eq defs main (fun _ => Cert.ReferenceIdeal.ValueP.ops) Cert.ReferenceIdeal.ValueP.main_eq (fun _ => Cert.ReferenceIdeal.ValueP.ops_sub) m ρ)

end Cert.RefSide

end
-- ==== Proof.lean ====
/- The certificate of the Hawkes-process log-likelihood kernel against its jnp reference.

   The kernel program computes, for each of 8192 events, the excitation it receives from all strictly earlier events —
   device coupling × event-type coupling × exponential decay — inside one pallas_call on an 8 × 8 grid of 1024 × 1024
   tiles: the two couplings are read out of per-event rows by one-hot matrix products, the products are summed over each key
   tile and accumulated in a scratch buffer, which is cleared at the first key tile and copied to the output at the last.
   The reference gathers both couplings as full 8192 × 8192 tables and sums once. Around the excitation both programs apply
   the same host operations.

   The three frames: the reference's is its run; each kernel program's goes through the segments of its @main, the
   region's two windows on the array of event times holding its two half shares. The two idealized programs agree because,
   index by index, both excitations are the same sum over earlier events (an event type or device in range picks exactly one
   entry of its one-hot row, whatever extended real the other factor is), and eight tile sums added in order are the whole sum;
   the rest is one shared function of the excitation and the arguments. The precondition says every event type is below 50
   and every device below 100: outside that range the reference's own gathers index out of range. -/
import proofs.«401946_j23227183137529_1_alg».proof.Defs
import proofs.«401946_j23227183137529_1_alg».proof.Proof.Gen.Kernel
import proofs.«401946_j23227183137529_1_alg».proof.Proof.Gen.KernelIdeal
import proofs.«401946_j23227183137529_1_alg».proof.Proof.Gen.ReferenceIdeal
import proofs.«401946_j23227183137529_1_alg».proof.Proof.Gen.Pre_finite_inputs
import proofs.«401946_j23227183137529_1_alg».proof.Proof.K.Region
import proofs.«401946_j23227183137529_1_alg».proof.Proof.KI.Final
import proofs.«401946_j23227183137529_1_alg».proof.Proof.Ref.Run
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  -- the word-level kernel program runs and leaves its arguments alone
  fun m ρ _ => Cert.Kernel.Hand.frame m ρ,
  -- so does its idealization
  fun m ρ _ => Cert.KernelIdeal.Hand.frame m ρ,
  -- and the reference: its run with the result dropped
  fun m ρ _ => (θ_run Cert.ReferenceIdeal.defs _ _).mono (fun _ h c => (h c).2) (Cert.RefSide.ref_run (F := Ideal) m ρ),
  -- the ideal pass rewrote nothing
  trivial,
  -- the two idealized programs end with the same result: the reference's function of the (shared) arguments
  fun m ρ m' ρ' hpre hagree =>
    ⟨fun c => Cert.KernelIdeal.Hand.refResult m c,
     Cert.KernelIdeal.Hand.run_result m ρ hpre,
     (θ_run Cert.ReferenceIdeal.defs _ _).mono (fun _ h c => ⟨by
        rw [(h c).1, (hagree c).1, (hagree c).2.1, (hagree c).2.2.1, (hagree c).2.2.2.1, (hagree c).2.2.2.2.1, (hagree c).2.2.2.2.2], (h c).2⟩)
       (Cert.RefSide.ref_run (F := Ideal) m' ρ')⟩⟩

end Cert.Proof

end
